-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S384x512 : Shape := ⟨2, ![384, 512]⟩
abbrev S384 : Shape := ⟨1, ![384]⟩
abbrev S_ : Shape := ⟨0, ![]⟩

class Facts : Prop where
  bcast_S_S384x512 : S_.BroadcastsInDim S384x512 (![] : Fin 0 → Fin S384x512.rank)
  reducesTo_S384x512_S_d0_1 : S384x512.ReducesTo [0, 1] S_
  h_S_ : 0 < S_.numel
  bcast_S_S384 : S_.BroadcastsInDim S384 (![] : Fin 0 → Fin S384.rank)
  reducesTo_S384_S_d0 : S384.ReducesTo [0] S_

variable [Facts]

def fn {F : FTy → Type} [FloatOps F] (main_arg0 : FVec F S384x512 .f32) (main_arg1 : FVec F S384x512 .f32) (main_arg2 : IVec S384 32) : IVec S_ 1 :=
  let main_v0 : FVec F S384x512 .f32 := Host.absf main_arg0
  let main_cst : FVec F S_ .f32 := constant S_ .f32 0x7F800000#32
  let main_v1 : FVec F S384x512 .f32 := broadcastInDim S384x512 ![] bcast_S_S384x512 main_cst
  let main_v2 : IVec S384x512 1 := cmpf .olt main_v0 main_v1
  let main_c : IVec S_ 1 := constantI S_ 1 1#1
  let main_v3 : IVec S_ 1 := (fun x v => Host.reduce IntOp.andi x v reducesTo_S384x512_S_d0_1 h_S_) main_v2 main_c
  let main_v4 : FVec F S384x512 .f32 := Host.absf main_arg1
  let main_cst_0 : FVec F S_ .f32 := constant S_ .f32 0x7F800000#32
  let main_v5 : FVec F S384x512 .f32 := broadcastInDim S384x512 ![] bcast_S_S384x512 main_cst_0
  let main_v6 : IVec S384x512 1 := cmpf .olt main_v4 main_v5
  let main_c_1 : IVec S_ 1 := constantI S_ 1 1#1
  let main_v7 : IVec S_ 1 := (fun x v => Host.reduce IntOp.andi x v reducesTo_S384x512_S_d0_1 h_S_) main_v6 main_c_1
  let main_v8 : IVec S_ 1 := andi main_v3 main_v7
  let main_c_2 : IVec S_ 32 := constantI S_ 32 0#32
  let main_v9 : IVec S384 32 := broadcastInDim S384 ![] bcast_S_S384 main_c_2
  let main_v10 : IVec S384 1 := cmpi .sge main_arg2 main_v9
  let main_c_3 : IVec S_ 32 := constantI S_ 32 512#32
  let main_v11 : IVec S384 32 := broadcastInDim S384 ![] bcast_S_S384 main_c_3
  let main_v12 : IVec S384 1 := cmpi .slt main_arg2 main_v11
  let main_v13 : IVec S384 1 := andi main_v10 main_v12
  let main_c_4 : IVec S_ 1 := constantI S_ 1 1#1
  let main_v14 : IVec S_ 1 := (fun x v => Host.reduce IntOp.andi x v reducesTo_S384_S_d0 h_S_) main_v13 main_c_4
  let main_v15 : IVec S_ 1 := andi main_v8 main_v14
  main_v15
-- ==== Kernel.lean ====
abbrev S384x512 : Shape := ⟨2, ![384, 512]⟩
abbrev S384 : Shape := ⟨1, ![384]⟩
abbrev S_ : Shape := ⟨0, ![]⟩
abbrev S384x1 : Shape := ⟨2, ![384, 1]⟩
abbrev S384x1x1 : Shape := ⟨3, ![384, 1, 1]⟩
abbrev S1 : Shape := ⟨1, ![1]⟩
abbrev S1x1x1 : Shape := ⟨3, ![1, 1, 1]⟩
abbrev S1x1 : Shape := ⟨2, ![1, 1]⟩
abbrev S512x384 : Shape := ⟨2, ![512, 384]⟩
abbrev S384x384 : Shape := ⟨2, ![384, 384]⟩
abbrev S1x384 : Shape := ⟨2, ![1, 384]⟩
abbrev S8x512 : Shape := ⟨2, ![8, 512]⟩
abbrev S1x384x512 : Shape := ⟨3, ![1, 384, 512]⟩
abbrev S8x1x512 : Shape := ⟨3, ![8, 1, 512]⟩
abbrev S8x384x512 : Shape := ⟨3, ![8, 384, 512]⟩
abbrev S8x384 : Shape := ⟨2, ![8, 384]⟩
abbrev S8x384x1 : Shape := ⟨3, ![8, 384, 1]⟩
abbrev S8x384x384 : Shape := ⟨3, ![8, 384, 384]⟩
abbrev S8x1 : Shape := ⟨2, ![8, 1]⟩
abbrev S8x1x1 : Shape := ⟨3, ![8, 1, 1]⟩

abbrev nBuf : Space → Nat
  | .hbm => 55
  | .vmem => 10
  | .smem => 0
  | _ => 0

abbrev bufTy : (tb : Table) → Fin (tcTables nBuf tb) → BufTy
  | .hbm, ⟨0, _⟩ => ⟨S384x512, .f32⟩
  | .hbm, ⟨1, _⟩ => ⟨S384x512, .f32⟩
  | .hbm, ⟨2, _⟩ => ⟨S384, .i32⟩
  | .hbm, ⟨3, _⟩ => ⟨S_, .f32⟩
  | .hbm, ⟨4, _⟩ => ⟨S384, .f32⟩
  | .hbm, ⟨5, _⟩ => ⟨S_, .f32⟩
  | .hbm, ⟨6, _⟩ => ⟨S384, .f32⟩
  | .hbm, ⟨7, _⟩ => ⟨S384, .f32⟩
  | .hbm, ⟨8, _⟩ => ⟨S384x1, .f32⟩
  | .hbm, ⟨9, _⟩ => ⟨S384x512, .f32⟩
  | .hbm, ⟨10, _⟩ => ⟨S384x512, .f32⟩
  | .hbm, ⟨11, _⟩ => ⟨S384x512, .f32⟩
  | .hbm, ⟨12, _⟩ => ⟨S_, .f32⟩
  | .hbm, ⟨13, _⟩ => ⟨S384, .f32⟩
  | .hbm, ⟨14, _⟩ => ⟨S384x1, .f32⟩
  | .hbm, ⟨15, _⟩ => ⟨S384x1, .f32⟩
  | .hbm, ⟨16, _⟩ => ⟨S384x512, .f32⟩
  | .hbm, ⟨17, _⟩ => ⟨S384x512, .f32⟩
  | .hbm, ⟨18, _⟩ => ⟨S384x1, .i32⟩
  | .hbm, ⟨19, _⟩ => ⟨S_, .i32⟩
  | .hbm, ⟨20, _⟩ => ⟨S384x1, .i32⟩
  | .hbm, ⟨21, _⟩ => ⟨S384x1, .i1⟩
  | .hbm, ⟨22, _⟩ => ⟨S_, .i32⟩
  | .hbm, ⟨23, _⟩ => ⟨S384x1, .i32⟩
  | .hbm, ⟨24, _⟩ => ⟨S384x1, .i32⟩
  | .hbm, ⟨25, _⟩ => ⟨S384x1, .i32⟩
  | .hbm, ⟨26, _⟩ => ⟨S384x1x1, .i32⟩
  | .hbm, ⟨27, _⟩ => ⟨S1, .i32⟩
  | .hbm, ⟨28, _⟩ => ⟨S_, .i32⟩
  | .hbm, ⟨29, _⟩ => ⟨S384x1x1, .i32⟩
  | .hbm, ⟨30, _⟩ => ⟨S384x1x1, .i1⟩
  | .hbm, ⟨31, _⟩ => ⟨S1x1x1, .i32⟩
  | .hbm, ⟨32, _⟩ => ⟨S384x1x1, .i32⟩
  | .hbm, ⟨33, _⟩ => ⟨S384x1x1, .i1⟩
  | .hbm, ⟨34, _⟩ => ⟨S384x1x1, .i1⟩
  | .hbm, ⟨35, _⟩ => ⟨S_, .i1⟩
  | .hbm, ⟨36, _⟩ => ⟨S384x1, .i1⟩
  | .hbm, ⟨37, _⟩ => ⟨S384x1, .f32⟩
  | .hbm, ⟨38, _⟩ => ⟨S_, .f32⟩
  | .hbm, ⟨39, _⟩ => ⟨S384x1, .f32⟩
  | .hbm, ⟨40, _⟩ => ⟨S384x1, .f32⟩
  | .hbm, ⟨41, _⟩ => ⟨S384, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S1x1, .f32⟩
  | .hbm, ⟨48, _⟩ => ⟨S_, .f32⟩
  | .hbm, ⟨49, _⟩ => ⟨S1x1, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .local _ .vmem, ⟨0, _⟩ => ⟨S384x512, .f32⟩
  | .local _ .vmem, ⟨1, _⟩ => ⟨S384x512, .f32⟩
  | .local _ .vmem, ⟨2, _⟩ => ⟨S1x1, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S384x512, .f32⟩
  | .local _ .vmem, ⟨8, _⟩ => ⟨S384x512, .f32⟩
  | .local _ .vmem, ⟨9, _⟩ => ⟨S1x1, .f32⟩
  | _, _ => ⟨S384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v2 : Ref sig .tc := ⟨.hbm, 40, rfl⟩
abbrev main_v3 : Ref sig .tc := ⟨.hbm, 41, rfl⟩
abbrev main_cst : Ref sig .tc := ⟨.hbm, 42, rfl⟩
abbrev main_v4 : Ref sig .tc := ⟨.hbm, 43, rfl⟩
abbrev main_cst_0 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst_1 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S384x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S384x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![48], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S384x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S384x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  reducesTo_S384x512_S384_d1 : S384x512.ReducesTo [1] S384
  h_S_ : 0 < S_.numel
  bcast_S_S384 : S_.BroadcastsInDim S384 (![] : Fin 0 → Fin S384.rank)
  bcast_S384_S384x1_0 : S384.BroadcastsInDim S384x1 (![0] : Fin 1 → Fin S384x1.rank)
  bcast_S384x1_S384x512_0_1 : S384x1.BroadcastsInDim S384x512 (![0, 1] : Fin 2 → Fin S384x512.rank)
  bcast_S_S384x1 : S_.BroadcastsInDim S384x1 (![] : Fin 0 → Fin S384x1.rank)
  shapeCasts_S384x1_S384x1x1 : S384x1.ShapeCasts S384x1x1
  bcast_S_S384x1x1 : S_.BroadcastsInDim S384x1x1 (![] : Fin 0 → Fin S384x1x1.rank)
  bcast_S1_S1x1x1_2 : S1.BroadcastsInDim S1x1x1 (![2] : Fin 1 → Fin S1x1x1.rank)
  bcast_S1x1x1_S384x1x1_0_1_2 : S1x1x1.BroadcastsInDim S384x1x1 (![0, 1, 2] : Fin 3 → Fin S384x1x1.rank)
  reducesTo_S384x1x1_S384x1_d2 : S384x1x1.ReducesTo [2] S384x1
  shapeCasts_S384x1_S384 : S384x1.ShapeCasts S384
  reducesTo_S384_S_d0 : S384.ReducesTo [0] S_
  inb_S384x512_S384x512_0_0 : ∀ a, (![0, 0] : Fin 2 → Nat) a + S384x512.size a ≤ S384x512.size a
  h_S384x512 : 0 < S384x512.numel
  reduces_S384x512_S384 : S384x512.Reduces [1] S384
  shapeCasts_S384_S384x1 : S384.ShapeCasts S384x1
  bitsLt_bf16_f32 : FTy.bits .bf16 < FTy.bits .f32
  transposes_S384x512_p1_0_S512x384 : S384x512.Transposes [1, 0] S512x384
  transposes_S384x1_p1_0_S1x384 : S384x1.Transposes [1, 0] S1x384
  broadcasts_S384x1_S384x384 : S384x1.Broadcasts S384x384
  broadcasts_S1x384_S384x384 : S1x384.Broadcasts S384x384
  iota_S384x384_d0_w32 : S384x384.Iotas .tc 32 [0]
  iota_S384x384_d1_w32 : S384x384.Iotas .tc 32 [1]
  natLt_1_32 : 1 < 32
  reduces_S384x384_S384 : S384x384.Reduces [1] S384
  reduces_S384x1_S1 : S384x1.Reduces [0] S1
  shapeCasts_S1_S1x1 : S1.ShapeCasts S1x1
  broadcasts_S1x1_S384x384 : S1x1.Broadcasts S384x384
  inb_S1x1_S1x1_0_0 : ∀ a, (![0, 0] : Fin 2 → Nat) a + S1x1.size a ≤ S1x1.size a
  h_S1x1 : 0 < S1x1.numel
  shapeCasts_S1x1_S_ : S1x1.ShapeCasts S_
  inb_S8x512_S8x512_0_0 : ∀ a, (![0, 0] : Fin 2 → Nat) a + S8x512.size a ≤ S8x512.size a
  h_S8x512 : 0 < S8x512.numel
  shapeCasts_S384x512_S1x384x512 : S384x512.ShapeCasts S1x384x512
  shapeCasts_S8x512_S8x1x512 : S8x512.ShapeCasts S8x1x512
  broadcasts_S1x384x512_S8x384x512 : S1x384x512.Broadcasts S8x384x512
  broadcasts_S8x1x512_S8x384x512 : S8x1x512.Broadcasts S8x384x512
  reduces_S8x384x512_S8x384 : S8x384x512.Reduces [2] S8x384
  shapeCasts_S8x384_S8x384x1 : S8x384.ShapeCasts S8x384x1
  broadcasts_S8x384x1_S8x384x512 : S8x384x1.Broadcasts S8x384x512
  reduces_S8x384x384_S8x384 : S8x384x384.Reduces [2] S8x384
  reduces_S8x384x1_S8x1 : S8x384x1.Reduces [1] S8x1
  shapeCasts_S8x1_S8x1x1 : S8x1.ShapeCasts S8x1x1
  reduces_S8x1x1_S1x1 : S8x1x1.Reduces [0] S1x1
  shapeCasts_S1x1_S1x1x1 : S1x1.ShapeCasts S1x1x1
  shapeCasts_S1x1_S1x1 : S1x1.ShapeCasts S1x1
  shapeCasts_S1x1x1_S1x1 : S1x1x1.ShapeCasts S1x1
  gather_S384x512_S384x1x1_S384x1_n_1_0_0_1_2_11_wf : GatherDims.WF S384x512 S384x1x1 S384x1 [] [1] [0] [1] [0] 2 ![1, 1]
  dot_S384x512_S512x384_S384x384_1_0_0_1_n_n_wf : DotDims.WF S384x512 S512x384 S384x384 [1] [0] [0] [1] [] []
  dot_S8x384x512_S8x384x512_S8x384x384_2_2_1_1_0_0_wf : DotDims.WF S8x384x512 S8x384x512 S8x384x384 [2] [2] [1] [1] [0] [0]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S384x512.size a ≤ S384x512.size a
  hwx0_0 : ∀ i : grid0.Coords, EltTy.bits .f32 = 32 ∨ (Rect.block (s := S384x512) S384x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x512.size a ≤ S384x512.size a
  hwx0_1 : ∀ i : grid0.Coords, EltTy.bits .f32 = 32 ∨ (Rect.block (s := S384x512) S384x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x512.size a ≤ S384x512.size a
  hwx1_0 : ∀ i : grid1.Coords, EltTy.bits .f32 = 32 ∨ (Rect.block (s := S384x512) S8x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x512.size a ≤ S384x512.size a
  hwx1_1 : ∀ i : grid1.Coords, EltTy.bits .f32 = 32 ∨ (Rect.block (s := S384x512) S8x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S384x512.size a ≤ S384x512.size a
  hwx1_2 : ∀ i : grid1.Coords, EltTy.bits .f32 = 32 ∨ (Rect.block (s := S384x512) S384x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S384x512.size a ≤ S384x512.size a
  hwx1_3 : ∀ i : grid1.Coords, EltTy.bits .f32 = 32 ∨ (Rect.block (s := S384x512) S384x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

def gather_S384x512_S384x1x1_S384x1_n_1_0_0_1_2_11 : GatherDims S384x512 S384x1x1 S384x1 where
  offsetDims := []
  collapsedSliceDims := [1]
  operandBatchingDims := [0]
  startIndicesBatchingDims := [0]
  startIndexMap := [1]
  indexVectorDim := 2
  sliceSizes := ![1, 1]
  wf := gather_S384x512_S384x1x1_S384x1_n_1_0_0_1_2_11_wf
def dot_S384x512_S512x384_S384x384_1_0_0_1_n_n : DotDims S384x512 S512x384 S384x384 where
  lhsContracting := [1]
  rhsContracting := [0]
  lhsNonContracting := [0]
  rhsNonContracting := [1]
  lhsBatch := []
  rhsBatch := []
  wf := dot_S384x512_S512x384_S384x384_1_0_0_1_n_n_wf
def dot_S8x384x512_S8x384x512_S8x384x384_2_2_1_1_0_0 : DotDims S8x384x512 S8x384x512 S8x384x384 where
  lhsContracting := [2]
  rhsContracting := [2]
  lhsNonContracting := [1]
  rhsNonContracting := [1]
  lhsBatch := [0]
  rhsBatch := [0]
  wf := dot_S8x384x512_S8x384x512_S8x384x384_2_2_1_1_0_0_wf

abbrev win0_0 : Pipeline.Window sig grid0 :=
  Pipeline.Window.ofSpec (Memref.whole main_arg0) S384x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S384x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S8x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S8x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S384x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S384x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S384x512 : Shape := ⟨2, ![384, 512]⟩
abbrev S384 : Shape := ⟨1, ![384]⟩
abbrev S_ : Shape := ⟨0, ![]⟩
abbrev S384x1 : Shape := ⟨2, ![384, 1]⟩
abbrev S384x2 : Shape := ⟨2, ![384, 2]⟩
abbrev S512x384 : Shape := ⟨2, ![512, 384]⟩
abbrev S384x384 : Shape := ⟨2, ![384, 384]⟩
abbrev S1x384 : Shape := ⟨2, ![1, 384]⟩
abbrev S1x384x512 : Shape := ⟨3, ![1, 384, 512]⟩
abbrev S384x1x512 : Shape := ⟨3, ![384, 1, 512]⟩
abbrev S384x384x512 : Shape := ⟨3, ![384, 384, 512]⟩
abbrev S384x384x1 : Shape := ⟨3, ![384, 384, 1]⟩
abbrev S384x384x384 : Shape := ⟨3, ![384, 384, 384]⟩

abbrev nBuf : Space → Nat
  | .hbm => 210
  | .vmem => 0
  | .smem => 0
  | _ => 0

abbrev hbmTy0_0 (i : Nat) : BufTy := match i % 128 with
  | 0 => ⟨S384x512, .f32⟩
  | 1 => ⟨S384x512, .f32⟩
  | 2 => ⟨S384, .i32⟩
  | 3 => ⟨S_, .f32⟩
  | 4 => ⟨S384, .f32⟩
  | 5 => ⟨S_, .f32⟩
  | 6 => ⟨S384, .f32⟩
  | 7 => ⟨S384, .f32⟩
  | 8 => ⟨S384x1, .f32⟩
  | 9 => ⟨S384x512, .f32⟩
  | 10 => ⟨S384x512, .f32⟩
  | 11 => ⟨S384x512, .f32⟩
  | 12 => ⟨S_, .f32⟩
  | 13 => ⟨S384, .f32⟩
  | 14 => ⟨S384x1, .f32⟩
  | 15 => ⟨S384x1, .f32⟩
  | 16 => ⟨S384x512, .f32⟩
  | 17 => ⟨S384x512, .f32⟩
  | 18 => ⟨S384, .i32⟩
  | 19 => ⟨S_, .i32⟩
  | 20 => ⟨S384, .i32⟩
  | 21 => ⟨S384, .i1⟩
  | 22 => ⟨S_, .i32⟩
  | 23 => ⟨S384, .i32⟩
  | 24 => ⟨S384, .i32⟩
  | 25 => ⟨S384, .i32⟩
  | 26 => ⟨S_, .i32⟩
  | 27 => ⟨S384, .i32⟩
  | 28 => ⟨S384, .i1⟩
  | 29 => ⟨S_, .i32⟩
  | 30 => ⟨S384, .i32⟩
  | 31 => ⟨S384, .i32⟩
  | 32 => ⟨S384, .i32⟩
  | 33 => ⟨S384x1, .i32⟩
  | 34 => ⟨S384x1, .i32⟩
  | 35 => ⟨S384x2, .i32⟩
  | 36 => ⟨S384, .f32⟩
  | 37 => ⟨S_, .f32⟩
  | 38 => ⟨S_, .f32⟩
  | 39 => ⟨S_, .f32⟩
  | 40 => ⟨S_, .f32⟩
  | 41 => ⟨S_, .f32⟩
  | 42 => ⟨S384x512, .f32⟩
  | 43 => ⟨S_, .f32⟩
  | 44 => ⟨S384, .f32⟩
  | 45 => ⟨S512x384, .f32⟩
  | 46 => ⟨S384x384, .f32⟩
  | 47 => ⟨S1x384, .f32⟩
  | 48 => ⟨S384x1, .f32⟩
  | 49 => ⟨S384x384, .f32⟩
  | 50 => ⟨S384x384, .f32⟩
  | 51 => ⟨S384x384, .f32⟩
  | 52 => ⟨S_, .f32⟩
  | 53 => ⟨S384x384, .f32⟩
  | 54 => ⟨S384x384, .f32⟩
  | 55 => ⟨S384x384, .f32⟩
  | 56 => ⟨S_, .f32⟩
  | 57 => ⟨S_, .f32⟩
  | 58 => ⟨S384x384, .f32⟩
  | 59 => ⟨S384x384, .f32⟩
  | 60 => ⟨S384x384, .f32⟩
  | 61 => ⟨S384x384, .i32⟩
  | 62 => ⟨S384x384, .i32⟩
  | 63 => ⟨S_, .i32⟩
  | 64 => ⟨S384x384, .i32⟩
  | 65 => ⟨S384x384, .i32⟩
  | 66 => ⟨S384x384, .i1⟩
  | 67 => ⟨S384x384, .f32⟩
  | 68 => ⟨S_, .f32⟩
  | 69 => ⟨S384x384, .f32⟩
  | 70 => ⟨S384x384, .f32⟩
  | 71 => ⟨S384x384, .f32⟩
  | 72 => ⟨S_, .f32⟩
  | 73 => ⟨S384x384, .f32⟩
  | 74 => ⟨S384x384, .i1⟩
  | 75 => ⟨S_, .f32⟩
  | 76 => ⟨S_, .f32⟩
  | 77 => ⟨S384x384, .f32⟩
  | 78 => ⟨S384x384, .f32⟩
  | 79 => ⟨S_, .f32⟩
  | 80 => ⟨S_, .f32⟩
  | 81 => ⟨S384x384, .i32⟩
  | 82 => ⟨S_, .i32⟩
  | 83 => ⟨S_, .i32⟩
  | 84 => ⟨S_, .i32⟩
  | 85 => ⟨S_, .i32⟩
  | 86 => ⟨S_, .f32⟩
  | 87 => ⟨S_, .f32⟩
  | 88 => ⟨S384x384, .f32⟩
  | 89 => ⟨S384x384, .f32⟩
  | 90 => ⟨S384x512, .f32⟩
  | 91 => ⟨S_, .f32⟩
  | 92 => ⟨S384, .f32⟩
  | 93 => ⟨S512x384, .f32⟩
  | 94 => ⟨S384x384, .f32⟩
  | 95 => ⟨S1x384, .f32⟩
  | 96 => ⟨S384x1, .f32⟩
  | 97 => ⟨S384x384, .f32⟩
  | 98 => ⟨S384x384, .f32⟩
  | 99 => ⟨S384x384, .f32⟩
  | 100 => ⟨S_, .f32⟩
  | 101 => ⟨S384x384, .f32⟩
  | 102 => ⟨S384x384, .f32⟩
  | 103 => ⟨S384x384, .f32⟩
  | 104 => ⟨S_, .f32⟩
  | 105 => ⟨S_, .f32⟩
  | 106 => ⟨S384x384, .f32⟩
  | 107 => ⟨S384x384, .f32⟩
  | 108 => ⟨S384x384, .f32⟩
  | 109 => ⟨S384x384, .i32⟩
  | 110 => ⟨S384x384, .i32⟩
  | 111 => ⟨S_, .i32⟩
  | 112 => ⟨S384x384, .i32⟩
  | 113 => ⟨S384x384, .i32⟩
  | 114 => ⟨S384x384, .i1⟩
  | 115 => ⟨S384x384, .f32⟩
  | 116 => ⟨S_, .f32⟩
  | 117 => ⟨S384x384, .f32⟩
  | 118 => ⟨S384x384, .f32⟩
  | 119 => ⟨S384x384, .f32⟩
  | 120 => ⟨S_, .f32⟩
  | 121 => ⟨S384x384, .f32⟩
  | 122 => ⟨S384x384, .i1⟩
  | 123 => ⟨S_, .f32⟩
  | 124 => ⟨S_, .f32⟩
  | 125 => ⟨S384x384, .f32⟩
  | 126 => ⟨S384x384, .f32⟩
  | 127 => ⟨S_, .f32⟩
  | _ => ⟨S384x512, .f32⟩

abbrev hbmTy0_1 (i : Nat) : BufTy := match i % 128 with
  | 0 => ⟨S_, .f32⟩
  | 1 => ⟨S384x384, .i32⟩
  | 2 => ⟨S_, .i32⟩
  | 3 => ⟨S_, .i32⟩
  | 4 => ⟨S_, .i32⟩
  | 5 => ⟨S_, .i32⟩
  | 6 => ⟨S_, .f32⟩
  | 7 => ⟨S_, .f32⟩
  | 8 => ⟨S384x384, .f32⟩
  | 9 => ⟨S384x384, .f32⟩
  | 10 => ⟨S384x384, .f32⟩
  | 11 => ⟨S384x384, .f32⟩
  | 12 => ⟨S_, .f32⟩
  | 13 => ⟨S384x384, .f32⟩
  | 14 => ⟨S384x384, .i1⟩
  | 15 => ⟨S_, .f32⟩
  | 16 => ⟨S384x384, .f32⟩
  | 17 => ⟨S384x384, .f32⟩
  | 18 => ⟨S384x384, .f32⟩
  | 19 => ⟨S_, .f32⟩
  | 20 => ⟨S384x384, .f32⟩
  | 21 => ⟨S384x384, .f32⟩
  | 22 => ⟨S384x384, .f32⟩
  | 23 => ⟨S_, .f32⟩
  | 24 => ⟨S_, .f32⟩
  | 25 => ⟨S_, .f32⟩
  | 26 => ⟨S_, .f32⟩
  | 27 => ⟨S1x384x512, .f32⟩
  | 28 => ⟨S384x1x512, .f32⟩
  | 29 => ⟨S384x384x512, .f32⟩
  | 30 => ⟨S384x384x512, .f32⟩
  | 31 => ⟨S384x384x512, .f32⟩
  | 32 => ⟨S384x384x512, .f32⟩
  | 33 => ⟨S_, .f32⟩
  | 34 => ⟨S384x384, .f32⟩
  | 35 => ⟨S384x384x1, .f32⟩
  | 36 => ⟨S384x384x1, .f32⟩
  | 37 => ⟨S_, .f32⟩
  | 38 => ⟨S384x384x1, .f32⟩
  | 39 => ⟨S384x384x1, .f32⟩
  | 40 => ⟨S384x384x512, .f32⟩
  | 41 => ⟨S384x384x512, .f32⟩
  | 42 => ⟨S384x384x384, .f32⟩
  | 43 => ⟨S1x384x512, .f32⟩
  | 44 => ⟨S384x1x512, .f32⟩
  | 45 => ⟨S384x384x512, .f32⟩
  | 46 => ⟨S384x384x512, .f32⟩
  | 47 => ⟨S384x384x512, .f32⟩
  | 48 => ⟨S384x384x512, .f32⟩
  | 49 => ⟨S_, .f32⟩
  | 50 => ⟨S384x384, .f32⟩
  | 51 => ⟨S384x384x1, .f32⟩
  | 52 => ⟨S384x384x1, .f32⟩
  | 53 => ⟨S_, .f32⟩
  | 54 => ⟨S384x384x1, .f32⟩
  | 55 => ⟨S384x384x1, .f32⟩
  | 56 => ⟨S384x384x512, .f32⟩
  | 57 => ⟨S384x384x512, .f32⟩
  | 58 => ⟨S384x384x384, .f32⟩
  | 59 => ⟨S384x384x384, .f32⟩
  | 60 => ⟨S384x384x384, .f32⟩
  | 61 => ⟨S_, .f32⟩
  | 62 => ⟨S384x384x384, .f32⟩
  | 63 => ⟨S384x384x384, .i1⟩
  | 64 => ⟨S_, .f32⟩
  | 65 => ⟨S384x384x384, .f32⟩
  | 66 => ⟨S384x384x384, .f32⟩
  | 67 => ⟨S384x384x384, .f32⟩
  | 68 => ⟨S_, .f32⟩
  | 69 => ⟨S384x384x384, .f32⟩
  | 70 => ⟨S384x384x384, .f32⟩
  | 71 => ⟨S384x384x384, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | _ => ⟨S384x512, .f32⟩

abbrev hbmTy (i : Nat) : BufTy := match i / 128 with
  | 0 => hbmTy0_0 i
  | 1 => hbmTy0_1 i
  | _ => ⟨S384x512, .f32⟩

abbrev bufTy : (tb : Table) → Fin (tcTables nBuf tb) → BufTy
  | .hbm, ⟨i, _⟩ => hbmTy i
  | _, _ => ⟨S384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst : Ref sig .tc := ⟨.hbm, 37, rfl⟩
abbrev main_v16 : Ref sig .tc := ⟨.hbm, 38, rfl⟩
abbrev main_cst_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_5 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_6 : Ref sig .tc := ⟨.hbm, 56, rfl⟩
abbrev main_call1_v0 : Ref sig .tc := ⟨.hbm, 57, rfl⟩
abbrev main_call1_v1 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_c_7 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_8 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_9 : Ref sig .tc := ⟨.hbm, 72, rfl⟩
abbrev main_v42 : Ref sig .tc := ⟨.hbm, 73, rfl⟩
abbrev main_v43 : Ref sig .tc := ⟨.hbm, 74, rfl⟩
abbrev main_cst_10 : Ref sig .tc := ⟨.hbm, 75, rfl⟩
abbrev main_call2_v0 : Ref sig .tc := ⟨.hbm, 76, rfl⟩
abbrev main_call2_v1 : Ref sig .tc := ⟨.hbm, 77, rfl⟩
abbrev main_v44 : Ref sig .tc := ⟨.hbm, 78, rfl⟩
abbrev main_cst_11 : Ref sig .tc := ⟨.hbm, 79, rfl⟩
abbrev main_v45 : Ref sig .tc := ⟨.hbm, 80, rfl⟩
abbrev main_v46 : Ref sig .tc := ⟨.hbm, 81, rfl⟩
abbrev main_c_12 : Ref sig .tc := ⟨.hbm, 82, rfl⟩
abbrev main_v47 : Ref sig .tc := ⟨.hbm, 83, rfl⟩
abbrev main_c_13 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_14 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_15 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_16 : Ref sig .tc := ⟨.hbm, 104, rfl⟩
abbrev main_call3_v0 : Ref sig .tc := ⟨.hbm, 105, rfl⟩
abbrev main_call3_v1 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_c_17 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_cst_18 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_cst_19 : Ref sig .tc := ⟨.hbm, 120, rfl⟩
abbrev main_v76 : Ref sig .tc := ⟨.hbm, 121, rfl⟩
abbrev main_v77 : Ref sig .tc := ⟨.hbm, 122, rfl⟩
abbrev main_cst_20 : Ref sig .tc := ⟨.hbm, 123, rfl⟩
abbrev main_call4_v0 : Ref sig .tc := ⟨.hbm, 124, rfl⟩
abbrev main_call4_v1 : Ref sig .tc := ⟨.hbm, 125, rfl⟩
abbrev main_v78 : Ref sig .tc := ⟨.hbm, 126, rfl⟩
abbrev main_cst_21 : Ref sig .tc := ⟨.hbm, 127, rfl⟩
abbrev main_v79 : Ref sig .tc := ⟨.hbm, 128, rfl⟩
abbrev main_v80 : Ref sig .tc := ⟨.hbm, 129, rfl⟩
abbrev main_c_22 : Ref sig .tc := ⟨.hbm, 130, rfl⟩
abbrev main_v81 : Ref sig .tc := ⟨.hbm, 131, rfl⟩
abbrev main_c_23 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_cst_24 : Ref sig .tc := ⟨.hbm, 140, rfl⟩
abbrev main_v89 : Ref sig .tc := ⟨.hbm, 141, rfl⟩
abbrev main_v90 : Ref sig .tc := ⟨.hbm, 142, rfl⟩
abbrev main_cst_25 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_cst_26 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_cst_27 : Ref sig .tc := ⟨.hbm, 151, rfl⟩
abbrev main_v97 : Ref sig .tc := ⟨.hbm, 152, rfl⟩
abbrev main_cst_28 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_cst_29 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_cst_30 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_cst_31 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_cst_32 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_cst_33 : Ref sig .tc := ⟨.hbm, 189, rfl⟩
abbrev main_v129 : Ref sig .tc := ⟨.hbm, 190, rfl⟩
abbrev main_v130 : Ref sig .tc := ⟨.hbm, 191, rfl⟩
abbrev main_cst_34 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_cst_35 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_cst_36 : Ref sig .tc := ⟨.hbm, 200, rfl⟩
abbrev main_v137 : Ref sig .tc := ⟨.hbm, 201, rfl⟩
abbrev main_cst_37 : Ref sig .tc := ⟨.hbm, 202, rfl⟩
abbrev main_v138 : Ref sig .tc := ⟨.hbm, 203, rfl⟩
abbrev main_cst_38 : Ref sig .tc := ⟨.hbm, 204, rfl⟩
abbrev main_v139 : Ref sig .tc := ⟨.hbm, 205, rfl⟩
abbrev main_cst_39 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩

abbrev nD : Nat := 1
abbrev τ : Topo := Topo.v7x

variable {F : FTy → Type} [FloatOps F]

class Facts₀ : Prop where
  reducesTo_S384x512_S384_d1 : S384x512.ReducesTo [1] S384
  h_S_ : 0 < S_.numel
  bcast_S_S384 : S_.BroadcastsInDim S384 (![] : Fin 0 → Fin S384.rank)
  bcast_S384_S384x1_0 : S384.BroadcastsInDim S384x1 (![0] : Fin 1 → Fin S384x1.rank)
  bcast_S384x1_S384x512_0_1 : S384x1.BroadcastsInDim S384x512 (![0, 1] : Fin 2 → Fin S384x512.rank)
  concatenates_S384x1_S384x1_S384x2_d1 : Shape.Concatenates [S384x1, S384x1] S384x2 1
  reducesTo_S384_S_d0 : S384.ReducesTo [0] S_
  transposes_S384x512_S512x384_1_0 : S384x512.Transposes [1, 0] S512x384
  bcast_S384_S1x384_1 : S384.BroadcastsInDim S1x384 (![1] : Fin 1 → Fin S1x384.rank)
  bcast_S1x384_S384x384_0_1 : S1x384.BroadcastsInDim S384x384 (![0, 1] : Fin 2 → Fin S384x384.rank)
  bcast_S384x1_S384x384_0_1 : S384x1.BroadcastsInDim S384x384 (![0, 1] : Fin 2 → Fin S384x384.rank)
  bcast_S_S384x384 : S_.BroadcastsInDim S384x384 (![] : Fin 0 → Fin S384x384.rank)
  reducesTo_S384x384_S_d0_1 : S384x384.ReducesTo [0, 1] S_
  natLt_1_32 : 1 < 32
  bcast_S384x512_S1x384x512_1_2 : S384x512.BroadcastsInDim S1x384x512 (![1, 2] : Fin 2 → Fin S1x384x512.rank)
  bcast_S384x512_S384x1x512_0_2 : S384x512.BroadcastsInDim S384x1x512 (![0, 2] : Fin 2 → Fin S384x1x512.rank)
  bcast_S1x384x512_S384x384x512_0_1_2 : S1x384x512.BroadcastsInDim S384x384x512 (![0, 1, 2] : Fin 3 → Fin S384x384x512.rank)
  bcast_S384x1x512_S384x384x512_0_1_2 : S384x1x512.BroadcastsInDim S384x384x512 (![0, 1, 2] : Fin 3 → Fin S384x384x512.rank)
  reducesTo_S384x384x512_S384x384_d2 : S384x384x512.ReducesTo [2] S384x384
  bcast_S384x384_S384x384x1_0_1 : S384x384.BroadcastsInDim S384x384x1 (![0, 1] : Fin 2 → Fin S384x384x1.rank)
  bcast_S_S384x384x1 : S_.BroadcastsInDim S384x384x1 (![] : Fin 0 → Fin S384x384x1.rank)
  bcast_S384x384x1_S384x384x512_0_1_2 : S384x384x1.BroadcastsInDim S384x384x512 (![0, 1, 2] : Fin 3 → Fin S384x384x512.rank)
  bcast_S_S384x384x384 : S_.BroadcastsInDim S384x384x384 (![] : Fin 0 → Fin S384x384x384.rank)
  reducesTo_S384x384x384_S_d0_1_2 : S384x384x384.ReducesTo [0, 1, 2] S_
  gather_S384x512_S384x2_S384_n_01_n_n_01_1_11_wf : GatherDims.WF S384x512 S384x2 S384 [] [0, 1] [] [0, 1] [] 1 ![1, 1]
  dot_S384x512_S512x384_S384x384_1_0_0_1_n_n_wf : DotDims.WF S384x512 S512x384 S384x384 [1] [0] [0] [1] [] []
  dot_S384x384x512_S384x384x512_S384x384x384_2_2_1_1_0_0_wf : DotDims.WF S384x384x512 S384x384x512 S384x384x384 [2] [2] [1] [1] [0] [0]

variable [Facts₀]

def gather_S384x512_S384x2_S384_n_01_n_n_01_1_11 : GatherDims S384x512 S384x2 S384 where
  offsetDims := []
  collapsedSliceDims := [0, 1]
  operandBatchingDims := []
  startIndicesBatchingDims := []
  startIndexMap := [0, 1]
  indexVectorDim := 1
  sliceSizes := ![1, 1]
  wf := gather_S384x512_S384x2_S384_n_01_n_n_01_1_11_wf
def dot_S384x512_S512x384_S384x384_1_0_0_1_n_n : DotDims S384x512 S512x384 S384x384 where
  lhsContracting := [1]
  rhsContracting := [0]
  lhsNonContracting := [0]
  rhsNonContracting := [1]
  lhsBatch := []
  rhsBatch := []
  wf := dot_S384x512_S512x384_S384x384_1_0_0_1_n_n_wf
def dot_S384x384x512_S384x384x512_S384x384x384_2_2_1_1_0_0 : DotDims S384x384x512 S384x384x512 S384x384x384 where
  lhsContracting := [2]
  rhsContracting := [2]
  lhsNonContracting := [1]
  rhsNonContracting := [1]
  lhsBatch := [0]
  rhsBatch := [0]
  wf := dot_S384x384x512_S384x384x512_S384x384x384_2_2_1_1_0_0_wf

class Facts : Prop extends Facts₀ where

variable [Facts]
-- ==== Proof.K.Data.lean ====
/-
  The two kernel regions' values and proof data, at any instance `F` and at any contents `V` of the TensorCore's
  buffers when a region is entered.

  Region 0 (one grid point, three windows): the body loads the two whole feature blocks and stores one scalar block,
  `distOut` of them: the mean smooth-L1 distance between the two normalised pairwise-distance matrices.

  Region 1 (48 grid points, five windows; windows 0 and 2 read the first feature array, windows 1 and 3 the second):
  at point `t` the body adds to the one-entry output block the sum over the 8 anchor rows of tile `t` of the smooth-L1
  distance between the two angle Gram matrices (`angleStep`); at the first point it clears the block first
  (`angleZero`). The block is not written back before the last point, so what it holds after point `n` is the
  recursion `acc1`.
-/
import proofs.«426651_j22041772163495_1_alg».proof.Proof.Gen.Kernel.Launch
import proofs.«426651_j22041772163495_1_alg».proof.Proof.Gen.Kernel.Skeleton
import proofs.«426651_j22041772163495_1_alg».proof.Proof.Gen.Kernel.Points
import Idealize.ShloMosaic.Lib.Pipeline.FrameBody

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.Sem
open Idealize.ShloMosaic.Pipeline (Dat Cfg Window)

variable {F : FTy → Type} [FloatOps F]

/-! ## The bodies' stored values, as functions of the loaded blocks -/

/-- Region 0's stored block from the two feature blocks: the mean over all pairs of the smooth-L1 distance between
    the normalised pairwise distances of `x0`'s rows and of `x1`'s rows. -/
def distOut (x0 x1 : Vec F S384x512 .f32) : Vec F S1x1 .f32 :=
  k0_pay1 (k0_pay3 x1 (k0_pay2 x0)) (k0_pay4 x1 (k0_pay2 x0)) (k0_pay5 (F := F))

/-- Region 1's stored block at one point: the running total `prev` plus the sum, over the 8 anchor rows `a` / `a'` and
    all pairs of rows of the full arrays `f` / `f'`, of the smooth-L1 distance between the two angle Gram entries. -/
def angleStep (a : Vec F S8x512 .f32) (f : Vec F S384x512 .f32) (a' : Vec F S8x512 .f32) (f' : Vec F S384x512 .f32)
    (prev : Vec F S1x1 .f32) : Vec F S1x1 .f32 :=
  k1_pay1 (k1_pay3 a f a' f') (k1_pay4 a f a' f') prev

/-- The cleared total the first point starts from. -/
def angleZero : Vec F S1x1 .f32 := k1_pay2 (F := F)

variable (V : (c : Dev nD) → (b : Ref sig .tc) → Buf (Elt F) ((c : Thread nD τ).loc b))

/-! ## Region 0 -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data: the arrays as found; after the body each input's buffer at its block, the output's at
    `distOut` of the two; the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => distOut (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = distOut (iblk0 V c 0 t) (iblk0 V c 1 t) := by dsimp only [dat0]

/-! ## Region 1 -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One point's step from what the point before left. -/
def step1 (c : Dev nD) (t : Fin cfg1.N) (prev : Vec F S1x1 .f32) : Vec F S1x1 .f32 :=
  angleStep (iblk1 V c 0 t) (iblk1 V c 2 t) (iblk1 V c 1 t) (iblk1 V c 3 t) prev

/-- What the output block holds after the body at position `n`: the first point starts from the cleared block, every
    later one from what the point before left. -/
def acc1 (c : Dev nD) : (n : ℕ) → n < cfg1.N → Vec F S1x1 .f32
  | 0, hn => step1 V c ⟨0, hn⟩ (angleZero (F := F))
  | n + 1, hn => step1 V c ⟨n + 1, hn⟩ (acc1 c n (Nat.lt_of_succ_lt hn))

theorem acc1_zero (c : Dev nD) (hn : 0 < cfg1.N) : acc1 V c 0 hn = step1 V c ⟨0, hn⟩ (angleZero (F := F)) := rfl
theorem acc1_succ (c : Dev nD) (n : ℕ) (hn : n + 1 < cfg1.N) :
    acc1 V c (n + 1) hn = step1 V c ⟨n + 1, hn⟩ (acc1 V c n (Nat.lt_of_succ_lt hn)) := rfl

/-- Region 1's proof data: the arrays as found; after the body each input's buffer at its block and the output's at
    `acc1`; the scoped rest and the generator register untouched; nothing owed. The first feature array is read through
    windows 0 and 2 and the second through windows 1 and 3: each pair holds its array at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => acc1 V c t.val t.isLt
  Φ _ := Pipeline.ΦA spec1 c
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = acc1 V c t.val t.isLt := by dsimp only [dat1]

end Cert.Kernel.Hand

end
-- ==== Proof.K.Body0.lean ====
/-
  Region 0's body obligation: at its one grid point the body, called on the three staging buffers — the two inputs'
  holding the feature blocks, the output's anything — runs to its end leaving the inputs' as they were and the output's
  at `distOut` of the two blocks; the invariant and the core's dues pass through unread.
-/
import proofs.«426651_j22041772163495_1_alg».proof.Proof.K.Data
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two input windows hold their blocks -/

/-- An input window's staging buffer holds the window's block of the array at the point, for proof data whose
    array is the one found at entry and whose body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The same for the second input window. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The body's accesses: each buffer whole, at offset zero -/

/-- The rectangle of the one-entry output block taken whole. -/
abbrev rOut : Rect S1x1 := Rect.unit (s := S1x1) ![0, 0] S1x1.size inb_S1x1_S1x1_0_0

/-- Both offsets are zero. -/
theorem off_zero : (![0, 0] : Fin 2 → Nat) = fun _ => 0 := funext fun a => by fin_cases a <;> rfl

/-- The one store covers the output block. -/
theorem cover_out (p : Vec F S1x1 .f32) (y : S1x1.Idx) :
    ∃ pc ∈ ([⟨rOut, p⟩] : List (View.Piece (Elt F) S1x1 .f32)), y ∈ pc.1.set :=
  ⟨_, List.mem_singleton_self _, View.mem_set_unit_zero off_zero inb_S1x1_S1x1_0_0 y⟩

/-! ## The body's triple -/

set_option maxHeartbeats 1000000 in
/-- The body on whole staging memrefs, the inputs' reading `x0` and `x1` and the output's anything, runs to the
    continuation with the inputs' as they were and the output's at `distOut x0 x1`. -/
theorem sound_kernel0 (c : Dev nD) (E : Set ℕ) (i : grid0.Coords)
    (arg1 : Memref sig .tc .vmem S384x512 .f32) (harg1 : arg1.IsWhole)
    (arg2 : Memref sig .tc .vmem S384x512 .f32) (harg2 : arg2.IsWhole)
    (arg3 : Memref sig .tc .vmem S1x1 .f32) (harg3 : arg3.IsWhole)
    (x0 x1 : Vec F S384x512 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (distOut x0 x1)) -∗ K ⟨⟩))
      ⊢ wp frame (wpE (defs₀ (F := F)) Variants.none c none) E (cc0__dist_kernel i arg1 harg1 arg2 harg2 arg3 harg3) K := by
  simp only [cc0__dist_kernel_eq_skeleton]; unfold cc0__dist_kernel_skel
  simp only [k0_part1_eq_skeleton, k0_part2_eq_skeleton]
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover_out _)]
  sl_unfold_words
  rw [View.canon_unit_zero off_zero]
  unfold distOut
  simp only [View.readAt_eq_ld, View.ld_unit_zero (S := S384x512) off_zero]

/-! ## The obligation at a point, the windows one by one -/

/-- What the body is called with at point `t`: the invariant, the core's dues, and each window's staging buffer at
    what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns: the same invariant and dues, and each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at a point: the two inputs' buffers hold their blocks, so the body's triple applies at those blocks; the
    invariant and the dues do not depend on the point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for region 0's proof data, at every point, on every core. -/
theorem body_obligation0 (c : Dev nD) : BodyObligation (dat0 (F := F) V c) (defs₀ (F := F)) Variants.none () Set.univ := by
  intro t
  rw [bigSep_W0, bigSep_W0]
  exact sound_body0 V c t

end Cert.Kernel.Hand

end
-- ==== Proof.K.Body1.lean ====
/-
  Region 1's body obligation: at every grid point the body, called on the five staging buffers — the four inputs'
  holding their blocks, the output's what the point before left (anything at the first point, where the body clears
  it) — runs to its end leaving the inputs' as they were and the output's at `acc1` of the point.

  The body branches once, on whether the grid coordinate is zero. At the first point it stores the cleared total over
  the one-entry output block, and the later load of that block reads the cleared total back; at every other point the
  block still holds what the point before left, because the block is written back to its array at the last point only.
  In both cases the body's one remaining store covers the whole one-entry block with `angleStep` of the four loaded
  blocks and of what the block held, which is the recursion `acc1`.
-/
import proofs.«426651_j22041772163495_1_alg».proof.Proof.K.Data
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's one branch -/

/-- The body's branch condition as a function of the grid coordinates: the coordinate compared with zero, widened, and
    compared with zero again. -/
abbrev b1_cond (i : grid1.Coords) : Prop :=
  (Scalar.cmpi .ne (Scalar.extui (Scalar.cmpi .eq (BitVec.ofNat 32 (i 0).val) 0#32)) 0#32) = 1#1

/-- It holds at the first of the 48 points and at no other. -/
theorem b1_hcond : ∀ t : Fin cfg1.N, b1_cond (grid1.coords t) ↔ t.val % 48 = 0 :=
  (by decide +kernel : ∀ t : Fin grid1.N, b1_cond (grid1.coords t) ↔ t.val % 48 = 0)

/-! ## Whole-block accesses -/

/-- Every access of the body is at offset zero in both axes. -/
theorem b1_hz : (![0, 0] : Fin 2 → Nat) = fun _ => 0 := funext fun a => by fin_cases a <;> rfl

/-- A store over the whole one-entry block covers it, whatever was stored before. -/
theorem b1_cover (p : Vec F S1x1 .f32) (L : List (View.Piece (Elt F) S1x1 .f32)) (y : S1x1.Idx) :
    ∃ pc ∈ ((⟨Rect.unit (s := S1x1) ![0, 0] S1x1.size inb_S1x1_S1x1_0_0, p⟩ : View.Piece (Elt F) S1x1 .f32) :: L), y ∈ pc.1.set :=
  ⟨⟨Rect.unit (s := S1x1) ![0, 0] S1x1.size inb_S1x1_S1x1_0_0, p⟩, List.mem_cons_self,
    View.mem_set_unit_zero (S := S1x1) b1_hz inb_S1x1_S1x1_0_0 y⟩

/-! ## The body's run, case by case -/

set_option maxHeartbeats 1000000 in
/-- AT THE FIRST POINT (the branch taken): on whole staging memrefs, the four inputs' reading `x0 … x3` and the
    output's anything, the body runs to the continuation with the inputs' as they were and the output's at
    `angleStep` of the blocks over the cleared total: the clearing store, then the load that reads it back, then the
    store of the sum over the whole block. -/
theorem b1_run_first (c : Dev nD) (E : Set ℕ) (i : grid1.Coords)
    (arg1 : Memref sig .tc .vmem S8x512 .f32) (harg1 : arg1.IsWhole) (arg2 : Memref sig .tc .vmem S8x512 .f32) (harg2 : arg2.IsWhole)
    (arg3 : Memref sig .tc .vmem S384x512 .f32) (harg3 : arg3.IsWhole) (arg4 : Memref sig .tc .vmem S384x512 .f32) (harg4 : arg4.IsWhole)
    (arg5 : Memref sig .tc .vmem S1x1 .f32) (harg5 : arg5.IsWhole) (hc0 : b1_cond i)
    (x0 x1 : Vec F S8x512 .f32) (x2 x3 : Vec F S384x512 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (angleStep x0 x2 x1 x3 (angleZero (F := F)))) -∗ K ⟨⟩))
      ⊢ wp frame (wpE (defs₀ (F := F)) Variants.none c none) E (cc1__angle_kernel i arg1 harg1 arg2 harg2 arg3 harg3 arg4 harg4 arg5 harg5) K := by
  simp only [cc1__angle_kernel_eq_skeleton]; unfold cc1__angle_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (b1_cover _ _)]
  rw [View.canon_cons_unit_zero (S := S1x1) b1_hz inb_S1x1_S1x1_0_0]
  unfold angleStep angleZero
  sl_unfold_words
  simp only [View.readAt_eq_ld, View.ld_unit_zero (S := S8x512) b1_hz, View.ld_unit_zero (S := S384x512) b1_hz,
    View.readCov_unit_zero (S := S1x1) _ b1_hz]

set_option maxHeartbeats 1000000 in
/-- AT EVERY LATER POINT (the branch not taken): the same with the output's buffer reading `xo`, which the body loads
    and adds to: it ends at `angleStep` of the blocks over `xo`. -/
theorem b1_run_later (c : Dev nD) (E : Set ℕ) (i : grid1.Coords)
    (arg1 : Memref sig .tc .vmem S8x512 .f32) (harg1 : arg1.IsWhole) (arg2 : Memref sig .tc .vmem S8x512 .f32) (harg2 : arg2.IsWhole)
    (arg3 : Memref sig .tc .vmem S384x512 .f32) (harg3 : arg3.IsWhole) (arg4 : Memref sig .tc .vmem S384x512 .f32) (harg4 : arg4.IsWhole)
    (arg5 : Memref sig .tc .vmem S1x1 .f32) (harg5 : arg5.IsWhole) (hc0 : ¬b1_cond i)
    (x0 x1 : Vec F S8x512 .f32) (x2 x3 : Vec F S384x512 .f32) (xo : Vec F S1x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare xo
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (angleStep x0 x2 x1 x3 xo)) -∗ K ⟨⟩))
      ⊢ wp frame (wpE (defs₀ (F := F)) Variants.none c none) E (cc1__angle_kernel i arg1 harg1 arg2 harg2 arg3 harg3 arg4 harg4 arg5 harg5) K := by
  simp only [cc1__angle_kernel_eq_skeleton]; unfold cc1__angle_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (b1_cover _ _)]
  rw [View.canon_cons_unit_zero (S := S1x1) b1_hz inb_S1x1_S1x1_0_0]
  unfold angleStep
  sl_unfold_words
  simp only [View.readAt_eq_ld, View.ld_unit_zero (S := S8x512) b1_hz, View.ld_unit_zero (S := S384x512) b1_hz,
    View.ld_unit_zero (S := S1x1) b1_hz]

/-! ## What the staging buffers hold when the body is called -/

/-- Each input's current staging buffer holds the window's block at every point, fetched there or not: the anchor
    tiles are fetched at every point, the whole arrays at the first only and their block never moves. -/
theorem b1_before0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem b1_before1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem b1_before2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem b1_before3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- At a point after the first the output's staging buffer holds what the body left at the point before: the block is
    written back at the last point only, so never between two points, and the window is live and uncut. -/
theorem b1_before4 (c : Dev nD) (t : Fin cfg1.N) (h0 : t.val ≠ 0) (d) :
    (dat1 V c).before 4 t d = acc1 V c (t.val - 1) (Nat.lt_of_le_of_lt (Nat.sub_le _ _) t.isLt) := by
  have hN : t.val < 48 := lt_of_lt_of_eq t.isLt (show cfg1.N = 48 from N_1)
  rw [Dat.before_out_kept _ 4 rfl t h0 (Bool.eq_false_iff.mpr fun h => by have := (flush1_4 _).mp h; dsimp only at this; omega)
    (fun _ => rfl) (fun _ _ => rfl)]
  dsimp only [dat1]

/-! ## The running total at a point, by the point's position -/

/-- At the first point the total is one step from the cleared block; -/
theorem b1_acc_first (c : Dev nD) (t : Fin cfg1.N) (h0 : t.val = 0) :
    acc1 V c t.val t.isLt = step1 V c t (angleZero (F := F)) := by
  obtain ⟨n, hn⟩ := t
  cases n with
  | zero => exact acc1_zero V c hn
  | succ n => exact absurd h0 (Nat.succ_ne_zero n)

/-- at a later one, one step from the total at the point before. -/
theorem b1_acc_later (c : Dev nD) (t : Fin cfg1.N) (h0 : t.val ≠ 0) :
    acc1 V c t.val t.isLt = step1 V c t (acc1 V c (t.val - 1) (Nat.lt_of_le_of_lt (Nat.sub_le _ _) t.isLt)) := by
  obtain ⟨n, hn⟩ := t
  cases n with
  | zero => exact absurd rfl h0
  | succ n => exact acc1_succ V c n hn

/-! ## The body obligation, at a generic point -/

/-- What the body is called with at point `t`: the invariant, the core's dues, and each window's current staging
    buffer at what it then holds; -/
def b1_bodyPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns: each buffer at what the proof data says the body leaves. -/
def b1_bodyPost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 800000 in
/-- The body at any point: the inputs' buffers hold their blocks; the point is the first or a later one; at the first
    the body clears the output's buffer, at a later one the buffer holds the total the point before left; the
    matching run applies, and the total it leaves is `acc1` at the point. The invariant and the core's dues pass
    through unread. -/
theorem b1_sound_body (c : Dev nD) (t : Fin cfg1.N) :
    b1_bodyPre V c t ⊢ wp frame (wpE (defs₀ (F := F)) Variants.none c none) Set.univ (bodyAt1 t) (fun _ => b1_bodyPost V c t) := by
  unfold b1_bodyPre b1_bodyPost bodyAt1
  simp only [b1_before0, b1_before1, b1_before2, b1_before3]
  rw [show (dat1 V c).Φ t.succ = (dat1 V c).Φ t.castSucc from rfl,
    show (dat1 V c).owesAt () t.succ = (dat1 V c).owesAt () t.castSucc from rfl,
    after1_0, after1_1, after1_2, after1_3, after1_4]
  have hN : t.val < 48 := lt_of_lt_of_eq t.isLt (show cfg1.N = 48 from N_1)
  by_cases h0 : t.val % 48 = 0
  · rw [b1_acc_first V c t (by omega)]
    unfold step1
    iintro ⟨HΦ, Ho, ⟨%d0, H0⟩, ⟨%d1, H1⟩, ⟨%d2, H2⟩, ⟨%d3, H3⟩, ⟨%d4, H4⟩⟩
    iapply (b1_run_first c Set.univ (grid1.coords t) _ _ _ _ _ _ _ _ _ _ ((b1_hcond t).mpr h0)
      (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · have h0' : t.val ≠ 0 := by omega
    rw [b1_acc_later V c t h0']
    simp only [b1_before4 V c t h0']
    unfold step1
    iintro ⟨HΦ, Ho, ⟨%d0, H0⟩, ⟨%d1, H1⟩, ⟨%d2, H2⟩, ⟨%d3, H3⟩, ⟨%d4, H4⟩⟩
    iapply (b1_run_later c Set.univ (grid1.coords t) _ _ _ _ _ _ _ _ _ _ (fun h => h0 ((b1_hcond t).mp h))
      (iblk1 V c 0 t) (iblk1 V c 1 t) (iblk1 V c 2 t) (iblk1 V c 3 t)
      (acc1 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation for region 1's proof data, at every point, on every core. -/
theorem body_obligation1 (c : Dev nD) : BodyObligation (dat1 (F := F) V c) (defs₀ (F := F)) Variants.none () Set.univ := fun t => by
  rw [bigSep_W1, bigSep_W1]
  exact b1_sound_body V c t

end Cert.Kernel.Hand

end
-- ==== Proof.K.Shares1.lean ====
/-
  Region 1's windows share arrays: windows 0 and 2 read the first feature array, windows 1 and 3 the second, window 4
  writes the result. The three distinct buffers behind the five windows, each held whole at the full share, ARE the
  five windowed arrays at region 1's shares (each feature array split into the two halves of the full share), and
  back: a share splits and joins along `fullShare.left` / `fullShare.right`.
-/
import proofs.«426651_j22041772163495_1_alg».proof.Proof.K.Data
import Idealize.ShloMosaic.Lib.Pipeline.FrameBody
import Idealize.ShloMosaic.Lib.Ring
import Idealize.ShloMosaic.Lib.Tactic

import Idealize.ShloMosaic.Lib.Pipeline.Launch
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Which buffers stand behind the five windows, and at which share each window holds its own -/

/-- The five windows stage three distinct buffers: the two feature arrays and the result. -/
theorem arrImage1 : (Finset.univ : Finset (Fin 5)).image (Pipeline.arrRef spec1) = {main_arg0, main_arg1, main_v9} := by decide

/-- The inputs are held at their own shares — the first window on an array at the left half of the full share, the
    second at the right half — and the output at the full share. -/
theorem share1_0 (c : Dev nD) : (dat1 V c).share 0 = fullShare.left := rfl
theorem share1_1 (c : Dev nD) : (dat1 V c).share 1 = fullShare.left := rfl
theorem share1_2 (c : Dev nD) : (dat1 V c).share 2 = fullShare.right := rfl
theorem share1_3 (c : Dev nD) : (dat1 V c).share 3 = fullShare.right := rfl
theorem share1_4 (c : Dev nD) : (dat1 V c).share 4 = fullShare := rfl

section Windows

variable (c : Dev nD) (V' : (b : Ref sig .tc) → Buf (Elt F) ((c : Thread nD τ).loc b))
  (A : (w : Fin cfg1.W) → Buf (Elt F) ((cfg1.win w).arr.view.loc (c : Thread nD τ)))
  (hA : ∀ w, A w = V' (Pipeline.arrRef spec1 w))

include hA

/-! Each window's array is a whole buffer, so its windowed points-to is the buffer's own points-to over every index,
    at the window's share and at the buffer's contents under `V'`. -/

theorem arr1_0 : ((cfg1.win 0).arr.view.loc (c : Thread nD τ) ↦[(cfg1.win 0).arr.view.set]{(dat1 V c).share 0} A 0 : sProp 𝕄)
    = ((c : Thread nD τ).loc main_arg0 ↦{fullShare.left} V' main_arg0) := by
  rw [hA 0, share1_0, (arr_whole1 0).set_eq_univ]

theorem arr1_1 : ((cfg1.win 1).arr.view.loc (c : Thread nD τ) ↦[(cfg1.win 1).arr.view.set]{(dat1 V c).share 1} A 1 : sProp 𝕄)
    = ((c : Thread nD τ).loc main_arg1 ↦{fullShare.left} V' main_arg1) := by
  rw [hA 1, share1_1, (arr_whole1 1).set_eq_univ]

theorem arr1_2 : ((cfg1.win 2).arr.view.loc (c : Thread nD τ) ↦[(cfg1.win 2).arr.view.set]{(dat1 V c).share 2} A 2 : sProp 𝕄)
    = ((c : Thread nD τ).loc main_arg0 ↦{fullShare.right} V' main_arg0) := by
  rw [hA 2, share1_2, (arr_whole1 2).set_eq_univ]

theorem arr1_3 : ((cfg1.win 3).arr.view.loc (c : Thread nD τ) ↦[(cfg1.win 3).arr.view.set]{(dat1 V c).share 3} A 3 : sProp 𝕄)
    = ((c : Thread nD τ).loc main_arg1 ↦{fullShare.right} V' main_arg1) := by
  rw [hA 3, share1_3, (arr_whole1 3).set_eq_univ]

theorem arr1_4 : ((cfg1.win 4).arr.view.loc (c : Thread nD τ) ↦[(cfg1.win 4).arr.view.set]{(dat1 V c).share 4} A 4 : sProp 𝕄)
    = ((c : Thread nD τ).loc main_v9 ↦{fullShare} V' main_v9) := by
  rw [hA 4, share1_4, (arr_whole1 4).set_eq_univ]

omit hA in
/-- Regrouping: two split pairs and a fifth conjunct, pair by pair, are the two left parts, the two right parts and the
    fifth, in that order. -/
theorem sep_pairs {P Q R S T : sProp 𝕄} : iprop((P ∗ Q) ∗ (R ∗ S) ∗ T) ⊣⊢ iprop(P ∗ R ∗ Q ∗ S ∗ T) :=
  Laws.sep_assoc.symm.trans <| (Laws.sep_congr_left Laws.sep_sep_sep_comm).trans <|
    Laws.sep_assoc.trans <| Laws.sep_assoc.trans <| Laws.sep_congr_right (Laws.sep_congr_right Laws.sep_assoc)

/-- The five windowed arrays at region 1's shares ARE the three distinct buffers at the full share: each feature
    array's full share is the join of the left half (its first window) and the right half (its second). -/
theorem arrays1_iff :
    (dat1 V c).arrays A ⊣⊢ (Pipeline.arrBufs (Ix := Unit) (Name := ℕ) (U := UR sig nD τ) (Lvl := ℕ) spec1 c V' : sProp 𝕄) := by
  classical
  unfold Pipeline.arrBufs Dat.arrays
  rw [arrImage1, bigSep_W1, bigSep_insert (by decide), bigSep_insert (by decide), bigSep_singleton,
    arr1_0 V c V' A hA, arr1_1 V c V' A hA, arr1_2 V c V' A hA, arr1_3 V c V' A hA, arr1_4 V c V' A hA]
  have s0 := pointsTo_share (Ix := Unit) (Val := Elt F) (Name := ℕ) (U := UR sig nD τ) (Lvl := ℕ) (ℓ := (c : Thread nD τ).loc main_arg0)
    (I := Finset.univ) (f := V' main_arg0) (PosShare.mem_left_op_right fullShare)
  have s1 := pointsTo_share (Ix := Unit) (Val := Elt F) (Name := ℕ) (U := UR sig nD τ) (Lvl := ℕ) (ℓ := (c : Thread nD τ).loc main_arg1)
    (I := Finset.univ) (f := V' main_arg1) (PosShare.mem_left_op_right fullShare)
  exact ((Laws.sep_congr s0 (Laws.sep_congr_left s1)).trans sep_pairs).symm

end Windows

/-- ENTRY: the distinct buffers behind region 1's arrays, whole at the full share at `V c`, make the windowed arrays at
    any contents `A` that are `V c`'s. -/
theorem arrays1_of_arrBufs (c : Dev nD)
    (A : (w : Fin cfg1.W) → Buf (Elt F) ((cfg1.win w).arr.view.loc (c : Thread nD τ)))
    (hA : ∀ w, A w = V c (Pipeline.arrRef spec1 w)) :
    (Pipeline.arrBufs (Ix := Unit) (Name := ℕ) (U := UR sig nD τ) (Lvl := ℕ) spec1 c (V c) : sProp 𝕄) ⊢ (dat1 V c).arrays A :=
  (arrays1_iff V c (V c) A hA).2

/-- EXIT: the windowed arrays at contents `A` that are some `V' c`'s make the distinct buffers whole at the full share
    at `V' c`. -/
theorem arrBufs_of_arrays1 (c : Dev nD)
    (V' : (b : Ref sig .tc) → Buf (Elt F) ((c : Thread nD τ).loc b))
    (A : (w : Fin cfg1.W) → Buf (Elt F) ((cfg1.win w).arr.view.loc (c : Thread nD τ)))
    (hA : ∀ w, A w = V' (Pipeline.arrRef spec1 w)) :
    (dat1 V c).arrays A ⊢ (Pipeline.arrBufs (Ix := Unit) (Name := ℕ) (U := UR sig nD τ) (Lvl := ℕ) spec1 c V' : sProp 𝕄) :=
  (arrays1_iff V c V' A hA).1

end Cert.Kernel.Hand

end
-- ==== Proof.K.ValueCond.lean ====
/-
  The kernel program's run with its result named, given the two regions' records: @main's eight items run as the
  launch's segments; at the end every unscoped buffer is held at the last valuation, so the result buffer holds that
  valuation's contents there and each argument its launch contents.
-/
import proofs.«426651_j22041772163495_1_alg».proof.Proof.Gen.Kernel.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

set_option backward.isDefEq.respectTransparency.types false in
/-- THE RUN WITH ITS RESULT NAMED, given the regions' records: as the conditional frame, and the final memory also holds
    the result buffer `main_v13` at the last valuation's contents `V8 m outs c main_v13` — the closing host stretch's sum of the
    three terms over what the two regions left. -/
theorem value_cond (m : (ℓ : Loc nD τ sig) → Buf (Elt F) ℓ) {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V4 m c) ∗ E 0 c) ⊢ R0.pre c)
    (hpost0 : ∀ c : Dev nD, R0.post c ⊢ iprop(StableHlo.held (c : Thread nD τ) (Pipeline.ucRefs τ sig) (V5 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V6 m outs c) ∗ E 1 c) ⊢ R1.pre c)
    (hpost1 : ∀ c : Dev nD, R1.post c ⊢ iprop(StableHlo.held (c : Thread nD τ) (Pipeline.ucRefs τ sig) (V7 m outs c) ∗ E 2 c)) :
    θ_run defs (onTc (τ := τ) (main (F := F))) ⟨m, fun _ => 0, ρ⟩ (fun r => ∀ c : Dev nD,
      r.2.mem ((c.tc : Thread nD τ).loc main_v13) = V8 m outs c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          StableHlo.seq hostOps0_3,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V8 m outs c))
    (hch := fun c => ⟨.rfl, .rfl, .rfl, .rfl, hpre0 c, hpost0 c, hpre1 c, hpost1 c, sep_mono .rfl (hE2 c)⟩)
    (hinit := ?_) (QY := fun c s => s.mem ((c.tc : Thread nD τ).loc main_v13) = V8 m outs c main_v13 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result buffer and each argument's buffer read off the last valuation
    unfold StableHlo.held
    iintro ⟨Hh, HSI⟩
    ihave Hr := (pointsTo_read_all (Pipeline.ucRefs τ sig) (fun b => ((c : Thread nD τ).1, b)) (V8 m outs c) s') $$ [Hh HSI]
    · isplitl [Hh] <;> iassumption
    icases Hr with ⟨%h, HSI⟩
    imodintro
    isplitr
    · ipureintro
      exact ⟨h (Proc.devRef .tc main_v13) (Finset.mem_filter.mpr ⟨StableHlo.devRef_mem_tcRefs main_v13, by decide⟩),
        (h (Proc.devRef .tc main_arg0) (Finset.mem_filter.mpr ⟨StableHlo.devRef_mem_tcRefs main_arg0, by decide⟩)).trans (V8_main_arg0 m outs c),
        (h (Proc.devRef .tc main_arg1) (Finset.mem_filter.mpr ⟨StableHlo.devRef_mem_tcRefs main_arg1, by decide⟩)).trans (V8_main_arg1 m outs c),
        (h (Proc.devRef .tc main_arg2) (Finset.mem_filter.mpr ⟨StableHlo.devRef_mem_tcRefs main_arg2, by decide⟩)).trans (V8_main_arg2 m outs c)⟩
    · iexact HSI

end Cert.Kernel.Hand

end
-- ==== Proof.K.Frame.lean ====
/-
  The kernel program's frame, at any instance: @main is eight items — four stretches of host operations (the
  log-softmax, the labels broadcast, the label's entry taken, their mean negated), kernel region 0 (the pairwise-distance
  term), one reshape, kernel region 1 (the angle term), and the closing sum. Between two items every unscoped buffer
  is held whole at a known valuation; beside it ride the core's generator register at some state and its dues at nothing.

  A region splits its arrays out of the unscoped buffers at its entry, runs its pipeline, and puts them back at the
  valuation updated at its result array. Region 0's three arrays are distinct. Region 1 reads each feature array
  through two windows, so each of those arrays enters the pipeline as two half shares and is joined again at the exit.

  What the regions leave: `o5`, region 0's result array after its one point, and `o7`, region 1's after its 48 points
  from the contents the reshape left; `outs` packs the two for the valuations between items.
-/
import proofs.«426651_j22041772163495_1_alg».proof.Proof.K.Body0
import proofs.«426651_j22041772163495_1_alg».proof.Proof.K.Body1
import proofs.«426651_j22041772163495_1_alg».proof.Proof.K.Shares1
import proofs.«426651_j22041772163495_1_alg».proof.Proof.K.ValueCond
import proofs.«426651_j22041772163495_1_alg».proof.Proof.Gen.Kernel.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, the dues at nothing. -/
abbrev R (c : Dev nD) : sProp 𝕄 := iprop((∃ r, prngReg c r) ∗ ∃ W, owes (c : Thread nD τ) (0 : CellTallies nD τ sig Unit) W)

/-- A valuation read at the TensorCore's references. -/
abbrev refV (W : Dev nD → Valuation τ sig (Elt F)) : (c : Dev nD) → (b : Ref sig .tc) → Buf (Elt F) ((c : Thread nD τ).loc b) :=
  fun c b => W c b

section Regs

-- the contents region 0 and region 1 are entered from
variable (Wa Wb : Dev nD → Valuation τ sig (Elt F))

/-- Both pipelines' proof data, each at its region's entry contents. -/
def pdats : (p : Fin 2) → (c : Dev nD) → Dat τ (Elt F) Unit ℕ (UR sig nD τ) ℕ (cfgs p) c
  | ⟨0, _⟩ => fun c => dat0 (refV Wa) c
  | ⟨1, _⟩ => fun c => dat1 (refV Wb) c

set_option backward.isDefEq.respectTransparency.types false in
/-- REGION 0 over the thread state: entered from every unscoped buffer at `Wa`, left at any `Wp` that has the result
    array at what the pipeline leaves and agrees with `Wa` elsewhere. -/
def reg0 (Wp : Dev nD → Valuation τ sig (Elt F))
    (hout : ∀ c, Wp c main_v7 = (dat0 (refV Wa) c).arrAt 2 cfg0.N)
    (hne : ∀ c (b : Ref sig .tc), b ≠ main_v7 → Wp c b = Wa c b) :
    RegionSeg (pcfgs (F := F)) adm (pdats Wa Wb) () defs₀ 𝒱₀ L lv 0 where
  win := launch0.win.to₀
  block_pos := launch0.block_pos
  stage_whole := launch0.stage_whole
  K := PEmpty
  osem k := k.elim
  ho := Pipeline.OwnSemFacts.none _
  hbody c := (body_obligation0 (refV Wa) c).loose
  hwaits := Pipeline.hwaits_of_owed_zero _ _ _ _ L lv 0 fun _ _ => rfl
  pre c := iprop(StableHlo.held (c : Thread nD τ) (Pipeline.ucRefs τ sig) (Wa c) ∗ R c)
  post c := iprop(StableHlo.held (c : Thread nD τ) (Pipeline.ucRefs τ sig) (Wp c) ∗ R c)
  X c := iprop(∃ r, prngReg c r)
  Y c := iprop(∃ r, prngReg c r)
  Z c := Pipeline.unscopedRest (Ix := Unit) (Name := ℕ) (U := UR sig nD τ) (Lvl := ℕ) spec0 c (refV Wa c)
  hentry c := by
    rw [Pipeline.ownSems0_none]
    have hsplit := Pipeline.arrays_of_unscopedBufs (p := 0) (pcfgs (F := F)) adm (pdats Wa Wb) launch0.win launch0.arr_whole c
      ((pdats Wa Wb 0 c).share_full fun _ => rfl) (refV Wa c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats Wa Wb 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats Wa Wb 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats Wa Wb) ((pdats Wa Wb 0 c).share_full fun _ => rfl)
      (refV Wa c) (refV Wp c) ((pdats Wa Wb 0 c).arrAt · cfg0.N)
      (fun w => by
        fin_cases w
        · exact ((pdats Wa Wb 0 c).arrAt_in 0 rfl _).trans (hne c main_arg0 (by decide)).symm
        · exact ((pdats Wa Wb 0 c).arrAt_in 1 rfl _).trans (hne c main_arg1 (by decide)).symm
        · exact (hout c).symm)
      (fun b hb => hne c b fun h => hb (h ▸ Finset.mem_image.mpr ⟨2, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `Wb`, left at any `Wp` that has the result
    array at what the pipeline leaves and agrees with `Wb` elsewhere. Each feature array enters as the two halves of its
    full share, one per window that reads it, and the halves are joined again at the exit. -/
def reg1 (Wp : Dev nD → Valuation τ sig (Elt F))
    (hout : ∀ c, Wp c main_v9 = (dat1 (refV Wb) c).arrAt 4 cfg1.N)
    (hne : ∀ c (b : Ref sig .tc), b ≠ main_v9 → Wp c b = Wb c b) :
    RegionSeg (pcfgs (F := F)) adm (pdats Wa Wb) () defs₀ 𝒱₀ L lv 1 where
  win := winFacts₀1
  block_pos := block_pos1
  stage_whole := stage_whole1
  K := PEmpty
  osem k := k.elim
  ho := Pipeline.OwnSemFacts.none _
  hbody c := (body_obligation1 (refV Wb) c).loose
  hwaits := Pipeline.hwaits_of_owed_zero _ _ _ _ L lv 1 fun _ _ => rfl
  pre c := iprop(StableHlo.held (c : Thread nD τ) (Pipeline.ucRefs τ sig) (Wb c) ∗ R c)
  post c := iprop(StableHlo.held (c : Thread nD τ) (Pipeline.ucRefs τ sig) (Wp c) ∗ R c)
  X c := iprop(∃ r, prngReg c r)
  Y c := iprop(∃ r, prngReg c r)
  Z c := Pipeline.unscopedRest (Ix := Unit) (Name := ℕ) (U := UR sig nD τ) (Lvl := ℕ) spec1 c (refV Wb c)
  hentry c := by
    rw [Pipeline.ownSems0_none]
    have hsp : (unscopedBufs c (refV Wb c) : sProp 𝕄)
        = iprop((Pipeline.arrBufs (Ix := Unit) (Name := ℕ) (U := UR sig nD τ) (Lvl := ℕ) spec1 c (refV Wb c) : sProp 𝕄)
            ∗ Pipeline.unscopedRest (Ix := Unit) (Name := ℕ) (U := UR sig nD τ) (Lvl := ℕ) spec1 c (refV Wb c)) :=
      Pipeline.unscopedBufs_split₀ cfgs 1 (fun w => winFacts₀1.arr_unscoped w) c (refV Wb c)
    rw [Pipeline.unscopedBufs_held] at hsp
    have harr := arrays1_of_arrBufs (refV Wb) c ((pdats Wa Wb 1 c).arrAt · 0) (fun _ => rfl)
    iintro ⟨⟨Hub, Hp, HO⟩, -, -⟩
    ihave H := (Entails.of_eq hsp) $$ Hub
    icases H with ⟨Hb, Hrest⟩
    ihave Ha := harr $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats Wa Wb 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats Wa Wb 1 c).Φ (Fin.last _) = Pipeline.ΦA spec1 c from rfl]; unfold Pipeline.ΦA
    iintro ⟨Hr, Hp⟩
    isplitl [Hp]; · iexact Hp
    isplitr; · iempintro
    iexact Hr
  hexit c := by
    have hA : ∀ w, (pdats Wa Wb 1 c).arrAt w cfg1.N = refV Wp c (Pipeline.arrRef spec1 w) := fun w => by
      fin_cases w
      · exact ((pdats Wa Wb 1 c).arrAt_in 0 rfl _).trans (hne c main_arg0 (by decide)).symm
      · exact ((pdats Wa Wb 1 c).arrAt_in 1 rfl _).trans (hne c main_arg1 (by decide)).symm
      · exact ((pdats Wa Wb 1 c).arrAt_in 2 rfl _).trans (hne c main_arg0 (by decide)).symm
      · exact ((pdats Wa Wb 1 c).arrAt_in 3 rfl _).trans (hne c main_arg1 (by decide)).symm
      · exact (hout c).symm
    have hjoin : (pdats Wa Wb 1 c).arrays ((pdats Wa Wb 1 c).arrAt · (Pipeline.pin (pcfgs (F := F)) adm 1).N)
        ⊢ (Pipeline.arrBufs (Ix := Unit) (Name := ℕ) (U := UR sig nD τ) (Lvl := ℕ) spec1 c (refV Wp c) : sProp 𝕄) :=
      arrBufs_of_arrays1 (refV Wb) c (refV Wp c) ((pdats Wa Wb 1 c).arrAt · cfg1.N) hA
    have hrest : (Pipeline.unscopedRest (Ix := Unit) (Name := ℕ) (U := UR sig nD τ) (Lvl := ℕ) spec1 c (refV Wb c) : sProp 𝕄)
        = Pipeline.unscopedRest (Ix := Unit) (Name := ℕ) (U := UR sig nD τ) (Lvl := ℕ) spec1 c (refV Wp c) := by
      unfold Pipeline.unscopedRest
      exact bigSep_congr fun b hb => by
        rw [show refV Wp c b = refV Wb c b from hne c b fun h => (Finset.mem_sdiff.mp hb).2 (h ▸ Finset.mem_image.mpr ⟨4, Finset.mem_univ _, rfl⟩)]
    have hsp : (unscopedBufs c (refV Wp c) : sProp 𝕄)
        = iprop((Pipeline.arrBufs (Ix := Unit) (Name := ℕ) (U := UR sig nD τ) (Lvl := ℕ) spec1 c (refV Wp c) : sProp 𝕄)
            ∗ Pipeline.unscopedRest (Ix := Unit) (Name := ℕ) (U := UR sig nD τ) (Lvl := ℕ) spec1 c (refV Wp c)) :=
      Pipeline.unscopedBufs_split₀ cfgs 1 (fun w => winFacts₀1.arr_unscoped w) c (refV Wp c)
    rw [Pipeline.unscopedBufs_held] at hsp
    iintro ⟨Ha, HO, HY, Hrest⟩
    ihave Hb := hjoin $$ Ha
    ihave Hrest' := (Entails.of_eq hrest) $$ Hrest
    imodintro
    isplitl [Hb Hrest']
    · iapply (Entails.of_eq hsp.symm); isplitl [Hb] <;> iassumption
    isplitl [HY]; · iexact HY
    unfold Pipeline.Dat.owesAt Pipeline.owesWithin
    icases HO with ⟨%W, -, HO⟩; iexists W; iexact HO

end Regs

/-! ## What the regions leave, and the frame -/

variable (m : (ℓ : Loc nD τ sig) → Buf (Elt F) ℓ)

/-- Region 0's result array after the region, entered from the contents the fourth host stretch leaves. -/
def o5 (c : Dev nD) : Buf (Elt F) ((c : Thread nD τ).loc main_v7) := (dat0 (refV (V4 m)) c).arrAt 2 cfg0.N

/-- The contents the regions leave, up to region 1's entry: region 0's result array, nothing else changed. -/
def outs5 : Outs (F := F) := fun _ r c => if h : r = main_v7 then h ▸ o5 m c else V4 m c r

/-- Region 1's result array after the region, entered from the contents the reshape after region 0 leaves. -/
def o7 (c : Dev nD) : Buf (Elt F) ((c : Thread nD τ).loc main_v9) := (dat1 (refV (V6 m (outs5 m))) c).arrAt 4 cfg1.N

/-- The contents the two regions leave. -/
def outs : Outs (F := F) := fun J r c => if h : r = main_v9 then h ▸ o7 m c else outs5 m J r c

theorem outs5_v7 (J : ℕ) (c : Dev nD) : outs5 m J main_v7 c = o5 m c := by
  unfold outs5; rw [dif_pos rfl]
theorem outs_v7 (J : ℕ) (c : Dev nD) : outs m J main_v7 c = o5 m c := by
  unfold outs; rw [dif_neg (by decide)]; exact outs5_v7 m J c
theorem outs_v9 (J : ℕ) (c : Dev nD) : outs m J main_v9 c = o7 m c := by
  unfold outs; rw [dif_pos rfl]

/-- Up to region 1's entry the valuations see only region 0's result. -/
theorem V5_outs (c : Dev nD) : V5 m (outs m) c = V5 m (outs5 m) c := by
  show Function.update (V4 m c) main_v7 (outs m 5 main_v7 c) = Function.update (V4 m c) main_v7 (outs5 m 5 main_v7 c)
  rw [outs_v7, outs5_v7]
theorem V6_outs (c : Dev nD) : V6 m (outs m) c = V6 m (outs5 m) c := by
  show StableHlo.after hostOps1 (V5 m (outs m) c) = StableHlo.after hostOps1 (V5 m (outs5 m) c)
  rw [V5_outs]

/-- After region 0 its result array holds what the pipeline leaves, -/
theorem V5_main_v7_eq (c : Dev nD) : V5 m (outs m) c main_v7 = (dat0 (refV (V4 m)) c).arrAt 2 cfg0.N := by
  show Function.update (V4 m c) main_v7 (outs m 5 main_v7 c) main_v7 = _
  rw [Function.update_self, outs_v7]; rfl
/-- and every other buffer what it held. -/
theorem V5_ne (c : Dev nD) (b : Ref sig .tc) (hb : b ≠ main_v7) : V5 m (outs m) c b = V4 m c b :=
  V5_of m (outs m) c b fun h => hb (List.mem_singleton.mp h)
/-- After region 1 its result array holds what the pipeline leaves, -/
theorem V7_main_v9_eq (c : Dev nD) : V7 m (outs m) c main_v9 = (dat1 (refV (V6 m (outs5 m))) c).arrAt 4 cfg1.N := by
  show Function.update (V6 m (outs m) c) main_v9 (outs m 7 main_v9 c) main_v9 = _
  rw [Function.update_self, outs_v9]; rfl
/-- and every other buffer what it held. -/
theorem V7_ne (c : Dev nD) (b : Ref sig .tc) (hb : b ≠ main_v9) : V7 m (outs m) c b = V6 m (outs5 m) c b :=
  (V7_of m (outs m) c b fun h => hb (List.mem_singleton.mp h)).trans (congrFun (V6_outs m c) b)

/-- The two pipelines' proof data in the run. -/
abbrev rdats : (p : Fin 2) → (c : Dev nD) → Dat τ (Elt F) Unit ℕ (UR sig nD τ) ℕ (cfgs p) c :=
  pdats (V4 m) (V6 m (outs5 m))

/-- The launch's ghost state: the pipelines' launch element, and nothing beside it on any core. -/
theorem hu₀_emp :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- At the launch every core's generator register is at its launch state and the core owes nothing: `R` on every core. -/
theorem hE0_R (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

/-- At the end the core owes nothing. -/
theorem hE2_R (c : Dev nD) : R (F := F) c ⊢ (iprop(∃ W, owes (c : Thread nD τ) (0 : CellTallies nD τ sig Unit) W) : sProp 𝕄) := by
  iintro ⟨-, H⟩; iexact H

set_option backward.isDefEq.respectTransparency.types false in
/-- THE FRAME at any instance: from any memory with zero counters every weakly fair execution of @main terminates,
    nothing faulting, and each argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_cond m emb₁ () 𝒱₀ L lv (fun _ _ => rfl) ρ (outs m) (rdats m)
    (O₀ := 0) (G := fun _ => iprop(emp))
    (u₀ := initOf (Pipeline.cells cfgs cellOf_inj) (Pipeline.launchToks cfgs cellOf_inj))
    (hu₀ := hu₀_emp)
    (E := fun _ c => R c) (hE0 := hE0_R ρ) (hE2 := hE2_R)
    (R0 := reg0 (V4 m) (V6 m (outs5 m)) (V5 m (outs m)) (V5_main_v7_eq m) (V5_ne m))
    (hpre0 := fun c => .rfl) (hpost0 := fun c => .rfl)
    (R1 := reg1 (V4 m) (V6 m (outs5 m)) (V7 m (outs m)) (V7_main_v9_eq m) (V7_ne m))
    (hpre1 := fun c => by rw [V6_outs]; exact .rfl) (hpost1 := fun c => .rfl)

set_option backward.isDefEq.respectTransparency.types false in
/-- THE RUN WITH ITS RESULT NAMED at any instance: the same run, and the result buffer ends at the last valuation's
    contents over what the two regions left (`outs`). -/
theorem run_value (ρ : Dev nD → PrngReg) : θ_run defs (onTc (τ := τ) (main (F := F))) ⟨m, fun _ => 0, ρ⟩ (fun r => ∀ c : Dev nD,
      r.2.mem ((c.tc : Thread nD τ).loc main_v13) = V8 m (outs m) c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  value_cond m emb₁ () 𝒱₀ L lv (fun _ _ => rfl) ρ (outs m) (rdats m)
    (O₀ := 0) (G := fun _ => iprop(emp))
    (u₀ := initOf (Pipeline.cells cfgs cellOf_inj) (Pipeline.launchToks cfgs cellOf_inj))
    (hu₀ := hu₀_emp)
    (E := fun _ c => R c) (hE0 := hE0_R ρ) (hE2 := hE2_R)
    (R0 := reg0 (V4 m) (V6 m (outs5 m)) (V5 m (outs m)) (V5_main_v7_eq m) (V5_ne m))
    (hpre0 := fun c => .rfl) (hpost0 := fun c => .rfl)
    (R1 := reg1 (V4 m) (V6 m (outs5 m)) (V7 m (outs m)) (V7_main_v9_eq m) (V7_ne m))
    (hpre1 := fun c => by rw [V6_outs]; exact .rfl) (hpost1 := fun c => .rfl)

end Cert.Kernel.Hand

end
-- ==== Proof.KI.Data.lean ====
/-
  The two kernel regions' values and proof data, at any instance `F` and at any contents `V` of the TensorCore's
  buffers when a region is entered.

  Region 0 (one grid point, three windows): the body loads the two whole feature blocks and stores one scalar block,
  `distOut` of them: the mean smooth-L1 distance between the two normalised pairwise-distance matrices.

  Region 1 (48 grid points, five windows; windows 0 and 2 read the first feature array, windows 1 and 3 the second):
  at point `t` the body adds to the one-entry output block the sum over the 8 anchor rows of tile `t` of the smooth-L1
  distance between the two angle Gram matrices (`angleStep`); at the first point it clears the block first
  (`angleZero`). The block is not written back before the last point, so what it holds after point `n` is the
  recursion `acc1`.
-/
import proofs.«426651_j22041772163495_1_alg».proof.Proof.Gen.KernelIdeal.Launch
import proofs.«426651_j22041772163495_1_alg».proof.Proof.Gen.KernelIdeal.Skeleton
import proofs.«426651_j22041772163495_1_alg».proof.Proof.Gen.KernelIdeal.Points
import Idealize.ShloMosaic.Lib.Pipeline.FrameBody

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.Sem
open Idealize.ShloMosaic.Pipeline (Dat Cfg Window)

variable {F : FTy → Type} [FloatOps F]

/-! ## The bodies' stored values, as functions of the loaded blocks -/

/-- Region 0's stored block from the two feature blocks: the mean over all pairs of the smooth-L1 distance between
    the normalised pairwise distances of `x0`'s rows and of `x1`'s rows. -/
def distOut (x0 x1 : Vec F S384x512 .f32) : Vec F S1x1 .f32 :=
  k0_pay1 (k0_pay3 x1 (k0_pay2 x0)) (k0_pay4 x1 (k0_pay2 x0)) (k0_pay5 (F := F))

/-- Region 1's stored block at one point: the running total `prev` plus the sum, over the 8 anchor rows `a` / `a'` and
    all pairs of rows of the full arrays `f` / `f'`, of the smooth-L1 distance between the two angle Gram entries. -/
def angleStep (a : Vec F S8x512 .f32) (f : Vec F S384x512 .f32) (a' : Vec F S8x512 .f32) (f' : Vec F S384x512 .f32)
    (prev : Vec F S1x1 .f32) : Vec F S1x1 .f32 :=
  k1_pay1 (k1_pay3 a f a' f') (k1_pay4 a f a' f') prev

/-- The cleared total the first point starts from. -/
def angleZero : Vec F S1x1 .f32 := k1_pay2 (F := F)

variable (V : (c : Dev nD) → (b : Ref sig .tc) → Buf (Elt F) ((c : Thread nD τ).loc b))

/-! ## Region 0 -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data: the arrays as found; after the body each input's buffer at its block, the output's at
    `distOut` of the two; the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => distOut (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = distOut (iblk0 V c 0 t) (iblk0 V c 1 t) := by dsimp only [dat0]

/-! ## Region 1 -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One point's step from what the point before left. -/
def step1 (c : Dev nD) (t : Fin cfg1.N) (prev : Vec F S1x1 .f32) : Vec F S1x1 .f32 :=
  angleStep (iblk1 V c 0 t) (iblk1 V c 2 t) (iblk1 V c 1 t) (iblk1 V c 3 t) prev

/-- What the output block holds after the body at position `n`: the first point starts from the cleared block, every
    later one from what the point before left. -/
def acc1 (c : Dev nD) : (n : ℕ) → n < cfg1.N → Vec F S1x1 .f32
  | 0, hn => step1 V c ⟨0, hn⟩ (angleZero (F := F))
  | n + 1, hn => step1 V c ⟨n + 1, hn⟩ (acc1 c n (Nat.lt_of_succ_lt hn))

theorem acc1_zero (c : Dev nD) (hn : 0 < cfg1.N) : acc1 V c 0 hn = step1 V c ⟨0, hn⟩ (angleZero (F := F)) := rfl
theorem acc1_succ (c : Dev nD) (n : ℕ) (hn : n + 1 < cfg1.N) :
    acc1 V c (n + 1) hn = step1 V c ⟨n + 1, hn⟩ (acc1 V c n (Nat.lt_of_succ_lt hn)) := rfl

/-- Region 1's proof data: the arrays as found; after the body each input's buffer at its block and the output's at
    `acc1`; the scoped rest and the generator register untouched; nothing owed. The first feature array is read through
    windows 0 and 2 and the second through windows 1 and 3: each pair holds its array at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => acc1 V c t.val t.isLt
  Φ _ := Pipeline.ΦA spec1 c
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = acc1 V c t.val t.isLt := by dsimp only [dat1]

end Cert.KernelIdeal.Hand

end
-- ==== Proof.KI.Body0.lean ====
/-
  Region 0's body obligation: at its one grid point the body, called on the three staging buffers — the two inputs'
  holding the feature blocks, the output's anything — runs to its end leaving the inputs' as they were and the output's
  at `distOut` of the two blocks; the invariant and the core's dues pass through unread.
-/
import proofs.«426651_j22041772163495_1_alg».proof.Proof.KI.Data
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two input windows hold their blocks -/

/-- An input window's staging buffer holds the window's block of the array at the point, for proof data whose
    array is the one found at entry and whose body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The same for the second input window. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The body's accesses: each buffer whole, at offset zero -/

/-- The rectangle of the one-entry output block taken whole. -/
abbrev rOut : Rect S1x1 := Rect.unit (s := S1x1) ![0, 0] S1x1.size inb_S1x1_S1x1_0_0

/-- Both offsets are zero. -/
theorem off_zero : (![0, 0] : Fin 2 → Nat) = fun _ => 0 := funext fun a => by fin_cases a <;> rfl

/-- The one store covers the output block. -/
theorem cover_out (p : Vec F S1x1 .f32) (y : S1x1.Idx) :
    ∃ pc ∈ ([⟨rOut, p⟩] : List (View.Piece (Elt F) S1x1 .f32)), y ∈ pc.1.set :=
  ⟨_, List.mem_singleton_self _, View.mem_set_unit_zero off_zero inb_S1x1_S1x1_0_0 y⟩

/-! ## The body's triple -/

set_option maxHeartbeats 1000000 in
/-- The body on whole staging memrefs, the inputs' reading `x0` and `x1` and the output's anything, runs to the
    continuation with the inputs' as they were and the output's at `distOut x0 x1`. -/
theorem sound_kernel0 (c : Dev nD) (E : Set ℕ) (i : grid0.Coords)
    (arg1 : Memref sig .tc .vmem S384x512 .f32) (harg1 : arg1.IsWhole)
    (arg2 : Memref sig .tc .vmem S384x512 .f32) (harg2 : arg2.IsWhole)
    (arg3 : Memref sig .tc .vmem S1x1 .f32) (harg3 : arg3.IsWhole)
    (x0 x1 : Vec F S384x512 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (distOut x0 x1)) -∗ K ⟨⟩))
      ⊢ wp frame (wpE (defs₀ (F := F)) Variants.none c none) E (cc0__dist_kernel i arg1 harg1 arg2 harg2 arg3 harg3) K := by
  simp only [cc0__dist_kernel_eq_skeleton]; unfold cc0__dist_kernel_skel
  simp only [k0_part1_eq_skeleton, k0_part2_eq_skeleton]
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover_out _)]
  sl_unfold_words
  rw [View.canon_unit_zero off_zero]
  unfold distOut
  simp only [View.readAt_eq_ld, View.ld_unit_zero (S := S384x512) off_zero]

/-! ## The obligation at a point, the windows one by one -/

/-- What the body is called with at point `t`: the invariant, the core's dues, and each window's staging buffer at
    what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns: the same invariant and dues, and each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at a point: the two inputs' buffers hold their blocks, so the body's triple applies at those blocks; the
    invariant and the dues do not depend on the point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for region 0's proof data, at every point, on every core. -/
theorem body_obligation0 (c : Dev nD) : BodyObligation (dat0 (F := F) V c) (defs₀ (F := F)) Variants.none () Set.univ := by
  intro t
  rw [bigSep_W0, bigSep_W0]
  exact sound_body0 V c t

end Cert.KernelIdeal.Hand

end
-- ==== Proof.KI.Body1.lean ====
/-
  Region 1's body obligation: at every grid point the body, called on the five staging buffers — the four inputs'
  holding their blocks, the output's what the point before left (anything at the first point, where the body clears
  it) — runs to its end leaving the inputs' as they were and the output's at `acc1` of the point.

  The body branches once, on whether the grid coordinate is zero. At the first point it stores the cleared total over
  the one-entry output block, and the later load of that block reads the cleared total back; at every other point the
  block still holds what the point before left, because the block is written back to its array at the last point only.
  In both cases the body's one remaining store covers the whole one-entry block with `angleStep` of the four loaded
  blocks and of what the block held, which is the recursion `acc1`.
-/
import proofs.«426651_j22041772163495_1_alg».proof.Proof.KI.Data
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's one branch -/

/-- The body's branch condition as a function of the grid coordinates: the coordinate compared with zero, widened, and
    compared with zero again. -/
abbrev b1_cond (i : grid1.Coords) : Prop :=
  (Scalar.cmpi .ne (Scalar.extui (Scalar.cmpi .eq (BitVec.ofNat 32 (i 0).val) 0#32)) 0#32) = 1#1

/-- It holds at the first of the 48 points and at no other. -/
theorem b1_hcond : ∀ t : Fin cfg1.N, b1_cond (grid1.coords t) ↔ t.val % 48 = 0 :=
  (by decide +kernel : ∀ t : Fin grid1.N, b1_cond (grid1.coords t) ↔ t.val % 48 = 0)

/-! ## Whole-block accesses -/

/-- Every access of the body is at offset zero in both axes. -/
theorem b1_hz : (![0, 0] : Fin 2 → Nat) = fun _ => 0 := funext fun a => by fin_cases a <;> rfl

/-- A store over the whole one-entry block covers it, whatever was stored before. -/
theorem b1_cover (p : Vec F S1x1 .f32) (L : List (View.Piece (Elt F) S1x1 .f32)) (y : S1x1.Idx) :
    ∃ pc ∈ ((⟨Rect.unit (s := S1x1) ![0, 0] S1x1.size inb_S1x1_S1x1_0_0, p⟩ : View.Piece (Elt F) S1x1 .f32) :: L), y ∈ pc.1.set :=
  ⟨⟨Rect.unit (s := S1x1) ![0, 0] S1x1.size inb_S1x1_S1x1_0_0, p⟩, List.mem_cons_self,
    View.mem_set_unit_zero (S := S1x1) b1_hz inb_S1x1_S1x1_0_0 y⟩

/-! ## The body's run, case by case -/

set_option maxHeartbeats 1000000 in
/-- AT THE FIRST POINT (the branch taken): on whole staging memrefs, the four inputs' reading `x0 … x3` and the
    output's anything, the body runs to the continuation with the inputs' as they were and the output's at
    `angleStep` of the blocks over the cleared total: the clearing store, then the load that reads it back, then the
    store of the sum over the whole block. -/
theorem b1_run_first (c : Dev nD) (E : Set ℕ) (i : grid1.Coords)
    (arg1 : Memref sig .tc .vmem S8x512 .f32) (harg1 : arg1.IsWhole) (arg2 : Memref sig .tc .vmem S8x512 .f32) (harg2 : arg2.IsWhole)
    (arg3 : Memref sig .tc .vmem S384x512 .f32) (harg3 : arg3.IsWhole) (arg4 : Memref sig .tc .vmem S384x512 .f32) (harg4 : arg4.IsWhole)
    (arg5 : Memref sig .tc .vmem S1x1 .f32) (harg5 : arg5.IsWhole) (hc0 : b1_cond i)
    (x0 x1 : Vec F S8x512 .f32) (x2 x3 : Vec F S384x512 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (angleStep x0 x2 x1 x3 (angleZero (F := F)))) -∗ K ⟨⟩))
      ⊢ wp frame (wpE (defs₀ (F := F)) Variants.none c none) E (cc1__angle_kernel i arg1 harg1 arg2 harg2 arg3 harg3 arg4 harg4 arg5 harg5) K := by
  simp only [cc1__angle_kernel_eq_skeleton]; unfold cc1__angle_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (b1_cover _ _)]
  rw [View.canon_cons_unit_zero (S := S1x1) b1_hz inb_S1x1_S1x1_0_0]
  unfold angleStep angleZero
  sl_unfold_words
  simp only [View.readAt_eq_ld, View.ld_unit_zero (S := S8x512) b1_hz, View.ld_unit_zero (S := S384x512) b1_hz,
    View.readCov_unit_zero (S := S1x1) _ b1_hz]

set_option maxHeartbeats 1000000 in
/-- AT EVERY LATER POINT (the branch not taken): the same with the output's buffer reading `xo`, which the body loads
    and adds to: it ends at `angleStep` of the blocks over `xo`. -/
theorem b1_run_later (c : Dev nD) (E : Set ℕ) (i : grid1.Coords)
    (arg1 : Memref sig .tc .vmem S8x512 .f32) (harg1 : arg1.IsWhole) (arg2 : Memref sig .tc .vmem S8x512 .f32) (harg2 : arg2.IsWhole)
    (arg3 : Memref sig .tc .vmem S384x512 .f32) (harg3 : arg3.IsWhole) (arg4 : Memref sig .tc .vmem S384x512 .f32) (harg4 : arg4.IsWhole)
    (arg5 : Memref sig .tc .vmem S1x1 .f32) (harg5 : arg5.IsWhole) (hc0 : ¬b1_cond i)
    (x0 x1 : Vec F S8x512 .f32) (x2 x3 : Vec F S384x512 .f32) (xo : Vec F S1x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare xo
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (angleStep x0 x2 x1 x3 xo)) -∗ K ⟨⟩))
      ⊢ wp frame (wpE (defs₀ (F := F)) Variants.none c none) E (cc1__angle_kernel i arg1 harg1 arg2 harg2 arg3 harg3 arg4 harg4 arg5 harg5) K := by
  simp only [cc1__angle_kernel_eq_skeleton]; unfold cc1__angle_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (b1_cover _ _)]
  rw [View.canon_cons_unit_zero (S := S1x1) b1_hz inb_S1x1_S1x1_0_0]
  unfold angleStep
  sl_unfold_words
  simp only [View.readAt_eq_ld, View.ld_unit_zero (S := S8x512) b1_hz, View.ld_unit_zero (S := S384x512) b1_hz,
    View.ld_unit_zero (S := S1x1) b1_hz]

/-! ## What the staging buffers hold when the body is called -/

/-- Each input's current staging buffer holds the window's block at every point, fetched there or not: the anchor
    tiles are fetched at every point, the whole arrays at the first only and their block never moves. -/
theorem b1_before0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem b1_before1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem b1_before2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem b1_before3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- At a point after the first the output's staging buffer holds what the body left at the point before: the block is
    written back at the last point only, so never between two points, and the window is live and uncut. -/
theorem b1_before4 (c : Dev nD) (t : Fin cfg1.N) (h0 : t.val ≠ 0) (d) :
    (dat1 V c).before 4 t d = acc1 V c (t.val - 1) (Nat.lt_of_le_of_lt (Nat.sub_le _ _) t.isLt) := by
  have hN : t.val < 48 := lt_of_lt_of_eq t.isLt (show cfg1.N = 48 from N_1)
  rw [Dat.before_out_kept _ 4 rfl t h0 (Bool.eq_false_iff.mpr fun h => by have := (flush1_4 _).mp h; dsimp only at this; omega)
    (fun _ => rfl) (fun _ _ => rfl)]
  dsimp only [dat1]

/-! ## The running total at a point, by the point's position -/

/-- At the first point the total is one step from the cleared block; -/
theorem b1_acc_first (c : Dev nD) (t : Fin cfg1.N) (h0 : t.val = 0) :
    acc1 V c t.val t.isLt = step1 V c t (angleZero (F := F)) := by
  obtain ⟨n, hn⟩ := t
  cases n with
  | zero => exact acc1_zero V c hn
  | succ n => exact absurd h0 (Nat.succ_ne_zero n)

/-- at a later one, one step from the total at the point before. -/
theorem b1_acc_later (c : Dev nD) (t : Fin cfg1.N) (h0 : t.val ≠ 0) :
    acc1 V c t.val t.isLt = step1 V c t (acc1 V c (t.val - 1) (Nat.lt_of_le_of_lt (Nat.sub_le _ _) t.isLt)) := by
  obtain ⟨n, hn⟩ := t
  cases n with
  | zero => exact absurd rfl h0
  | succ n => exact acc1_succ V c n hn

/-! ## The body obligation, at a generic point -/

/-- What the body is called with at point `t`: the invariant, the core's dues, and each window's current staging
    buffer at what it then holds; -/
def b1_bodyPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns: each buffer at what the proof data says the body leaves. -/
def b1_bodyPost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 800000 in
/-- The body at any point: the inputs' buffers hold their blocks; the point is the first or a later one; at the first
    the body clears the output's buffer, at a later one the buffer holds the total the point before left; the
    matching run applies, and the total it leaves is `acc1` at the point. The invariant and the core's dues pass
    through unread. -/
theorem b1_sound_body (c : Dev nD) (t : Fin cfg1.N) :
    b1_bodyPre V c t ⊢ wp frame (wpE (defs₀ (F := F)) Variants.none c none) Set.univ (bodyAt1 t) (fun _ => b1_bodyPost V c t) := by
  unfold b1_bodyPre b1_bodyPost bodyAt1
  simp only [b1_before0, b1_before1, b1_before2, b1_before3]
  rw [show (dat1 V c).Φ t.succ = (dat1 V c).Φ t.castSucc from rfl,
    show (dat1 V c).owesAt () t.succ = (dat1 V c).owesAt () t.castSucc from rfl,
    after1_0, after1_1, after1_2, after1_3, after1_4]
  have hN : t.val < 48 := lt_of_lt_of_eq t.isLt (show cfg1.N = 48 from N_1)
  by_cases h0 : t.val % 48 = 0
  · rw [b1_acc_first V c t (by omega)]
    unfold step1
    iintro ⟨HΦ, Ho, ⟨%d0, H0⟩, ⟨%d1, H1⟩, ⟨%d2, H2⟩, ⟨%d3, H3⟩, ⟨%d4, H4⟩⟩
    iapply (b1_run_first c Set.univ (grid1.coords t) _ _ _ _ _ _ _ _ _ _ ((b1_hcond t).mpr h0)
      (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · have h0' : t.val ≠ 0 := by omega
    rw [b1_acc_later V c t h0']
    simp only [b1_before4 V c t h0']
    unfold step1
    iintro ⟨HΦ, Ho, ⟨%d0, H0⟩, ⟨%d1, H1⟩, ⟨%d2, H2⟩, ⟨%d3, H3⟩, ⟨%d4, H4⟩⟩
    iapply (b1_run_later c Set.univ (grid1.coords t) _ _ _ _ _ _ _ _ _ _ (fun h => h0 ((b1_hcond t).mp h))
      (iblk1 V c 0 t) (iblk1 V c 1 t) (iblk1 V c 2 t) (iblk1 V c 3 t)
      (acc1 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation for region 1's proof data, at every point, on every core. -/
theorem body_obligation1 (c : Dev nD) : BodyObligation (dat1 (F := F) V c) (defs₀ (F := F)) Variants.none () Set.univ := fun t => by
  rw [bigSep_W1, bigSep_W1]
  exact b1_sound_body V c t

end Cert.KernelIdeal.Hand

end
-- ==== Proof.KI.Shares1.lean ====
/-
  Region 1's windows share arrays: windows 0 and 2 read the first feature array, windows 1 and 3 the second, window 4
  writes the result. The three distinct buffers behind the five windows, each held whole at the full share, ARE the
  five windowed arrays at region 1's shares (each feature array split into the two halves of the full share), and
  back: a share splits and joins along `fullShare.left` / `fullShare.right`.
-/
import proofs.«426651_j22041772163495_1_alg».proof.Proof.KI.Data
import Idealize.ShloMosaic.Lib.Pipeline.FrameBody
import Idealize.ShloMosaic.Lib.Ring
import Idealize.ShloMosaic.Lib.Tactic

import Idealize.ShloMosaic.Lib.Pipeline.Launch
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Which buffers stand behind the five windows, and at which share each window holds its own -/

/-- The five windows stage three distinct buffers: the two feature arrays and the result. -/
theorem arrImage1 : (Finset.univ : Finset (Fin 5)).image (Pipeline.arrRef spec1) = {main_arg0, main_arg1, main_v9} := by decide

/-- The inputs are held at their own shares — the first window on an array at the left half of the full share, the
    second at the right half — and the output at the full share. -/
theorem share1_0 (c : Dev nD) : (dat1 V c).share 0 = fullShare.left := rfl
theorem share1_1 (c : Dev nD) : (dat1 V c).share 1 = fullShare.left := rfl
theorem share1_2 (c : Dev nD) : (dat1 V c).share 2 = fullShare.right := rfl
theorem share1_3 (c : Dev nD) : (dat1 V c).share 3 = fullShare.right := rfl
theorem share1_4 (c : Dev nD) : (dat1 V c).share 4 = fullShare := rfl

section Windows

variable (c : Dev nD) (V' : (b : Ref sig .tc) → Buf (Elt F) ((c : Thread nD τ).loc b))
  (A : (w : Fin cfg1.W) → Buf (Elt F) ((cfg1.win w).arr.view.loc (c : Thread nD τ)))
  (hA : ∀ w, A w = V' (Pipeline.arrRef spec1 w))

include hA

/-! Each window's array is a whole buffer, so its windowed points-to is the buffer's own points-to over every index,
    at the window's share and at the buffer's contents under `V'`. -/

theorem arr1_0 : ((cfg1.win 0).arr.view.loc (c : Thread nD τ) ↦[(cfg1.win 0).arr.view.set]{(dat1 V c).share 0} A 0 : sProp 𝕄)
    = ((c : Thread nD τ).loc main_arg0 ↦{fullShare.left} V' main_arg0) := by
  rw [hA 0, share1_0, (arr_whole1 0).set_eq_univ]

theorem arr1_1 : ((cfg1.win 1).arr.view.loc (c : Thread nD τ) ↦[(cfg1.win 1).arr.view.set]{(dat1 V c).share 1} A 1 : sProp 𝕄)
    = ((c : Thread nD τ).loc main_arg1 ↦{fullShare.left} V' main_arg1) := by
  rw [hA 1, share1_1, (arr_whole1 1).set_eq_univ]

theorem arr1_2 : ((cfg1.win 2).arr.view.loc (c : Thread nD τ) ↦[(cfg1.win 2).arr.view.set]{(dat1 V c).share 2} A 2 : sProp 𝕄)
    = ((c : Thread nD τ).loc main_arg0 ↦{fullShare.right} V' main_arg0) := by
  rw [hA 2, share1_2, (arr_whole1 2).set_eq_univ]

theorem arr1_3 : ((cfg1.win 3).arr.view.loc (c : Thread nD τ) ↦[(cfg1.win 3).arr.view.set]{(dat1 V c).share 3} A 3 : sProp 𝕄)
    = ((c : Thread nD τ).loc main_arg1 ↦{fullShare.right} V' main_arg1) := by
  rw [hA 3, share1_3, (arr_whole1 3).set_eq_univ]

theorem arr1_4 : ((cfg1.win 4).arr.view.loc (c : Thread nD τ) ↦[(cfg1.win 4).arr.view.set]{(dat1 V c).share 4} A 4 : sProp 𝕄)
    = ((c : Thread nD τ).loc main_v9 ↦{fullShare} V' main_v9) := by
  rw [hA 4, share1_4, (arr_whole1 4).set_eq_univ]

omit hA in
/-- Regrouping: two split pairs and a fifth conjunct, pair by pair, are the two left parts, the two right parts and the
    fifth, in that order. -/
theorem sep_pairs {P Q R S T : sProp 𝕄} : iprop((P ∗ Q) ∗ (R ∗ S) ∗ T) ⊣⊢ iprop(P ∗ R ∗ Q ∗ S ∗ T) :=
  Laws.sep_assoc.symm.trans <| (Laws.sep_congr_left Laws.sep_sep_sep_comm).trans <|
    Laws.sep_assoc.trans <| Laws.sep_assoc.trans <| Laws.sep_congr_right (Laws.sep_congr_right Laws.sep_assoc)

/-- The five windowed arrays at region 1's shares ARE the three distinct buffers at the full share: each feature
    array's full share is the join of the left half (its first window) and the right half (its second). -/
theorem arrays1_iff :
    (dat1 V c).arrays A ⊣⊢ (Pipeline.arrBufs (Ix := Unit) (Name := ℕ) (U := UR sig nD τ) (Lvl := ℕ) spec1 c V' : sProp 𝕄) := by
  classical
  unfold Pipeline.arrBufs Dat.arrays
  rw [arrImage1, bigSep_W1, bigSep_insert (by decide), bigSep_insert (by decide), bigSep_singleton,
    arr1_0 V c V' A hA, arr1_1 V c V' A hA, arr1_2 V c V' A hA, arr1_3 V c V' A hA, arr1_4 V c V' A hA]
  have s0 := pointsTo_share (Ix := Unit) (Val := Elt F) (Name := ℕ) (U := UR sig nD τ) (Lvl := ℕ) (ℓ := (c : Thread nD τ).loc main_arg0)
    (I := Finset.univ) (f := V' main_arg0) (PosShare.mem_left_op_right fullShare)
  have s1 := pointsTo_share (Ix := Unit) (Val := Elt F) (Name := ℕ) (U := UR sig nD τ) (Lvl := ℕ) (ℓ := (c : Thread nD τ).loc main_arg1)
    (I := Finset.univ) (f := V' main_arg1) (PosShare.mem_left_op_right fullShare)
  exact ((Laws.sep_congr s0 (Laws.sep_congr_left s1)).trans sep_pairs).symm

end Windows

/-- ENTRY: the distinct buffers behind region 1's arrays, whole at the full share at `V c`, make the windowed arrays at
    any contents `A` that are `V c`'s. -/
theorem arrays1_of_arrBufs (c : Dev nD)
    (A : (w : Fin cfg1.W) → Buf (Elt F) ((cfg1.win w).arr.view.loc (c : Thread nD τ)))
    (hA : ∀ w, A w = V c (Pipeline.arrRef spec1 w)) :
    (Pipeline.arrBufs (Ix := Unit) (Name := ℕ) (U := UR sig nD τ) (Lvl := ℕ) spec1 c (V c) : sProp 𝕄) ⊢ (dat1 V c).arrays A :=
  (arrays1_iff V c (V c) A hA).2

/-- EXIT: the windowed arrays at contents `A` that are some `V' c`'s make the distinct buffers whole at the full share
    at `V' c`. -/
theorem arrBufs_of_arrays1 (c : Dev nD)
    (V' : (b : Ref sig .tc) → Buf (Elt F) ((c : Thread nD τ).loc b))
    (A : (w : Fin cfg1.W) → Buf (Elt F) ((cfg1.win w).arr.view.loc (c : Thread nD τ)))
    (hA : ∀ w, A w = V' (Pipeline.arrRef spec1 w)) :
    (dat1 V c).arrays A ⊢ (Pipeline.arrBufs (Ix := Unit) (Name := ℕ) (U := UR sig nD τ) (Lvl := ℕ) spec1 c V' : sProp 𝕄) :=
  (arrays1_iff V c V' A hA).1

end Cert.KernelIdeal.Hand

end
-- ==== Proof.KI.ValueCond.lean ====
/-
  The kernel program's run with its result named, given the two regions' records: @main's eight items run as the
  launch's segments; at the end every unscoped buffer is held at the last valuation, so the result buffer holds that
  valuation's contents there and each argument its launch contents.
-/
import proofs.«426651_j22041772163495_1_alg».proof.Proof.Gen.KernelIdeal.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

set_option backward.isDefEq.respectTransparency.types false in
/-- THE RUN WITH ITS RESULT NAMED, given the regions' records: as the conditional frame, and the final memory also holds
    the result buffer `main_v13` at the last valuation's contents `V8 m outs c main_v13` — the closing host stretch's sum of the
    three terms over what the two regions left. -/
theorem value_cond (m : (ℓ : Loc nD τ sig) → Buf (Elt F) ℓ) {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V4 m c) ∗ E 0 c) ⊢ R0.pre c)
    (hpost0 : ∀ c : Dev nD, R0.post c ⊢ iprop(StableHlo.held (c : Thread nD τ) (Pipeline.ucRefs τ sig) (V5 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V6 m outs c) ∗ E 1 c) ⊢ R1.pre c)
    (hpost1 : ∀ c : Dev nD, R1.post c ⊢ iprop(StableHlo.held (c : Thread nD τ) (Pipeline.ucRefs τ sig) (V7 m outs c) ∗ E 2 c)) :
    θ_run defs (onTc (τ := τ) (main (F := F))) ⟨m, fun _ => 0, ρ⟩ (fun r => ∀ c : Dev nD,
      r.2.mem ((c.tc : Thread nD τ).loc main_v13) = V8 m outs c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          StableHlo.seq hostOps0_3,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V8 m outs c))
    (hch := fun c => ⟨.rfl, .rfl, .rfl, .rfl, hpre0 c, hpost0 c, hpre1 c, hpost1 c, sep_mono .rfl (hE2 c)⟩)
    (hinit := ?_) (QY := fun c s => s.mem ((c.tc : Thread nD τ).loc main_v13) = V8 m outs c main_v13 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result buffer and each argument's buffer read off the last valuation
    unfold StableHlo.held
    iintro ⟨Hh, HSI⟩
    ihave Hr := (pointsTo_read_all (Pipeline.ucRefs τ sig) (fun b => ((c : Thread nD τ).1, b)) (V8 m outs c) s') $$ [Hh HSI]
    · isplitl [Hh] <;> iassumption
    icases Hr with ⟨%h, HSI⟩
    imodintro
    isplitr
    · ipureintro
      exact ⟨h (Proc.devRef .tc main_v13) (Finset.mem_filter.mpr ⟨StableHlo.devRef_mem_tcRefs main_v13, by decide⟩),
        (h (Proc.devRef .tc main_arg0) (Finset.mem_filter.mpr ⟨StableHlo.devRef_mem_tcRefs main_arg0, by decide⟩)).trans (V8_main_arg0 m outs c),
        (h (Proc.devRef .tc main_arg1) (Finset.mem_filter.mpr ⟨StableHlo.devRef_mem_tcRefs main_arg1, by decide⟩)).trans (V8_main_arg1 m outs c),
        (h (Proc.devRef .tc main_arg2) (Finset.mem_filter.mpr ⟨StableHlo.devRef_mem_tcRefs main_arg2, by decide⟩)).trans (V8_main_arg2 m outs c)⟩
    · iexact HSI

end Cert.KernelIdeal.Hand

end
-- ==== Proof.KI.Frame.lean ====
/-
  The kernel program's frame, at any instance: @main is eight items — four stretches of host operations (the
  log-softmax, the labels broadcast, the label's entry taken, their mean negated), kernel region 0 (the pairwise-distance
  term), one reshape, kernel region 1 (the angle term), and the closing sum. Between two items every unscoped buffer
  is held whole at a known valuation; beside it ride the core's generator register at some state and its dues at nothing.

  A region splits its arrays out of the unscoped buffers at its entry, runs its pipeline, and puts them back at the
  valuation updated at its result array. Region 0's three arrays are distinct. Region 1 reads each feature array
  through two windows, so each of those arrays enters the pipeline as two half shares and is joined again at the exit.

  What the regions leave: `o5`, region 0's result array after its one point, and `o7`, region 1's after its 48 points
  from the contents the reshape left; `outs` packs the two for the valuations between items.
-/
import proofs.«426651_j22041772163495_1_alg».proof.Proof.KI.Body0
import proofs.«426651_j22041772163495_1_alg».proof.Proof.KI.Body1
import proofs.«426651_j22041772163495_1_alg».proof.Proof.KI.Shares1
import proofs.«426651_j22041772163495_1_alg».proof.Proof.KI.ValueCond
import proofs.«426651_j22041772163495_1_alg».proof.Proof.Gen.KernelIdeal.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, the dues at nothing. -/
abbrev R (c : Dev nD) : sProp 𝕄 := iprop((∃ r, prngReg c r) ∗ ∃ W, owes (c : Thread nD τ) (0 : CellTallies nD τ sig Unit) W)

/-- A valuation read at the TensorCore's references. -/
abbrev refV (W : Dev nD → Valuation τ sig (Elt F)) : (c : Dev nD) → (b : Ref sig .tc) → Buf (Elt F) ((c : Thread nD τ).loc b) :=
  fun c b => W c b

section Regs

-- the contents region 0 and region 1 are entered from
variable (Wa Wb : Dev nD → Valuation τ sig (Elt F))

/-- Both pipelines' proof data, each at its region's entry contents. -/
def pdats : (p : Fin 2) → (c : Dev nD) → Dat τ (Elt F) Unit ℕ (UR sig nD τ) ℕ (cfgs p) c
  | ⟨0, _⟩ => fun c => dat0 (refV Wa) c
  | ⟨1, _⟩ => fun c => dat1 (refV Wb) c

set_option backward.isDefEq.respectTransparency.types false in
/-- REGION 0 over the thread state: entered from every unscoped buffer at `Wa`, left at any `Wp` that has the result
    array at what the pipeline leaves and agrees with `Wa` elsewhere. -/
def reg0 (Wp : Dev nD → Valuation τ sig (Elt F))
    (hout : ∀ c, Wp c main_v7 = (dat0 (refV Wa) c).arrAt 2 cfg0.N)
    (hne : ∀ c (b : Ref sig .tc), b ≠ main_v7 → Wp c b = Wa c b) :
    RegionSeg (pcfgs (F := F)) adm (pdats Wa Wb) () defs₀ 𝒱₀ L lv 0 where
  win := launch0.win.to₀
  block_pos := launch0.block_pos
  stage_whole := launch0.stage_whole
  K := PEmpty
  osem k := k.elim
  ho := Pipeline.OwnSemFacts.none _
  hbody c := (body_obligation0 (refV Wa) c).loose
  hwaits := Pipeline.hwaits_of_owed_zero _ _ _ _ L lv 0 fun _ _ => rfl
  pre c := iprop(StableHlo.held (c : Thread nD τ) (Pipeline.ucRefs τ sig) (Wa c) ∗ R c)
  post c := iprop(StableHlo.held (c : Thread nD τ) (Pipeline.ucRefs τ sig) (Wp c) ∗ R c)
  X c := iprop(∃ r, prngReg c r)
  Y c := iprop(∃ r, prngReg c r)
  Z c := Pipeline.unscopedRest (Ix := Unit) (Name := ℕ) (U := UR sig nD τ) (Lvl := ℕ) spec0 c (refV Wa c)
  hentry c := by
    rw [Pipeline.ownSems0_none]
    have hsplit := Pipeline.arrays_of_unscopedBufs (p := 0) (pcfgs (F := F)) adm (pdats Wa Wb) launch0.win launch0.arr_whole c
      ((pdats Wa Wb 0 c).share_full fun _ => rfl) (refV Wa c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats Wa Wb 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats Wa Wb 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats Wa Wb) ((pdats Wa Wb 0 c).share_full fun _ => rfl)
      (refV Wa c) (refV Wp c) ((pdats Wa Wb 0 c).arrAt · cfg0.N)
      (fun w => by
        fin_cases w
        · exact ((pdats Wa Wb 0 c).arrAt_in 0 rfl _).trans (hne c main_arg0 (by decide)).symm
        · exact ((pdats Wa Wb 0 c).arrAt_in 1 rfl _).trans (hne c main_arg1 (by decide)).symm
        · exact (hout c).symm)
      (fun b hb => hne c b fun h => hb (h ▸ Finset.mem_image.mpr ⟨2, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `Wb`, left at any `Wp` that has the result
    array at what the pipeline leaves and agrees with `Wb` elsewhere. Each feature array enters as the two halves of its
    full share, one per window that reads it, and the halves are joined again at the exit. -/
def reg1 (Wp : Dev nD → Valuation τ sig (Elt F))
    (hout : ∀ c, Wp c main_v9 = (dat1 (refV Wb) c).arrAt 4 cfg1.N)
    (hne : ∀ c (b : Ref sig .tc), b ≠ main_v9 → Wp c b = Wb c b) :
    RegionSeg (pcfgs (F := F)) adm (pdats Wa Wb) () defs₀ 𝒱₀ L lv 1 where
  win := winFacts₀1
  block_pos := block_pos1
  stage_whole := stage_whole1
  K := PEmpty
  osem k := k.elim
  ho := Pipeline.OwnSemFacts.none _
  hbody c := (body_obligation1 (refV Wb) c).loose
  hwaits := Pipeline.hwaits_of_owed_zero _ _ _ _ L lv 1 fun _ _ => rfl
  pre c := iprop(StableHlo.held (c : Thread nD τ) (Pipeline.ucRefs τ sig) (Wb c) ∗ R c)
  post c := iprop(StableHlo.held (c : Thread nD τ) (Pipeline.ucRefs τ sig) (Wp c) ∗ R c)
  X c := iprop(∃ r, prngReg c r)
  Y c := iprop(∃ r, prngReg c r)
  Z c := Pipeline.unscopedRest (Ix := Unit) (Name := ℕ) (U := UR sig nD τ) (Lvl := ℕ) spec1 c (refV Wb c)
  hentry c := by
    rw [Pipeline.ownSems0_none]
    have hsp : (unscopedBufs c (refV Wb c) : sProp 𝕄)
        = iprop((Pipeline.arrBufs (Ix := Unit) (Name := ℕ) (U := UR sig nD τ) (Lvl := ℕ) spec1 c (refV Wb c) : sProp 𝕄)
            ∗ Pipeline.unscopedRest (Ix := Unit) (Name := ℕ) (U := UR sig nD τ) (Lvl := ℕ) spec1 c (refV Wb c)) :=
      Pipeline.unscopedBufs_split₀ cfgs 1 (fun w => winFacts₀1.arr_unscoped w) c (refV Wb c)
    rw [Pipeline.unscopedBufs_held] at hsp
    have harr := arrays1_of_arrBufs (refV Wb) c ((pdats Wa Wb 1 c).arrAt · 0) (fun _ => rfl)
    iintro ⟨⟨Hub, Hp, HO⟩, -, -⟩
    ihave H := (Entails.of_eq hsp) $$ Hub
    icases H with ⟨Hb, Hrest⟩
    ihave Ha := harr $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats Wa Wb 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats Wa Wb 1 c).Φ (Fin.last _) = Pipeline.ΦA spec1 c from rfl]; unfold Pipeline.ΦA
    iintro ⟨Hr, Hp⟩
    isplitl [Hp]; · iexact Hp
    isplitr; · iempintro
    iexact Hr
  hexit c := by
    have hA : ∀ w, (pdats Wa Wb 1 c).arrAt w cfg1.N = refV Wp c (Pipeline.arrRef spec1 w) := fun w => by
      fin_cases w
      · exact ((pdats Wa Wb 1 c).arrAt_in 0 rfl _).trans (hne c main_arg0 (by decide)).symm
      · exact ((pdats Wa Wb 1 c).arrAt_in 1 rfl _).trans (hne c main_arg1 (by decide)).symm
      · exact ((pdats Wa Wb 1 c).arrAt_in 2 rfl _).trans (hne c main_arg0 (by decide)).symm
      · exact ((pdats Wa Wb 1 c).arrAt_in 3 rfl _).trans (hne c main_arg1 (by decide)).symm
      · exact (hout c).symm
    have hjoin : (pdats Wa Wb 1 c).arrays ((pdats Wa Wb 1 c).arrAt · (Pipeline.pin (pcfgs (F := F)) adm 1).N)
        ⊢ (Pipeline.arrBufs (Ix := Unit) (Name := ℕ) (U := UR sig nD τ) (Lvl := ℕ) spec1 c (refV Wp c) : sProp 𝕄) :=
      arrBufs_of_arrays1 (refV Wb) c (refV Wp c) ((pdats Wa Wb 1 c).arrAt · cfg1.N) hA
    have hrest : (Pipeline.unscopedRest (Ix := Unit) (Name := ℕ) (U := UR sig nD τ) (Lvl := ℕ) spec1 c (refV Wb c) : sProp 𝕄)
        = Pipeline.unscopedRest (Ix := Unit) (Name := ℕ) (U := UR sig nD τ) (Lvl := ℕ) spec1 c (refV Wp c) := by
      unfold Pipeline.unscopedRest
      exact bigSep_congr fun b hb => by
        rw [show refV Wp c b = refV Wb c b from hne c b fun h => (Finset.mem_sdiff.mp hb).2 (h ▸ Finset.mem_image.mpr ⟨4, Finset.mem_univ _, rfl⟩)]
    have hsp : (unscopedBufs c (refV Wp c) : sProp 𝕄)
        = iprop((Pipeline.arrBufs (Ix := Unit) (Name := ℕ) (U := UR sig nD τ) (Lvl := ℕ) spec1 c (refV Wp c) : sProp 𝕄)
            ∗ Pipeline.unscopedRest (Ix := Unit) (Name := ℕ) (U := UR sig nD τ) (Lvl := ℕ) spec1 c (refV Wp c)) :=
      Pipeline.unscopedBufs_split₀ cfgs 1 (fun w => winFacts₀1.arr_unscoped w) c (refV Wp c)
    rw [Pipeline.unscopedBufs_held] at hsp
    iintro ⟨Ha, HO, HY, Hrest⟩
    ihave Hb := hjoin $$ Ha
    ihave Hrest' := (Entails.of_eq hrest) $$ Hrest
    imodintro
    isplitl [Hb Hrest']
    · iapply (Entails.of_eq hsp.symm); isplitl [Hb] <;> iassumption
    isplitl [HY]; · iexact HY
    unfold Pipeline.Dat.owesAt Pipeline.owesWithin
    icases HO with ⟨%W, -, HO⟩; iexists W; iexact HO

end Regs

/-! ## What the regions leave, and the frame -/

variable (m : (ℓ : Loc nD τ sig) → Buf (Elt F) ℓ)

/-- Region 0's result array after the region, entered from the contents the fourth host stretch leaves. -/
def o5 (c : Dev nD) : Buf (Elt F) ((c : Thread nD τ).loc main_v7) := (dat0 (refV (V4 m)) c).arrAt 2 cfg0.N

/-- The contents the regions leave, up to region 1's entry: region 0's result array, nothing else changed. -/
def outs5 : Outs (F := F) := fun _ r c => if h : r = main_v7 then h ▸ o5 m c else V4 m c r

/-- Region 1's result array after the region, entered from the contents the reshape after region 0 leaves. -/
def o7 (c : Dev nD) : Buf (Elt F) ((c : Thread nD τ).loc main_v9) := (dat1 (refV (V6 m (outs5 m))) c).arrAt 4 cfg1.N

/-- The contents the two regions leave. -/
def outs : Outs (F := F) := fun J r c => if h : r = main_v9 then h ▸ o7 m c else outs5 m J r c

theorem outs5_v7 (J : ℕ) (c : Dev nD) : outs5 m J main_v7 c = o5 m c := by
  unfold outs5; rw [dif_pos rfl]
theorem outs_v7 (J : ℕ) (c : Dev nD) : outs m J main_v7 c = o5 m c := by
  unfold outs; rw [dif_neg (by decide)]; exact outs5_v7 m J c
theorem outs_v9 (J : ℕ) (c : Dev nD) : outs m J main_v9 c = o7 m c := by
  unfold outs; rw [dif_pos rfl]

/-- Up to region 1's entry the valuations see only region 0's result. -/
theorem V5_outs (c : Dev nD) : V5 m (outs m) c = V5 m (outs5 m) c := by
  show Function.update (V4 m c) main_v7 (outs m 5 main_v7 c) = Function.update (V4 m c) main_v7 (outs5 m 5 main_v7 c)
  rw [outs_v7, outs5_v7]
theorem V6_outs (c : Dev nD) : V6 m (outs m) c = V6 m (outs5 m) c := by
  show StableHlo.after hostOps1 (V5 m (outs m) c) = StableHlo.after hostOps1 (V5 m (outs5 m) c)
  rw [V5_outs]

/-- After region 0 its result array holds what the pipeline leaves, -/
theorem V5_main_v7_eq (c : Dev nD) : V5 m (outs m) c main_v7 = (dat0 (refV (V4 m)) c).arrAt 2 cfg0.N := by
  show Function.update (V4 m c) main_v7 (outs m 5 main_v7 c) main_v7 = _
  rw [Function.update_self, outs_v7]; rfl
/-- and every other buffer what it held. -/
theorem V5_ne (c : Dev nD) (b : Ref sig .tc) (hb : b ≠ main_v7) : V5 m (outs m) c b = V4 m c b :=
  V5_of m (outs m) c b fun h => hb (List.mem_singleton.mp h)
/-- After region 1 its result array holds what the pipeline leaves, -/
theorem V7_main_v9_eq (c : Dev nD) : V7 m (outs m) c main_v9 = (dat1 (refV (V6 m (outs5 m))) c).arrAt 4 cfg1.N := by
  show Function.update (V6 m (outs m) c) main_v9 (outs m 7 main_v9 c) main_v9 = _
  rw [Function.update_self, outs_v9]; rfl
/-- and every other buffer what it held. -/
theorem V7_ne (c : Dev nD) (b : Ref sig .tc) (hb : b ≠ main_v9) : V7 m (outs m) c b = V6 m (outs5 m) c b :=
  (V7_of m (outs m) c b fun h => hb (List.mem_singleton.mp h)).trans (congrFun (V6_outs m c) b)

/-- The two pipelines' proof data in the run. -/
abbrev rdats : (p : Fin 2) → (c : Dev nD) → Dat τ (Elt F) Unit ℕ (UR sig nD τ) ℕ (cfgs p) c :=
  pdats (V4 m) (V6 m (outs5 m))

/-- The launch's ghost state: the pipelines' launch element, and nothing beside it on any core. -/
theorem hu₀_emp :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- At the launch every core's generator register is at its launch state and the core owes nothing: `R` on every core. -/
theorem hE0_R (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

/-- At the end the core owes nothing. -/
theorem hE2_R (c : Dev nD) : R (F := F) c ⊢ (iprop(∃ W, owes (c : Thread nD τ) (0 : CellTallies nD τ sig Unit) W) : sProp 𝕄) := by
  iintro ⟨-, H⟩; iexact H

set_option backward.isDefEq.respectTransparency.types false in
/-- THE FRAME at any instance: from any memory with zero counters every weakly fair execution of @main terminates,
    nothing faulting, and each argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_cond m emb₁ () 𝒱₀ L lv (fun _ _ => rfl) ρ (outs m) (rdats m)
    (O₀ := 0) (G := fun _ => iprop(emp))
    (u₀ := initOf (Pipeline.cells cfgs cellOf_inj) (Pipeline.launchToks cfgs cellOf_inj))
    (hu₀ := hu₀_emp)
    (E := fun _ c => R c) (hE0 := hE0_R ρ) (hE2 := hE2_R)
    (R0 := reg0 (V4 m) (V6 m (outs5 m)) (V5 m (outs m)) (V5_main_v7_eq m) (V5_ne m))
    (hpre0 := fun c => .rfl) (hpost0 := fun c => .rfl)
    (R1 := reg1 (V4 m) (V6 m (outs5 m)) (V7 m (outs m)) (V7_main_v9_eq m) (V7_ne m))
    (hpre1 := fun c => by rw [V6_outs]; exact .rfl) (hpost1 := fun c => .rfl)

set_option backward.isDefEq.respectTransparency.types false in
/-- THE RUN WITH ITS RESULT NAMED at any instance: the same run, and the result buffer ends at the last valuation's
    contents over what the two regions left (`outs`). -/
theorem run_value (ρ : Dev nD → PrngReg) : θ_run defs (onTc (τ := τ) (main (F := F))) ⟨m, fun _ => 0, ρ⟩ (fun r => ∀ c : Dev nD,
      r.2.mem ((c.tc : Thread nD τ).loc main_v13) = V8 m (outs m) c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  value_cond m emb₁ () 𝒱₀ L lv (fun _ _ => rfl) ρ (outs m) (rdats m)
    (O₀ := 0) (G := fun _ => iprop(emp))
    (u₀ := initOf (Pipeline.cells cfgs cellOf_inj) (Pipeline.launchToks cfgs cellOf_inj))
    (hu₀ := hu₀_emp)
    (E := fun _ c => R c) (hE0 := hE0_R ρ) (hE2 := hE2_R)
    (R0 := reg0 (V4 m) (V6 m (outs5 m)) (V5 m (outs m)) (V5_main_v7_eq m) (V5_ne m))
    (hpre0 := fun c => .rfl) (hpost0 := fun c => .rfl)
    (R1 := reg1 (V4 m) (V6 m (outs5 m)) (V7 m (outs m)) (V7_main_v9_eq m) (V7_ne m))
    (hpre1 := fun c => by rw [V6_outs]; exact .rfl) (hpost1 := fun c => .rfl)

end Cert.KernelIdeal.Hand

end
-- ==== Proof.KI.PreLabels.lean ====
/-
  The label range, read out of the printed precondition: if `finite_inputs` of the three argument arrays is all
  ones then every label lies in `[0, 512)` as a signed integer — the conjunct `all ((labels ≥ 0) & (labels < 512))`
  of the precondition, decoded word by word.
-/
import proofs.«426651_j22041772163495_1_alg».proof.Pre_finite_inputs
import Idealize.ShloMosaic.Lib.ReduceAll
import Idealize.ShloMosaic.Lib.StableHlo.Predicate
import Idealize.ShloMosaic.Lib.ValueIdx

noncomputable section

namespace Cert.Pre_finite_inputs.Decode

open Cert.Pre_finite_inputs Idealize.ShloMosaic

variable [Cert.Pre_finite_inputs.Facts]
variable {F : FTy → Type} [FloatOps F]

/-- Under the precondition every label is a class index: `0 ≤ labels[i] < 512`, read signed. -/
theorem labels_in_range (x y : FVec F S384x512 .f32) (lab : IVec S384 32)
    (h : Cert.Pre_finite_inputs.fn (F := F) x y lab = fun _ => 1#1) (i : S384.Idx) :
    (0 : Int) ≤ (lab i).toInt ∧ (lab i).toInt < 512 := by
  -- a shape of rank zero has one index
  haveI : Subsingleton S_.Idx := ⟨fun a b => funext fun d => d.elim0⟩
  -- the whole predicate is the bit 1 at its one index; its last conjunct is the reduce-and over the labels
  have h0 := congrFun h ValueIdx.ix0
  dsimp only [Cert.Pre_finite_inputs.fn] at h0
  have h1 : Host.reduce IntOp.andi
        (andi (cmpi CmpIPredicate.sge lab (broadcastInDim S384 ![] Facts.bcast_S_S384 (constantI S_ 32 0#32)))
          (cmpi CmpIPredicate.slt lab (broadcastInDim S384 ![] Facts.bcast_S_S384 (constantI S_ 32 512#32))))
        (constantI S_ 1 1#1) Facts.reducesTo_S384_S_d0 Facts.h_S_ ValueIdx.ix0 = 1#1 :=
    (IntOp.andi_eq_one.1 h0).2
  -- a reduce-and equal to 1 met a 1 at every index, so both compares are 1 at `i`
  have h2 := Host.reduce_andi_all _ _ _ _ _ h1 i
  obtain ⟨hge, hlt⟩ := IntOp.andi_eq_one.1 h2
  -- each compare is against a constant broadcast to every index: read signed, 0 ≤ lab i and lab i < 512
  have hge' : (0#32 : BitVec 32).toInt ≤ (lab i).toInt := IntOp.cmpi_sge.1 hge
  have hlt' : (lab i).toInt < (512#32 : BitVec 32).toInt := IntOp.cmpi_slt.1 hlt
  have e0 : (0#32 : BitVec 32).toInt = 0 := by decide
  have e512 : (512#32 : BitVec 32).toInt = 512 := by decide
  rw [e0] at hge'
  rw [e512] at hlt'
  exact ⟨hge', hlt'⟩

end Cert.Pre_finite_inputs.Decode

end
-- ==== Proof.KI.Blocks.lean ====
/-
  The windows' blocks read off their arrays, and each region's result array after the region, at any instance.

  Region 0's windows 0 and 1, and region 1's windows 2 and 3, stage a WHOLE feature array: the block is the array.
  Region 1's windows 0 and 1 stage 8 rows at a time: the block at point `t` is rows `8 t … 8 t + 7`.
  Region 0 writes its one-entry result block back at its one point; region 1 writes its block back at the last
  point only: the result arrays after the regions hold `distOut` of the two feature arrays and `acc1` at the last point.
-/
import proofs.«426651_j22041772163495_1_alg».proof.Proof.KI.Data
import Idealize.ShloMosaic.Lib.Pipeline.FrameBody
import Idealize.ShloMosaic.Lib.Ring
import Idealize.ShloMosaic.Lib.Tactic

import Idealize.ShloMosaic.Lib.Pipeline.Value
import Idealize.ShloMosaic.Lib.ValueIdx
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

open Idealize.ShloMosaic.ValueIdx

/-! ## The block index of each window at each point of its grid -/

/-- Region 0: all three windows sit at block index (0, 0) at every point. -/
theorem index0_zero : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Region 1: the two 8-row windows sit at block index (t, 0) at point `t`; the two whole-array windows and the
    result window sit at (0, 0) at every point. -/
theorem index1_rows : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)
theorem index1_zero : ∀ t : Fin cfg1.N, win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-! ## Whole-array windows: a block's coordinate is index × size + the coordinate inside the block, and the index is 0 -/

/-- A whole-array window's block is the array (region 0, windows 0 and 1). -/
theorem iblk0_0_eq (c : Dev nD) (t : Fin cfg0.N) (j : S384x512.Idx) : iblk0 V c 0 t j = V c main_arg0 j := by
  obtain ⟨e0, e1, -, -, -, -⟩ := index0_zero t
  show V c main_arg0 (((cfg0.win 0).blk t).view.emb j) = V c main_arg0 j
  refine congrArg _ ?_
  funext a; apply Fin.ext
  match a with
  | ⟨0, _⟩ => show win0_0.index t (0 : Fin 2) * 384 + 1 * (j 0).val = (j 0).val; omega
  | ⟨1, _⟩ => show win0_0.index t (1 : Fin 2) * 512 + 1 * (j 1).val = (j 1).val; omega
theorem iblk0_1_eq (c : Dev nD) (t : Fin cfg0.N) (j : S384x512.Idx) : iblk0 V c 1 t j = V c main_arg1 j := by
  obtain ⟨-, -, e0, e1, -, -⟩ := index0_zero t
  show V c main_arg1 (((cfg0.win 1).blk t).view.emb j) = V c main_arg1 j
  refine congrArg _ ?_
  funext a; apply Fin.ext
  match a with
  | ⟨0, _⟩ => show win0_1.index t (0 : Fin 2) * 384 + 1 * (j 0).val = (j 0).val; omega
  | ⟨1, _⟩ => show win0_1.index t (1 : Fin 2) * 512 + 1 * (j 1).val = (j 1).val; omega

/-- A whole-array window's block is the array (region 1, windows 2 and 3). -/
theorem iblk1_2_eq (c : Dev nD) (t : Fin cfg1.N) (j : S384x512.Idx) : iblk1 V c 2 t j = V c main_arg0 j := by
  obtain ⟨e0, e1, -, -, -, -⟩ := index1_zero t
  show V c main_arg0 (((cfg1.win 2).blk t).view.emb j) = V c main_arg0 j
  refine congrArg _ ?_
  funext a; apply Fin.ext
  match a with
  | ⟨0, _⟩ => show win1_2.index t (0 : Fin 2) * 384 + 1 * (j 0).val = (j 0).val; omega
  | ⟨1, _⟩ => show win1_2.index t (1 : Fin 2) * 512 + 1 * (j 1).val = (j 1).val; omega
theorem iblk1_3_eq (c : Dev nD) (t : Fin cfg1.N) (j : S384x512.Idx) : iblk1 V c 3 t j = V c main_arg1 j := by
  obtain ⟨-, -, e0, e1, -, -⟩ := index1_zero t
  show V c main_arg1 (((cfg1.win 3).blk t).view.emb j) = V c main_arg1 j
  refine congrArg _ ?_
  funext a; apply Fin.ext
  match a with
  | ⟨0, _⟩ => show win1_3.index t (0 : Fin 2) * 384 + 1 * (j 0).val = (j 0).val; omega
  | ⟨1, _⟩ => show win1_3.index t (1 : Fin 2) * 512 + 1 * (j 1).val = (j 1).val; omega

/-! ## 8-row windows: row `b` of the block at point `t` is row `8 t + b` of the array -/

/-- An 8-row window's block at point `t` is rows `8 t + b` of its array (region 1, windows 0 and 1). -/
theorem iblk1_0_eq (c : Dev nD) (t : Fin cfg1.N) (b : Fin 8) (k : Fin 512) (h : 8 * t.val + b.val < 384) :
    iblk1 V c 0 t (ix2 b k) = V c main_arg0 (ix2 ⟨8 * t.val + b.val, h⟩ k) := by
  obtain ⟨e0, e1, -, -⟩ := index1_rows t
  show V c main_arg0 (((cfg1.win 0).blk t).view.emb (ix2 b k)) = V c main_arg0 (ix2 ⟨8 * t.val + b.val, h⟩ k)
  refine congrArg _ ?_
  funext a; apply Fin.ext
  match a with
  | ⟨0, _⟩ => show win1_0.index t (0 : Fin 2) * 8 + 1 * b.val = 8 * t.val + b.val; omega
  | ⟨1, _⟩ => show win1_0.index t (1 : Fin 2) * 512 + 1 * k.val = k.val; omega
theorem iblk1_1_eq (c : Dev nD) (t : Fin cfg1.N) (b : Fin 8) (k : Fin 512) (h : 8 * t.val + b.val < 384) :
    iblk1 V c 1 t (ix2 b k) = V c main_arg1 (ix2 ⟨8 * t.val + b.val, h⟩ k) := by
  obtain ⟨-, -, e0, e1⟩ := index1_rows t
  show V c main_arg1 (((cfg1.win 1).blk t).view.emb (ix2 b k)) = V c main_arg1 (ix2 ⟨8 * t.val + b.val, h⟩ k)
  refine congrArg _ ?_
  funext a; apply Fin.ext
  match a with
  | ⟨0, _⟩ => show win1_1.index t (0 : Fin 2) * 8 + 1 * b.val = 8 * t.val + b.val; omega
  | ⟨1, _⟩ => show win1_1.index t (1 : Fin 2) * 512 + 1 * k.val = k.val; omega

/-! ## The result arrays after their regions -/

/-- Region 0's one-entry result window: an index of the array is in the block of any point (block index (0, 0)). -/
theorem mem_blk0_out (t : Fin cfg0.N) (i : S1x1.Idx) : i ∈ ((cfg0.win 2).blk t).view.set := by
  obtain ⟨-, -, -, -, e0, e1⟩ := index0_zero t
  show i ∈ ((View.whole main_v7).slice (win0_2.rect t)).set
  rw [View.set_slice_whole, Rect.mem_set_unit]
  intro a
  match a with
  | ⟨0, _⟩ => show win0_2.index t (0 : Fin 2) * 1 ≤ (i 0).val ∧ (i 0).val < win0_2.index t (0 : Fin 2) * 1 + 1; have h0 : (i 0).val < 1 := (i 0).isLt; omega
  | ⟨1, _⟩ => show win0_2.index t (1 : Fin 2) * 1 ≤ (i 1).val ∧ (i 1).val < win0_2.index t (1 : Fin 2) * 1 + 1; have h1 : (i 1).val < 1 := (i 1).isLt; omega

/-- Region 0's result array after the region: what its one point wrote back. -/
theorem arrAt0_out (c : Dev nD) (j : S1x1.Idx) :
    (dat0 V c).arrAt 2 cfg0.N j = distOut (iblk0 V c 0 t0_0) (iblk0 V c 1 t0_0) j := by
  have hfin : (dat0 V c).arrAt 2 cfg0.N = distOut (iblk0 V c 0 t0_0) (iblk0 V c 1 t0_0) :=
    (dat0 V c).arrAt_eq_of_cover 2 (distOut (iblk0 V c 0 t0_0) (iblk0 V c 1 t0_0))
      (fun t _ => by
        obtain rfl : t = t0_0 := fin_N0 t
        obtain ⟨-, -, -, -, e0, e1⟩ := index0_zero t0_0
        show (cfg0.win 2).cut (grid0.coords t0_0) ((dat0 V c).after 2 t0_0) = _
        rw [after0_2]
        funext y
        show distOut (iblk0 V c 0 t0_0) (iblk0 V c 1 t0_0) ((cfg0.win 2).xinj (grid0.coords t0_0) y)
          = distOut (iblk0 V c 0 t0_0) (iblk0 V c 1 t0_0) (((cfg0.win 2).blk t0_0).view.emb y)
        refine congrArg _ ?_
        funext a; apply Fin.ext
        match a with
        | ⟨0, _⟩ => show (y 0).val = win0_2.index t0_0 (0 : Fin 2) * 1 + 1 * (y 0).val; omega
        | ⟨1, _⟩ => show (y 1).val = win0_2.index t0_0 (1 : Fin 2) * 1 + 1 * (y 1).val; omega)
      (fun i => ⟨t0_0, flush0_2 t0_0, mem_blk0_out t0_0 i⟩)
  exact congrFun hfin j

/-- Region 1's one-entry result window: an index of the array is in the block of any point (block index (0, 0)). -/
theorem mem_blk1_out (t : Fin cfg1.N) (i : S1x1.Idx) : i ∈ ((cfg1.win 4).blk t).view.set := by
  obtain ⟨-, -, -, -, e0, e1⟩ := index1_zero t
  show i ∈ ((View.whole main_v9).slice (win1_4.rect t)).set
  rw [View.set_slice_whole, Rect.mem_set_unit]
  intro a
  match a with
  | ⟨0, _⟩ => show win1_4.index t (0 : Fin 2) * 1 ≤ (i 0).val ∧ (i 0).val < win1_4.index t (0 : Fin 2) * 1 + 1; have h0 : (i 0).val < 1 := (i 0).isLt; omega
  | ⟨1, _⟩ => show win1_4.index t (1 : Fin 2) * 1 ≤ (i 1).val ∧ (i 1).val < win1_4.index t (1 : Fin 2) * 1 + 1; have h1 : (i 1).val < 1 := (i 1).isLt; omega

/-- Region 1's result array after the region: what the last point left in the block. -/
theorem arrAt1_out (c : Dev nD) (j : S1x1.Idx) (h47 : 47 < cfg1.N) :
    (dat1 V c).arrAt 4 cfg1.N j = acc1 V c 47 h47 j := by
  have hfin : (dat1 V c).arrAt 4 cfg1.N = acc1 V c 47 h47 :=
    (dat1 V c).arrAt_eq_of_cover 4 (acc1 V c 47 h47)
      (fun t hf => by
        have hN : cfg1.N = 48 := N_1
        have h47' : t.val = 47 := by have := (flush1_4 t).mp hf; have := t.isLt; omega
        obtain rfl : t = ⟨47, h47⟩ := Fin.ext h47'
        obtain ⟨-, -, -, -, e0, e1⟩ := index1_zero ⟨47, h47⟩
        show (cfg1.win 4).cut (grid1.coords ⟨47, h47⟩) ((dat1 V c).after 4 ⟨47, h47⟩) = _
        rw [after1_4]
        funext y
        show acc1 V c 47 h47 ((cfg1.win 4).xinj (grid1.coords ⟨47, h47⟩) y)
          = acc1 V c 47 h47 (((cfg1.win 4).blk ⟨47, h47⟩).view.emb y)
        refine congrArg _ ?_
        funext a; apply Fin.ext
        match a with
        | ⟨0, _⟩ => show (y 0).val = win1_4.index ⟨47, h47⟩ (0 : Fin 2) * 1 + 1 * (y 0).val; omega
        | ⟨1, _⟩ => show (y 1).val = win1_4.index ⟨47, h47⟩ (1 : Fin 2) * 1 + 1 * (y 1).val; omega)
      (fun i => ⟨⟨47, h47⟩, (flush1_4 ⟨47, h47⟩).mpr rfl, mem_blk1_out ⟨47, h47⟩ i⟩)
  exact congrFun hfin j

end Cert.KernelIdeal.Hand

end
-- ==== Proof.KI.HostVal.lean ====
/-
  The kernel program's result as one term of its argument arrays and of what the two kernel regions leave in their
  result arrays: the hard cross-entropy term `hardK` (log-softmax of the first feature array, the label's entry of each
  row taken, their mean negated), plus region 0's one entry, plus region 1's one entry divided by `384³`.
-/
import proofs.«426651_j22041772163495_1_alg».proof.Proof.Gen.KernelIdeal.Regions
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-- Row-wise log-softmax of a `384 × 512` array: each row's maximum (from `-∞`) is subtracted, and from the shifted
    row the logarithm of the row's sum of exponentials. -/
def lsmK (x : Vec F S384x512 .f32) : Vec F S384x512 .f32 :=
  let cst : Vec F S_ .f32 := constant S_ .f32 0xFF800000#32
  let v0 : Vec F S384 .f32 := Host.reduce FloatOps.maximumf x cst reducesTo_S384x512_S384_d1 h_S_
  let cst_0 : Vec F S_ .f32 := constant S_ .f32 0xFF800000#32
  let v1 : Vec F S384 .f32 := broadcastInDim S384 ![] bcast_S_S384 cst_0
  let v2 : Vec F S384 .f32 := maximumf v1 v0
  let v3 : Vec F S384x1 .f32 := broadcastInDim S384x1 ![0] bcast_S384_S384x1_0 v2
  let v4 : Vec F S384x512 .f32 := broadcastInDim S384x512 ![0, 1] bcast_S384x1_S384x512_0_1 v3
  let v5 : Vec F S384x512 .f32 := subf x v4
  let v6 : Vec F S384x512 .f32 := Host.exp v5
  let cst_1 : Vec F S_ .f32 := constant S_ .f32 0x00000000#32
  let v7 : Vec F S384 .f32 := Host.reduceAdd v6 cst_1 reducesTo_S384x512_S384_d1 h_S_
  let v8 : Vec F S384x1 .f32 := broadcastInDim S384x1 ![0] bcast_S384_S384x1_0 v7
  let v9 : Vec F S384x1 .f32 := Host.log v8
  let v10 : Vec F S384x512 .f32 := broadcastInDim S384x512 ![0, 1] bcast_S384x1_S384x512_0_1 v9
  subf v5 v10

/-- From each row of a `384 × 512` array, the entry at the row's label: a negative label counts from the row's end
    (`512` is added to it), a label outside `0 … 511` after that yields the quiet NaN in place of an entry. -/
def takeK (lp : Vec F S384x512 .f32) (lab : IVec S384 32) : Vec F S384x1 .f32 :=
  let l : IVec S384x1 32 := broadcastInDim S384x1 ![0] bcast_S384_S384x1_0 lab
  let c : IVec S_ 32 := constantI S_ 32 0#32
  let v0 : IVec S384x1 32 := broadcastInDim S384x1 ![] bcast_S_S384x1 c
  let v1 : IVec S384x1 1 := cmpi .slt l v0
  let c_0 : IVec S_ 32 := constantI S_ 32 512#32
  let v2 : IVec S384x1 32 := broadcastInDim S384x1 ![] bcast_S_S384x1 c_0
  let v3 : IVec S384x1 32 := addi l v2
  let v4 : IVec S384x1 32 := select v1 v3 l
  let v5 : IVec S384x1x1 32 := shapeCast S384x1x1 v4 shapeCasts_S384x1_S384x1x1
  let c_1 : IVec S1 32 := constantI S1 32 511#32
  let c_2 : IVec S_ 32 := constantI S_ 32 0#32
  let v6 : IVec S384x1x1 32 := broadcastInDim S384x1x1 ![] bcast_S_S384x1x1 c_2
  let v7 : IVec S384x1x1 1 := cmpi .sge v5 v6
  let v8 : IVec S1x1x1 32 := broadcastInDim S1x1x1 ![2] bcast_S1_S1x1x1_2 c_1
  let v9 : IVec S384x1x1 32 := broadcastInDim S384x1x1 ![0, 1, 2] bcast_S1x1x1_S384x1x1_0_1_2 v8
  let v10 : IVec S384x1x1 1 := cmpi .sle v5 v9
  let v11 : IVec S384x1x1 1 := andi v7 v10
  let c_3 : IVec S_ 1 := constantI S_ 1 1#1
  let v12 : IVec S384x1 1 := Host.reduce IntOp.andi v11 c_3 reducesTo_S384x1x1_S384x1_d2 h_S_
  let v13 : Vec F S384x1 .f32 := Host.gather gather_S384x512_S384x1x1_S384x1_n_1_0_0_1_2_11 lp v5
  let cst : Vec F S_ .f32 := constant S_ .f32 0x7FC00000#32
  let v14 : Vec F S384x1 .f32 := broadcastInDim S384x1 ![] bcast_S_S384x1 cst
  select v12 v13 v14

/-- The hard cross-entropy term: the labels' entries of the log-softmax, summed over the `384` rows (from `0`),
    divided by `384`, negated. -/
def hardK (x : Vec F S384x512 .f32) (lab : IVec S384 32) : Vec F S_ .f32 :=
  let v2 : Vec F S384x1 .f32 := takeK (lsmK x) lab
  let v3 : Vec F S384 .f32 := shapeCast S384 v2 shapeCasts_S384x1_S384
  let cst : Vec F S_ .f32 := constant S_ .f32 0x00000000#32
  let v4 : Vec F S_ .f32 := Host.reduceAdd v3 cst reducesTo_S384_S_d0 h_S_
  let cst_0 : Vec F S_ .f32 := constant S_ .f32 0x43C00000#32
  let v5 : Vec F S_ .f32 := Host.divf v4 cst_0
  Host.negf v5

/-- The program's result: the hard term, plus the first region's entry, plus the second region's entry divided by
    `384³` (`0x4C580000`). -/
def kres (x : Vec F S384x512 .f32) (lab : IVec S384 32) (o5 o7 : Vec F S1x1 .f32) : Vec F S_ .f32 :=
  let v8 : Vec F S_ .f32 := shapeCast S_ o5 shapeCasts_S1x1_S_
  let v10 : Vec F S_ .f32 := shapeCast S_ o7 shapeCasts_S1x1_S_
  let cst_1 : Vec F S_ .f32 := constant S_ .f32 0x4C580000#32
  let v11 : Vec F S_ .f32 := Host.divf v10 cst_1
  let v12 : Vec F S_ .f32 := addf (hardK x lab) v8
  addf v12 v11

/-! ## Each stretch's result, over any contents before it -/

/-- The log-softmax stretch leaves `lsmK` of the first argument array. -/
theorem after_hostOps0 (V : Valuation τ sig (Elt F)) :
    StableHlo.after hostOps0 V (Proc.devRef .tc main_v0) = lsmK (V (Proc.devRef .tc main_arg0)) := by
  after_results_simp
  simp only [TRef.ofBuf, TRef.toBuf, cast_eq]
  rfl

/-- The labels, one per row, as a column. -/
theorem after_hostOps0_1 (V : Valuation τ sig (Elt F)) :
    StableHlo.after hostOps0_1 V (Proc.devRef .tc main_v1)
      = broadcastInDim S384x1 ![0] bcast_S384_S384x1_0 (V (Proc.devRef .tc main_arg2) : IVec S384 32) := by
  after_results

/-- The take-along-axis stretch leaves `takeK` of the array before it, at the labels whose column it reads. -/
theorem after_hostOps0_2 (V : Valuation τ sig (Elt F)) (lab : IVec S384 32)
    (h : V (Proc.devRef .tc main_v1) = broadcastInDim S384x1 ![0] bcast_S384_S384x1_0 lab) :
    StableHlo.after hostOps0_2 V (Proc.devRef .tc main_v2) = takeK (V (Proc.devRef .tc main_v0)) lab := by
  after_results_simp
  simp only [TRef.ofBuf, TRef.toBuf, cast_eq]
  rw [h]
  rfl

/-- The mean stretch leaves the hard term. -/
theorem after_hostOps0_3 (V : Valuation τ sig (Elt F)) (x : Vec F S384x512 .f32) (lab : IVec S384 32)
    (h : V (Proc.devRef .tc main_v2) = takeK (lsmK x) lab) :
    StableHlo.after hostOps0_3 V (Proc.devRef .tc main_v6) = hardK x lab := by
  after_results
  rw [h]
  rfl

/-- The first region's one entry, as a scalar. -/
theorem after_hostOps1 (V : Valuation τ sig (Elt F)) :
    StableHlo.after hostOps1 V (Proc.devRef .tc main_v8)
      = shapeCast S_ (V (Proc.devRef .tc main_v7) : Vec F S1x1 .f32) shapeCasts_S1x1_S_ := by
  after_results
  rfl

/-- The last stretch's sum. -/
theorem after_hostOps2 (V : Valuation τ sig (Elt F)) :
    StableHlo.after hostOps2 V (Proc.devRef .tc main_v13)
      = addf (addf (V (Proc.devRef .tc main_v6) : Vec F S_ .f32) (V (Proc.devRef .tc main_v8) : Vec F S_ .f32))
          (Host.divf (shapeCast S_ (V (Proc.devRef .tc main_v9) : Vec F S1x1 .f32) shapeCasts_S1x1_S_)
            (constant S_ .f32 0x4C580000#32)) := by
  after_results
  rfl

/-! ## The buffers' contents between the items -/

variable (m : (ℓ : Loc nD τ sig) → Buf (Elt F) ℓ) (outs : Outs (F := F))

theorem V1_main_v0 (c : Dev nD) : V1 m c main_v0 = lsmK (m ((c : Thread nD τ).loc main_arg0)) :=
  after_hostOps0 (V0 m c)

theorem V2_main_v1 (c : Dev nD) :
    V2 m c main_v1 = broadcastInDim S384x1 ![0] bcast_S384_S384x1_0 (m ((c : Thread nD τ).loc main_arg2) : IVec S384 32) :=
  (after_hostOps0_1 (V1 m c)).trans (congrArg _ ((V1_of m c main_arg2 (by decide)).trans rfl))

theorem V2_main_v0 (c : Dev nD) : V2 m c main_v0 = lsmK (m ((c : Thread nD τ).loc main_arg0)) :=
  (V2_of m c main_v0 (by decide)).trans (V1_main_v0 m c)

theorem V3_main_v2 (c : Dev nD) :
    V3 m c main_v2 = takeK (lsmK (m ((c : Thread nD τ).loc main_arg0))) (m ((c : Thread nD τ).loc main_arg2)) :=
  (after_hostOps0_2 (V2 m c) _ (V2_main_v1 m c)).trans (congrArg (fun lp => takeK lp _) (V2_main_v0 m c))

theorem V4_main_v6 (c : Dev nD) :
    V4 m c main_v6 = hardK (m ((c : Thread nD τ).loc main_arg0)) (m ((c : Thread nD τ).loc main_arg2)) :=
  after_hostOps0_3 (V3 m c) _ _ (V3_main_v2 m c)

theorem V5_main_v7 (c : Dev nD) : V5 m outs c main_v7 = outs 5 main_v7 c :=
  Function.update_self _ _ _

theorem V6_main_v8 (c : Dev nD) :
    V6 m outs c main_v8 = shapeCast S_ (outs 5 main_v7 c : Vec F S1x1 .f32) shapeCasts_S1x1_S_ :=
  (after_hostOps1 (V5 m outs c)).trans (congrArg (fun o : Vec F S1x1 .f32 => shapeCast S_ o shapeCasts_S1x1_S_) (V5_main_v7 m outs c))

theorem V7_main_v9 (c : Dev nD) : V7 m outs c main_v9 = outs 7 main_v9 c :=
  Function.update_self _ _ _

theorem V7_main_v8 (c : Dev nD) :
    V7 m outs c main_v8 = shapeCast S_ (outs 5 main_v7 c : Vec F S1x1 .f32) shapeCasts_S1x1_S_ :=
  (V7_of m outs c main_v8 (by decide)).trans (V6_main_v8 m outs c)

theorem V7_main_v6 (c : Dev nD) :
    V7 m outs c main_v6 = hardK (m ((c : Thread nD τ).loc main_arg0)) (m ((c : Thread nD τ).loc main_arg2)) :=
  (V7_of m outs c main_v6 (by decide)).trans <| (V6_of m outs c main_v6 (by decide)).trans <|
    (V5_of m outs c main_v6 (by decide)).trans (V4_main_v6 m c)

/-- The program's result buffer at the end: `kres` of the two argument arrays it reads and of what the two regions
    leave. -/
theorem V8_main_v13 (m : (ℓ : Loc nD τ sig) → Buf (Elt F) ℓ) (outs : Outs (F := F)) (c : Dev nD) :
    V8 m outs c main_v13
      = kres (m ((c : Thread nD τ).loc main_arg0)) (m ((c : Thread nD τ).loc main_arg2)) (outs 5 main_v7 c) (outs 7 main_v9 c) := by
  refine (after_hostOps2 (V7 m outs c)).trans ?_
  rw [V7_main_v6 m outs c, V7_main_v8 m outs c, V7_main_v9 m outs c]
  rfl

end Cert.KernelIdeal.Hand

end
-- ==== Proof.KI.CE.lean ====
/-
  The hard cross-entropy term, at the extended reals and under the label range: the kernel program takes the label's
  entry of each row of the log-softmax through a masked batched gather (an out-of-range label would read a fill word;
  under `0 ≤ label < 512` the mask is all ones and no index wraps), the reference through a two-coordinate gather at
  (row, label); both read entry (i, label i), and both then negate the mean over the 384 rows.

  The steps: a signed word that is not negative is kept by the wrap-around select; a reduction by "and" of ones is one;
  each gather, read at a row, is the operand at its start indices clamped into the operand (a start index already in
  range is its own clamp); the two log-softmax chains are the same operations; the start indices of row p are
  (p, label p) on both sides; the closing sum, division and negation are applied to equal vectors.
-/
import proofs.«426651_j22041772163495_1_alg».proof.Proof.KI.HostVal
import proofs.«426651_j22041772163495_1_alg».proof.Proof.RefRead
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.ValueIdx

/-! ## Words -/

/-- A word that is not negative, read signed, is not wrapped: the select on "below zero" keeps it. -/
theorem wrap_nonneg (w c : BitVec 32) (h : (0 : Int) ≤ w.toInt) :
    Scalar.select (IntOp.cmpi .slt w 0#32) (IntOp.addi w c) w = w := by
  have h0 : IntOp.cmpi .slt w 0#32 = 0#1 := eq_zero_of_ne_one (fun h1 => by
    have h2 := IntOp.cmpi_slt.1 h1
    have e0 : (0#32 : BitVec 32).toInt = 0 := by decide
    omega)
  rw [h0]
  exact select_zero _ _

/-- A left fold by "and" from the bit 1 over bits that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 by decide]
    exact foldl_andi_ones f hf l

/-- A reduction by "and" from the bit 1 of an array of ones is 1 at every index. -/
theorem reduce_andi_ones {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_ones x hx _

/-! ## The two gathers, read at a row -/

/-- The batched gather's dimension numbers (operand axis 0 batched with start-indices axis 0, operand axis 1 collapsed
    and start-indexed, the index vector on axis 2). -/
abbrev DK : GatherDims S384x512 S384x1x1 S384x1 := gather_S384x512_S384x1x1_S384x1_n_1_0_0_1_2_11

/-- The batched gather at row p reads the operand's row p at the start index of row p, read signed and clamped into
    the 512 columns. -/
theorem gatherK_apply {α : Type} (lp : S384x512.Idx → α) (idx : IVec S384x1x1 32) (p : Fin 384) :
    Host.gather gather_S384x512_S384x1x1_S384x1_n_1_0_0_1_2_11 lp idx (ix2 p (0 : Fin 1))
      = lp (ix2 p ⟨min (idx (ix3 p (0 : Fin 1) (0 : Fin 1))).toInt.toNat 511, by omega⟩) := by
  unfold Host.gather
  refine congrArg lp (funext fun a => Fin.ext ?_)
  match a with
  | ⟨0, _⟩ =>
    show DK.start (ix2 p (0 : Fin 1)) idx 0 + DK.batchCoord (ix2 p (0 : Fin 1)) 0 + DK.offCoord (ix2 p (0 : Fin 1)) 0 = p.val
    have hb : (0 : Fin 2) ∈ DK.operandBatchingDims := List.mem_singleton.mpr rfl
    rw [GatherDims.start_batching _ _ _ _ hb,
      GatherDims.offCoord_eq_zero _ _ _ (fun h => ((GatherDims.mem_sKept _ _).mp h).2 hb)]
    simp only [Nat.zero_add, Nat.add_zero]
    unfold GatherDims.batchCoord
    rw [dif_pos hb]
    rfl
  | ⟨1, _⟩ =>
    show DK.start (ix2 p (0 : Fin 1)) idx 1 + DK.batchCoord (ix2 p (0 : Fin 1)) 1 + DK.offCoord (ix2 p (0 : Fin 1)) 1 = min _ 511
    have hc : (1 : Fin 2) ∈ DK.collapsedSliceDims := List.mem_singleton.mpr rfl
    have hm : (1 : Fin 2) ∈ DK.startIndexMap := List.mem_singleton.mpr rfl
    rw [GatherDims.batchCoord_eq_zero _ _ _ (by decide),
      GatherDims.offCoord_eq_zero _ _ _ (fun h => ((GatherDims.mem_sKept _ _).mp h).1 hc)]
    simp only [Nat.add_zero]
    unfold GatherDims.start
    rw [dif_pos hm]
    have hsi : DK.siIdx (ix2 p (0 : Fin 1)) ⟨List.idxOf (1 : Fin 2) DK.startIndexMap,
        List.idxOf_lt_length_iff.2 hm⟩ = ix3 p (0 : Fin 1) (0 : Fin 1) := by
      funext b; refine Fin.ext ?_
      match b with
      | ⟨0, _⟩ => rfl
      | ⟨1, _⟩ => rfl
      | ⟨2, _⟩ => rfl
    rw [hsi]
    rfl

/-- The two-coordinate gather's dimension numbers (both operand axes collapsed and start-indexed, the index vector on
    axis 1). -/
abbrev DR : GatherDims Cert.ReferenceIdeal.S384x512 Cert.ReferenceIdeal.S384x2 Cert.ReferenceIdeal.S384 :=
  Cert.ReferenceIdeal.gather_S384x512_S384x2_S384_n_01_n_n_01_1_11

/-- The two-coordinate gather at row p reads the operand at the pair of start indices of row p, each read signed and
    clamped into its axis. -/
theorem gatherR_apply {α : Type} (lp : Cert.ReferenceIdeal.S384x512.Idx → α) (idx : IVec Cert.ReferenceIdeal.S384x2 32)
    (p : Fin 384) :
    Host.gather Cert.ReferenceIdeal.gather_S384x512_S384x2_S384_n_01_n_n_01_1_11 lp idx (ix1 p)
      = lp (ix2 ⟨min (idx (ix2 p (0 : Fin 2))).toInt.toNat 383, by omega⟩
          ⟨min (idx (ix2 p (1 : Fin 2))).toInt.toNat 511, by omega⟩) := by
  unfold Host.gather
  refine congrArg lp (funext fun a => Fin.ext ?_)
  match a with
  | ⟨0, _⟩ =>
    show DR.start (ix1 p) idx 0 + DR.batchCoord (ix1 p) 0 + DR.offCoord (ix1 p) 0 = min _ 383
    have hc : (0 : Fin 2) ∈ DR.collapsedSliceDims := List.mem_cons_self
    have hm : (0 : Fin 2) ∈ DR.startIndexMap := List.mem_cons_self
    rw [GatherDims.batchCoord_eq_zero _ _ _ List.not_mem_nil,
      GatherDims.offCoord_eq_zero _ _ _ (fun h => ((GatherDims.mem_sKept _ _).mp h).1 hc)]
    simp only [Nat.add_zero]
    unfold GatherDims.start
    rw [dif_pos hm]
    have hsi : DR.siIdx (ix1 p) ⟨List.idxOf (0 : Fin 2) DR.startIndexMap,
        List.idxOf_lt_length_iff.2 hm⟩ = ix2 p (0 : Fin 2) := by
      funext b; refine Fin.ext ?_
      match b with
      | ⟨0, _⟩ => rfl
      | ⟨1, _⟩ => rfl
    rw [hsi]
    rfl
  | ⟨1, _⟩ =>
    show DR.start (ix1 p) idx 1 + DR.batchCoord (ix1 p) 1 + DR.offCoord (ix1 p) 1 = min _ 511
    have hc : (1 : Fin 2) ∈ DR.collapsedSliceDims := List.mem_cons_of_mem _ List.mem_cons_self
    have hm : (1 : Fin 2) ∈ DR.startIndexMap := List.mem_cons_of_mem _ List.mem_cons_self
    rw [GatherDims.batchCoord_eq_zero _ _ _ List.not_mem_nil,
      GatherDims.offCoord_eq_zero _ _ _ (fun h => ((GatherDims.mem_sKept _ _).mp h).1 hc)]
    simp only [Nat.add_zero]
    unfold GatherDims.start
    rw [dif_pos hm]
    have hsi : DR.siIdx (ix1 p) ⟨List.idxOf (1 : Fin 2) DR.startIndexMap,
        List.idxOf_lt_length_iff.2 hm⟩ = ix2 p (1 : Fin 2) := by
      funext b; refine Fin.ext ?_
      match b with
      | ⟨0, _⟩ => rfl
      | ⟨1, _⟩ => rfl
    rw [hsi]
    rfl

/-! ## The log-softmax: the same fifteen operations on both sides -/

/-- The kernel program's log-softmax is the reference's. -/
theorem lsm_eq {F : FTy → Type} [FloatOps F] (x : Vec F S384x512 .f32) :
    lsmK (F := F) x = Cert.ReferenceIdeal.ReadP.val_main_v0 (F := F) x := rfl

/-! ## The kernel program's take, read at a row -/

/-- The start indices the batched gather reads: the labels as a column, a negative one counted from the row's end,
    as a [384, 1, 1] array. -/
def idxK (lab : IVec S384 32) : IVec S384x1x1 32 :=
  let l : IVec S384x1 32 := broadcastInDim S384x1 ![0] bcast_S384_S384x1_0 lab
  let c : IVec S_ 32 := constantI S_ 32 0#32
  let v0 : IVec S384x1 32 := broadcastInDim S384x1 ![] bcast_S_S384x1 c
  let v1 : IVec S384x1 1 := cmpi .slt l v0
  let c_0 : IVec S_ 32 := constantI S_ 32 512#32
  let v2 : IVec S384x1 32 := broadcastInDim S384x1 ![] bcast_S_S384x1 c_0
  let v3 : IVec S384x1 32 := addi l v2
  let v4 : IVec S384x1 32 := select v1 v3 l
  shapeCast S384x1x1 v4 shapeCasts_S384x1_S384x1x1

/-- The mask of the rows whose start index lies in 0 … 511. -/
def okK (lab : IVec S384 32) : IVec S384x1 1 :=
  let v5 : IVec S384x1x1 32 := idxK lab
  let c_1 : IVec S1 32 := constantI S1 32 511#32
  let c_2 : IVec S_ 32 := constantI S_ 32 0#32
  let v6 : IVec S384x1x1 32 := broadcastInDim S384x1x1 ![] bcast_S_S384x1x1 c_2
  let v7 : IVec S384x1x1 1 := cmpi .sge v5 v6
  let v8 : IVec S1x1x1 32 := broadcastInDim S1x1x1 ![2] bcast_S1_S1x1x1_2 c_1
  let v9 : IVec S384x1x1 32 := broadcastInDim S384x1x1 ![0, 1, 2] bcast_S1x1x1_S384x1x1_0_1_2 v8
  let v10 : IVec S384x1x1 1 := cmpi .sle v5 v9
  let v11 : IVec S384x1x1 1 := andi v7 v10
  let c_3 : IVec S_ 1 := constantI S_ 1 1#1
  Host.reduce IntOp.andi v11 c_3 reducesTo_S384x1x1_S384x1_d2 h_S_

/-- The take is the masked batched gather at those start indices. -/
theorem takeK_eq {F : FTy → Type} [FloatOps F] (lp : Vec F S384x512 .f32) (lab : IVec S384 32) :
    takeK (F := F) lp lab = select (okK lab) (Host.gather gather_S384x512_S384x1x1_S384x1_n_1_0_0_1_2_11 lp (idxK lab))
      (broadcastInDim S384x1 ![] bcast_S_S384x1 (constant (F := F) S_ .f32 0x7FC00000#32)) := rfl

/-- Under the label range the start index of row p is the label of row p: nothing wraps. -/
theorem idxK_apply (lab : IVec S384 32) (hlab : ∀ i : S384.Idx, (0 : Int) ≤ (lab i).toInt ∧ (lab i).toInt < 512)
    (p : Fin 384) (b c : Fin 1) : idxK lab (ix3 p b c) = lab (ix1 p) := by
  unfold idxK
  simp only []
  rw [shapeCast_apply _ shapeCasts_S384x1_S384x1x1 (ix3 p b c) (ix2 p (0 : Fin 1)) (by
    rw [Shape.rowMajor_val_two, Shape.rowMajor_val_three]
    show p.val * 1 + 0 = (p.val * 1 + b.val) * 1 + c.val
    omega)]
  have hl : broadcastInDim S384x1 ![0] bcast_S384_S384x1_0 lab (ix2 p (0 : Fin 1)) = lab (ix1 p) :=
    broadcastInDim_apply _ bcast_S384_S384x1_0 lab _ (ix1 p) (fun a => match a with
      | ⟨0, _⟩ => by show p.val = if (384 : Nat) = 1 then 0 else p.val; rw [if_neg (by decide)])
  show Scalar.select (IntOp.cmpi .slt (broadcastInDim S384x1 ![0] bcast_S384_S384x1_0 lab (ix2 p (0 : Fin 1))) 0#32)
      (IntOp.addi (broadcastInDim S384x1 ![0] bcast_S384_S384x1_0 lab (ix2 p (0 : Fin 1))) 512#32)
      (broadcastInDim S384x1 ![0] bcast_S384_S384x1_0 lab (ix2 p (0 : Fin 1))) = lab (ix1 p)
  rw [hl]
  exact wrap_nonneg _ _ (hlab (ix1 p)).1

/-- Under the label range the mask is 1 at every row. -/
theorem okK_apply (lab : IVec S384 32) (hlab : ∀ i : S384.Idx, (0 : Int) ≤ (lab i).toInt ∧ (lab i).toInt < 512)
    (j : S384x1.Idx) : okK lab j = 1#1 := by
  unfold okK
  simp only []
  refine reduce_andi_ones _ _ _ _ j rfl (fun i => ?_)
  obtain ⟨p, b, c, rfl⟩ : ∃ (p : Fin 384) (b c : Fin 1), i = ix3 p b c := ⟨_, _, _, eq_ix3 i⟩
  show IntOp.andi (IntOp.cmpi .sge (idxK lab (ix3 p b c)) 0#32) (IntOp.cmpi .sle (idxK lab (ix3 p b c)) 511#32) = 1#1
  rw [idxK_apply lab hlab p b c]
  have h := hlab (ix1 p)
  have e0 : (0#32 : BitVec 32).toInt = 0 := by decide
  have e511 : (511#32 : BitVec 32).toInt = 511 := by decide
  exact IntOp.andi_eq_one.2 ⟨IntOp.cmpi_sge.2 (by rw [e0]; exact h.1), IntOp.cmpi_sle.2 (by rw [e511]; omega)⟩

/-- The column a row's label names. -/
def labCol (lab : IVec S384 32) (hlab : ∀ i : S384.Idx, (0 : Int) ≤ (lab i).toInt ∧ (lab i).toInt < 512) (p : Fin 384) :
    Fin 512 :=
  ⟨(lab (ix1 p)).toInt.toNat, by have := hlab (ix1 p); omega⟩

/-- Under the label range the take reads, at row p, the operand's entry at (p, label of p). -/
theorem takeK_apply {F : FTy → Type} [FloatOps F] (lp : Vec F S384x512 .f32) (lab : IVec S384 32)
    (hlab : ∀ i : S384.Idx, (0 : Int) ≤ (lab i).toInt ∧ (lab i).toInt < 512) (p : Fin 384) :
    takeK (F := F) lp lab (ix2 p (0 : Fin 1)) = lp (ix2 p (labCol lab hlab p)) := by
  rw [takeK_eq, select_apply, okK_apply lab hlab, select_one, gatherK_apply]
  refine congrArg lp (congrArg (ix2 p) (Fin.ext ?_))
  show min (idxK lab (ix3 p (0 : Fin 1) (0 : Fin 1))).toInt.toNat 511 = (lab (ix1 p)).toInt.toNat
  rw [idxK_apply lab hlab]
  have := hlab (ix1 p)
  exact Nat.min_eq_left (by omega)

/-! ## The reference's take, read at a row -/

/-- Column 0 of the reference's start indices is the row number. -/
theorem v14_col0 {F : FTy → Type} [FloatOps F] (lab : IVec S384 32) (p : Fin 384) :
    Cert.ReferenceIdeal.ReadP.val_main_v14 (F := F) lab (ix2 p (0 : Fin 2)) = BitVec.ofNat 32 p.val := by
  unfold Cert.ReferenceIdeal.ReadP.val_main_v14
  rw [concatenate_pair_apply_left (s₁ := Cert.ReferenceIdeal.S384x1) (s₂ := Cert.ReferenceIdeal.S384x1) (1 : Fin 2) _ _ _ (ix2 p (0 : Fin 2)) rfl (ix2 p (0 : Fin 1)) (fun b => match b with
    | ⟨0, _⟩ => rfl
    | ⟨1, _⟩ => rfl)]
  rw [Cert.ReferenceIdeal.ReadP.val_main_v12_apply]
  show Scalar.select (IntOp.cmpi .slt (BitVec.ofNat 32 p.val) 0#32) (IntOp.addi (BitVec.ofNat 32 p.val) 384#32)
      (BitVec.ofNat 32 p.val) = BitVec.ofNat 32 p.val
  refine wrap_nonneg _ _ ?_
  rw [StableHlo.Predicate.toInt_ofNat_small p.val (by omega)]
  omega

/-- Under the label range column 1 of the reference's start indices is the label: nothing wraps. -/
theorem v14_col1 {F : FTy → Type} [FloatOps F] (lab : IVec S384 32)
    (hlab : ∀ i : S384.Idx, (0 : Int) ≤ (lab i).toInt ∧ (lab i).toInt < 512) (p : Fin 384) :
    Cert.ReferenceIdeal.ReadP.val_main_v14 (F := F) lab (ix2 p (1 : Fin 2)) = lab (ix1 p) := by
  unfold Cert.ReferenceIdeal.ReadP.val_main_v14
  rw [concatenate_pair_apply_right (s₁ := Cert.ReferenceIdeal.S384x1) (s₂ := Cert.ReferenceIdeal.S384x1) (1 : Fin 2) _ _ _ (ix2 p (1 : Fin 2)) rfl rfl (ix2 p (0 : Fin 1)) (fun b => match b with
    | ⟨0, _⟩ => fun _ => rfl
    | ⟨1, _⟩ => fun h => absurd rfl h) rfl]
  rw [Cert.ReferenceIdeal.ReadP.val_main_v13_apply]
  have hk : Cert.ReferenceIdeal.ReadP.idx_main_v13 (ix2 p (0 : Fin 1)) = ix1 p := by
    funext a; match a with | ⟨0, _⟩ => rfl
  rw [hk]
  show Scalar.select (IntOp.cmpi .slt (lab (ix1 p)) 0#32) (IntOp.addi (lab (ix1 p)) 512#32) (lab (ix1 p)) = lab (ix1 p)
  exact wrap_nonneg _ _ (hlab (ix1 p)).1

/-- Under the label range the reference's gather reads, at row p, the log-softmax's entry at (p, label of p). -/
theorem v15_apply {F : FTy → Type} [FloatOps F] (x : Vec F S384x512 .f32) (lab : IVec S384 32)
    (hlab : ∀ i : S384.Idx, (0 : Int) ≤ (lab i).toInt ∧ (lab i).toInt < 512) (p : Fin 384) :
    Cert.ReferenceIdeal.ReadP.val_main_v15 (F := F) x lab (ix1 p)
      = Cert.ReferenceIdeal.ReadP.val_main_v0 (F := F) x (ix2 p (labCol lab hlab p)) := by
  unfold Cert.ReferenceIdeal.ReadP.val_main_v15
  rw [gatherR_apply]
  have ha : (⟨min (Cert.ReferenceIdeal.ReadP.val_main_v14 (F := F) lab (ix2 p (0 : Fin 2))).toInt.toNat 383, by omega⟩ : Fin 384) = p := by
    refine Fin.ext ?_
    show min (Cert.ReferenceIdeal.ReadP.val_main_v14 (F := F) lab (ix2 p (0 : Fin 2))).toInt.toNat 383 = p.val
    rw [v14_col0, StableHlo.Predicate.toInt_ofNat_small p.val (by omega)]
    omega
  have hb : (⟨min (Cert.ReferenceIdeal.ReadP.val_main_v14 (F := F) lab (ix2 p (1 : Fin 2))).toInt.toNat 511, by omega⟩ : Fin 512)
      = labCol lab hlab p := by
    refine Fin.ext ?_
    show min (Cert.ReferenceIdeal.ReadP.val_main_v14 (F := F) lab (ix2 p (1 : Fin 2))).toInt.toNat 511 = (lab (ix1 p)).toInt.toNat
    rw [v14_col1 lab hlab]
    have := hlab (ix1 p)
    exact Nat.min_eq_left (by omega)
  rw [ha, hb]

/-! ## The hard cross-entropy term -/

/-- A [384, 1] column cast to [384] reads, at p, the column at (p, 0). -/
theorem ce_shapeCast_col_apply {α : Type} (v : S384x1.Idx → α) (p : Fin 384) :
    shapeCast S384 v shapeCasts_S384x1_S384 (ix1 p) = v (ix2 p (0 : Fin 1)) :=
  shapeCast_apply v shapeCasts_S384x1_S384 _ _ (by
    rw [Shape.rowMajor_val_two, Shape.rowMajor_val_one]
    show p.val * 1 + 0 = p.val
    omega)

/-- Under the label range the kernel program's hard cross-entropy term is the reference's. -/
theorem hard_eq (x : Vec Ideal S384x512 .f32) (lab : IVec S384 32)
    (hlab : ∀ i : S384.Idx, (0 : Int) ≤ (lab i).toInt ∧ (lab i).toInt < 512) :
    hardK (F := Ideal) x lab = Cert.ReferenceIdeal.ReadP.val_main_v18 (F := Ideal) x lab := by
  have hv : shapeCast S384 (takeK (F := Ideal) (lsmK (F := Ideal) x) lab) shapeCasts_S384x1_S384
      = Cert.ReferenceIdeal.ReadP.val_main_v15 (F := Ideal) x lab := by
    funext i
    obtain ⟨p, rfl⟩ : ∃ p : Fin 384, i = ix1 p := ⟨_, eq_ix1 i⟩
    rw [ce_shapeCast_col_apply, takeK_apply _ _ hlab, lsm_eq, v15_apply _ _ hlab]
  exact congrArg (fun v : Vec Ideal S384 .f32 =>
    Host.negf (F := Ideal) (Host.divf (F := Ideal) (Host.reduceAdd (F := Ideal) v (constant (F := Ideal) S_ .f32 0x00000000#32) reducesTo_S384_S_d0 h_S_)
      (constant (F := Ideal) S_ .f32 0x43C00000#32))) hv

end Cert.KernelIdeal.Val

end
-- ==== Proof.KI.DistLaws.lean ====
/-
  Laws behind the pairwise-distance term, over the extended reals and over literal shapes; no program is imported.

  * words: the word of 1.0 is 1; a comparison bit widened and read as a signed integer is the comparison's indicator;
    a widened bit read signed is the bit read unsigned; the signed maximum with 1 of a small count, as a real;
  * counts: the sum of the indicators of a predicate over the [384, 384] index set is the number of indices where it
    holds, as a real; the integer sum of a widened [384, 384] mask over both axes is the number of set bits;
  * layout: lane sums kept as a column, a column summed to one entry, a column / a single entry spread over the matrix,
    a one-axis contraction read by its coordinate.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

namespace Cert.KernelIdeal.Val.Dist

open Idealize.ShloMosaic Idealize.ShloMosaic.ValueIdx

/-- The [384, 384] matrices of extended reals. -/
abbrev Mat : Type := (⟨2, ![384, 384]⟩ : Shape).Idx → EReal

/-! ## Words -/

/-- The f32 word of 1.0 denotes 1. -/
theorem ofBits_one_f32 : Ideal.ofBits .f32 0x3F800000#32 = 1 := IdealRules.sign_bit.ideal_onePat .f32

/-- A "greater than" bit, widened to 32 bits and read as a signed integer, is the indicator of the comparison. -/
theorem sitofp_widen_gt (t z : EReal) :
    FloatOps.sitofp (F := Ideal) .f32 ((Ideal.cmp .ogt t z).setWidth 32) = if z < t then (1 : EReal) else 0 := by
  by_cases h : z < t
  · rw [if_pos h]
    have e : Ideal.cmp .ogt t z = 1#1 := by unfold Ideal.cmp; simp [h]
    rw [e]
    show ((((1#1 : BitVec 1).setWidth 32).toInt : ℝ) : EReal) = 1
    have : ((1#1 : BitVec 1).setWidth 32).toInt = 1 := by decide
    rw [this]; simp
  · rw [if_neg h]
    have e : Ideal.cmp .ogt t z = 0#1 := by unfold Ideal.cmp; simp [h]
    rw [e]
    show ((((0#1 : BitVec 1).setWidth 32).toInt : ℝ) : EReal) = 0
    have : ((0#1 : BitVec 1).setWidth 32).toInt = 0 := by decide
    rw [this]; simp

/-- A bit widened to 32 bits and read signed is the bit read unsigned: 0 or 1 either way. -/
theorem sitofp_widen_eq_uitofp (b : BitVec 1) :
    FloatOps.sitofp (F := Ideal) .f32 (b.setWidth 32) = FloatOps.uitofp (F := Ideal) .f32 b := by
  rcases BitVec.eq_zero_or_eq_one b with rfl | rfl
  · show ((((0#1 : BitVec 1).setWidth 32).toInt : ℝ) : EReal) = (((0#1 : BitVec 1).toNat : ℝ) : EReal)
    have h1 : ((0#1 : BitVec 1).setWidth 32).toInt = 0 := by decide
    have h2 : (0#1 : BitVec 1).toNat = 0 := by decide
    rw [h1, h2]; simp
  · show ((((1#1 : BitVec 1).setWidth 32).toInt : ℝ) : EReal) = (((1#1 : BitVec 1).toNat : ℝ) : EReal)
    have h1 : ((1#1 : BitVec 1).setWidth 32).toInt = 1 := by decide
    have h2 : (1#1 : BitVec 1).toNat = 1 := by decide
    rw [h1, h2]; simp

/-- A "greater than zero" select keeps the positive entries. -/
theorem select_gt_zero (t : EReal) : Scalar.select (Ideal.cmp .ogt t 0) t 0 = if 0 < t then t else 0 := by
  unfold Scalar.select Ideal.cmp
  by_cases h : 0 < t <;> simp [h]

/-- The signed maximum with 1 of a word that holds a count below 2³¹, read as a signed integer, is the larger of the
    count and 1. -/
theorem sitofp_maxsi_one (w : BitVec 32) (n : ℕ) (hw : w.toNat = n) (hn : n < 2 ^ 31) :
    FloatOps.sitofp (F := Ideal) .f32 (IntOp.maxsi w 1#32) = (((max n 1 : ℕ) : ℝ) : EReal) := by
  have hi : w.toInt = (n : ℤ) := by
    rw [StableHlo.Predicate.toInt_eq_toNat_of_lt (by rw [hw]; exact hn), hw]
  have h1 : (1#32 : BitVec 32).toInt = 1 := by decide
  show (((IntOp.maxsi w 1#32).toInt : ℝ) : EReal) = _
  congr 1
  unfold IntOp.maxsi
  split
  · rename_i hc
    simp only [BitVec.slt, hi, h1, decide_eq_true_eq] at hc
    rw [hi]
    have : max n 1 = n := by omega
    rw [this]; simp
  · rename_i hc
    simp only [BitVec.slt, hi, h1, decide_eq_true_eq] at hc
    rw [h1]
    have : max n 1 = 1 := by omega
    rw [this]; simp

/-- The larger of a count and the word of 1.0, on the extended reals. -/
theorem max_count_one (n : ℕ) :
    max (((n : ℕ) : ℝ) : EReal) (Ideal.ofBits .f32 0x3F800000#32) = (((max n 1 : ℕ) : ℝ) : EReal) := by
  rw [ofBits_one_f32, ← EReal.coe_one, ← Monotone.map_max EReal.coe_strictMono.monotone]
  congr 1
  rw [Nat.cast_max, Nat.cast_one]

/-! ## Counts -/

/-- The number of positive entries of a matrix. -/
def cnt (d : Mat) : ℕ := (Finset.univ.filter fun i => 0 < d i).card

/-- The matrix has 147456 entries. -/
theorem card_idx : Fintype.card (⟨2, ![384, 384]⟩ : Shape).Idx = 147456 := by
  rw [Fintype.card_congr (idxEquiv2 (n0 := 384) (n1 := 384))]
  simp

theorem cnt_le (d : Mat) : cnt d ≤ 147456 := by
  unfold cnt
  exact le_of_le_of_eq (Finset.card_le_univ _) card_idx

/-- Rows then columns: the sum of the indicators of the positive entries is their number. -/
theorem sum_indicator (d : Mat) :
    ∑ a : Fin 384, ∑ b : Fin 384, (if 0 < d (ix2 a b) then (1 : EReal) else 0) = (((cnt d : ℕ) : ℝ) : EReal) := by
  rw [← sum_idx2 (fun i => if 0 < d i then (1 : EReal) else 0), Finset.sum_boole, EReal.coe_natCast]
  rfl

/-- Both axes at once, in 32-bit integers: the sum from 0 of a widened [384, 384] mask is the number of set bits
    (147456 entries: the word does not wrap). -/
theorem toNat_count_all (mask : IVec ⟨2, ![384, 384]⟩ 1) (hw : 1 < 32)
    (h : (⟨2, ![384, 384]⟩ : Shape).ReducesTo [0, 1] ⟨0, ![]⟩) (hu : 0 < (⟨0, ![]⟩ : Shape).numel)
    (j : (⟨0, ![]⟩ : Shape).Idx) :
    (Host.reduce IntOp.addi (extui 32 mask hw) (constantI ⟨0, ![]⟩ 32 0#32) h hu j).toNat
      = (Finset.univ.filter fun i => mask i = 1#1).card := by
  classical
  rw [Host.reduce_eq_fold]
  rw [Finset.filter_true_of_mem fun i _ => funext fun b => b.elim0]
  have hval : ∀ i, (extui 32 mask hw i).toNat = if mask i = 1#1 then 1 else 0 :=
    fun i => StableHlo.Predicate.toNat_setWidth_bit (mask i)
  have hsum : ∑ i : (⟨2, ![384, 384]⟩ : Shape).Idx, (extui 32 mask hw i).toNat
      = (Finset.univ.filter fun i => mask i = 1#1).card := by
    rw [Finset.card_filter]
    exact Finset.sum_congr rfl fun i _ => hval i
  show (Finset.fold IntOp.addi 0#32 (extui 32 mask hw) Finset.univ).toNat = _
  rw [StableHlo.Predicate.toNat_fold_addi _ _ (by
    rw [hsum]
    exact lt_of_le_of_lt (le_of_le_of_eq (Finset.card_le_univ _) card_idx) (by norm_num)), hsum]

/-! ## Layout -/

section Layout
variable {α : Type}

/-- The lane sums of a [384, 512] array, kept as a [384, 1] column: its entry in row `p` is the sum of row `p`. -/
theorem rowsum_col_512 (m : FVec Ideal ⟨2, ![384, 512]⟩ .f32) (h : (⟨2, ![384, 512]⟩ : Shape).Reduces [1] ⟨1, ![384]⟩)
    (hc : (⟨1, ![384]⟩ : Shape).ShapeCasts ⟨2, ![384, 1]⟩) (p : Fin 384) (u : Fin 1) :
    shapeCast ⟨2, ![384, 1]⟩ (multiReduction .add [1] ⟨1, ![384]⟩ m 0x00000000#32 h (.inl rfl) rfl) hc (ix2 p u)
      = ∑ c : Fin 512, m (ix2 p c) := by
  refine (shapeCast_apply _ hc (ix2 p u) (ix1 p) ?_).trans ?_
  · rw [Shape.rowMajor_val_one, Shape.rowMajor_val_two]
    show p.val = p.val * 1 + u.val
    omega
  · refine (Ideal.multiReduction_add_single m _ h _ _ (ix1 p)).trans ?_
    exact Finset.sum_congr rfl fun c _ => congrArg m (funext fun a => Fin.ext (by
      match a with | ⟨0, _⟩ => rfl | ⟨1, _⟩ => rfl))

/-- The same for a [384, 384] array. -/
theorem rowsum_col_384 (m : FVec Ideal ⟨2, ![384, 384]⟩ .f32) (h : (⟨2, ![384, 384]⟩ : Shape).Reduces [1] ⟨1, ![384]⟩)
    (hc : (⟨1, ![384]⟩ : Shape).ShapeCasts ⟨2, ![384, 1]⟩) (p : Fin 384) (u : Fin 1) :
    shapeCast ⟨2, ![384, 1]⟩ (multiReduction .add [1] ⟨1, ![384]⟩ m 0x00000000#32 h (.inl rfl) rfl) hc (ix2 p u)
      = ∑ c : Fin 384, m (ix2 p c) := by
  refine (shapeCast_apply _ hc (ix2 p u) (ix1 p) ?_).trans ?_
  · rw [Shape.rowMajor_val_one, Shape.rowMajor_val_two]
    show p.val = p.val * 1 + u.val
    omega
  · refine (Ideal.multiReduction_add_single m _ h _ _ (ix1 p)).trans ?_
    exact Finset.sum_congr rfl fun c _ => congrArg m (funext fun a => Fin.ext (by
      match a with | ⟨0, _⟩ => rfl | ⟨1, _⟩ => rfl))

/-- A [384, 1] column summed over its rows and kept as a [1, 1] block: its one entry is the sum of the column. -/
theorem colsum_11 (col : FVec Ideal ⟨2, ![384, 1]⟩ .f32) (h : (⟨2, ![384, 1]⟩ : Shape).Reduces [0] ⟨1, ![1]⟩)
    (hc : (⟨1, ![1]⟩ : Shape).ShapeCasts ⟨2, ![1, 1]⟩) (j : (⟨2, ![1, 1]⟩ : Shape).Idx) :
    shapeCast ⟨2, ![1, 1]⟩ (multiReduction .add [0] ⟨1, ![1]⟩ col 0x00000000#32 h (.inl rfl) rfl) hc j
      = ∑ r : Fin 384, col (ix2 r (0 : Fin 1)) := by
  obtain ⟨a, b, rfl⟩ : ∃ (a b : Fin 1), j = ix2 a b := ⟨j 0, j 1, eq_ix2 j⟩
  refine (shapeCast_apply _ hc (ix2 a b) (ix1 (0 : Fin 1)) ?_).trans ?_
  · rw [Shape.rowMajor_val_one, Shape.rowMajor_val_two]
    show (0 : ℕ) = a.val * 1 + b.val
    omega
  · refine (Ideal.multiReduction_add_single col _ h _ _ (ix1 (0 : Fin 1))).trans ?_
    exact Finset.sum_congr rfl fun r _ => congrArg col (funext fun a => Fin.ext (by
      match a with | ⟨0, _⟩ => rfl | ⟨1, _⟩ => rfl))

/-- A [384, 1] column spread over the columns of a [384, 384] matrix: entry (p, q) is the column's row p. -/
theorem bcast_col (v : (⟨2, ![384, 1]⟩ : Shape).Idx → α) (h : (⟨2, ![384, 1]⟩ : Shape).Broadcasts ⟨2, ![384, 384]⟩)
    (p q : Fin 384) : broadcastTo ⟨2, ![384, 384]⟩ v h (ix2 p q) = v (ix2 p (0 : Fin 1)) := by
  refine broadcastTo_apply v h (ix2 p q) (ix2 p (0 : Fin 1)) fun ax => ?_
  match ax with
  | ⟨0, _⟩ =>
    show p.val = if (384 : ℕ) = 1 then 0 else p.val
    rw [if_neg (by decide)]
  | ⟨1, _⟩ =>
    show (0 : ℕ) = if (1 : ℕ) = 1 then 0 else q.val
    rw [if_pos rfl]

/-- A [1, 1] block spread over a [384, 384] matrix: every entry is the block's one entry. -/
theorem bcast_11 (v : (⟨2, ![1, 1]⟩ : Shape).Idx → α) (h : (⟨2, ![1, 1]⟩ : Shape).Broadcasts ⟨2, ![384, 384]⟩)
    (p q : Fin 384) : broadcastTo ⟨2, ![384, 384]⟩ v h (ix2 p q) = v (ix2 (0 : Fin 1) (0 : Fin 1)) := by
  refine broadcastTo_apply v h (ix2 p q) (ix2 (0 : Fin 1) (0 : Fin 1)) fun ax => ?_
  match ax with
  | ⟨0, _⟩ =>
    show (0 : ℕ) = if (1 : ℕ) = 1 then 0 else p.val
    rw [if_pos rfl]
  | ⟨1, _⟩ =>
    show (0 : ℕ) = if (1 : ℕ) = 1 then 0 else q.val
    rw [if_pos rfl]

end Layout

/-! ## The distance term's arithmetic, entry by entry -/

/-- Entry (p, q) of the pairwise-distance matrix of the rows of `x`, diagonal zeroed: the square root of the clamped
    `|x_p|² + |x_q|² − 2 ⟨x_p, x_q⟩`, times one minus the diagonal's indicator. The constants are kept as their words. -/
def pdE (x : (⟨2, ![384, 512]⟩ : Shape).Idx → EReal) (p q : Fin 384) : EReal :=
  Ideal.sqrt (max (((∑ c : Fin 512, x (ix2 p c) * x (ix2 p c)) + ∑ c : Fin 512, x (ix2 q c) * x (ix2 q c))
      - Ideal.ofBits .f32 0x40000000#32 * ∑ c : Fin 512, x (ix2 p c) * x (ix2 q c)) (Ideal.ofBits .f32 0x2B8CBCCC#32))
    * (Ideal.ofBits .f32 0x3F800000#32
        - FloatOps.uitofp (F := Ideal) .f32 (IntOp.cmpi .eq (BitVec.ofNat 32 p.val) (BitVec.ofNat 32 q.val)))

/-- The mean of a matrix's positive entries (the divisor is 1 when there is none). -/
def meanPos (d : Mat) : EReal :=
  Ideal.div (∑ i, if 0 < d i then d i else 0) (((max (cnt d) 1 : ℕ) : ℝ) : EReal)

/-- A matrix divided by the mean of its positive entries. -/
def npd (d : Mat) : Mat := fun i => Ideal.div (d i) (meanPos d)

/-- The smooth-L1 summand of a distance `t`: `½ t²` below one, `t − ½` from one on (constants as their words). -/
def sl1 (t : EReal) : EReal :=
  Scalar.select (Ideal.cmp .olt t (Ideal.ofBits .f32 0x3F800000#32))
    (Ideal.ofBits .f32 0x3F000000#32 * t * t) (t - Ideal.ofBits .f32 0x3F000000#32)

/-- The distance term: the mean over all 147456 pairs of the smooth-L1 distance between two matrices' entries. -/
def distTerm (u v : Mat) : EReal :=
  Ideal.div (∑ i, sl1 (max (u i - v i) (-(u i - v i)))) (Ideal.ofBits .f32 0x48100000#32)

/-- An entry times the indicator that it is positive is the entry kept where it is positive. -/
theorem mul_indicator (t : EReal) : t * (if 0 < t then (1 : EReal) else 0) = if 0 < t then t else 0 := by
  by_cases h : 0 < t
  · rw [if_pos h, if_pos h, mul_one]
  · rw [if_neg h, if_neg h, mul_zero]

end Cert.KernelIdeal.Val.Dist

end
-- ==== Proof.KI.DistKernel.lean ====
/-
  Region 0's payloads read entry by entry on the extended reals.
-/
import proofs.«426651_j22041772163495_1_alg».proof.Proof.KI.Data
import proofs.«426651_j22041772163495_1_alg».proof.Proof.KI.DistLaws

set_option maxRecDepth 16384

noncomputable section

namespace Cert.KernelIdeal.Val.Dist

open Cert.KernelIdeal Cert.KernelIdeal.Gen Cert.KernelIdeal.Hand
open Idealize.ShloMosaic Idealize.ShloMosaic.ValueIdx

section AnyInstance
variable {F : FTy → Type} [FloatOps F]

/-- The squared norms of the rows, kept as a column. -/
def sqcol (x : Vec F S384x512 .f32) : FVec F S384x1 .f32 :=
  shapeCast S384x1 (multiReduction .add [1] S384 (mulf x x) 0x00000000#32 reduces_S384x512_S384 (.inl rfl) rfl)
    shapeCasts_S384_S384x1

/-- The same squared norms laid out as a row. -/
def sqrowK (x : Vec F S384x512 .f32) : FVec F S1x384 .f32 :=
  transpose S1x384 [1, 0] (sqcol x) transposes_S384x1_p1_0_S1x384

/-- The Gram matrix of the rows: the product of the array with its transpose, into a zero accumulator. -/
def gramK (x : Vec F S384x512 .f32) : FVec F S384x384 .f32 :=
  matmul dot_S384x512_S512x384_S384x384_1_0_0_1_n_n none (truncf .bf16 x bitsLt_bf16_f32)
    (transpose S512x384 [1, 0] (truncf .bf16 x bitsLt_bf16_f32) transposes_S384x512_p1_0_S512x384)
    (constant S384x384 .f32 0x00000000#32)

/-- The diagonal's indicator as a float matrix. -/
def eyeK : FVec F S384x384 .f32 :=
  sitofp .f32 (extui 32 (cmpi .eq (iota .tc S384x384 32 [0] iota_S384x384_d0_w32) (iota .tc S384x384 32 [1] iota_S384x384_d1_w32))
    natLt_1_32)

/-- The pairwise distances of the rows, diagonal zeroed. -/
def pdK (x : Vec F S384x512 .f32) : FVec F S384x384 .f32 :=
  mulf
    (sqrt (maximumf
      (subf
        (addf (broadcastTo S384x384 (sqcol x) broadcasts_S384x1_S384x384)
          (broadcastTo S384x384 (sqrowK x) broadcasts_S1x384_S384x384))
        (mulf (broadcast S384x384 (Scalar.ofBits .f32 0x40000000#32)) (gramK x)))
      (broadcast S384x384 (Scalar.ofBits .f32 0x2B8CBCCC#32))))
    (subf (broadcast S384x384 (Scalar.ofBits .f32 0x3F800000#32)) (eyeK (F := F)))

/-- The positive entries' indicator as a float matrix. -/
def posK (d : FVec F S384x384 .f32) : FVec F S384x384 .f32 :=
  sitofp .f32 (extui 32 (cmpf .ogt d (broadcast S384x384 (Scalar.ofBits .f32 0x00000000#32))) natLt_1_32)

/-- A matrix summed over its columns, then over its rows, kept as a one-entry block. -/
def totalK (m : FVec F S384x384 .f32) : FVec F S1x1 .f32 :=
  shapeCast S1x1
    (multiReduction .add [0] S1
      (shapeCast S384x1 (multiReduction .add [1] S384 m 0x00000000#32 reduces_S384x384_S384 (.inl rfl) rfl) shapeCasts_S384_S384x1)
      0x00000000#32 reduces_S384x1_S1 (.inl rfl) rfl)
    shapeCasts_S1_S1x1

/-- A matrix divided by the mean of its positive entries. -/
def normK (d : FVec F S384x384 .f32) : FVec F S384x384 .f32 :=
  divf d (broadcastTo S384x384
    (divf (totalK (mulf d (posK d))) (maximumf (totalK (posK d)) (broadcast S1x1 (Scalar.ofBits .f32 0x3F800000#32))))
    broadcasts_S1x1_S384x384)

/-- Region 0's first payload is the normalised pairwise-distance matrix of the first block. -/
theorem k0_pay2_eq (x : Vec F S384x512 .f32) : k0_pay2 x = normK (pdK x) := rfl

/-- Its second payload recomputes that matrix for the second block and takes the absolute difference. -/
theorem k0_pay3_eq (y : Vec F S384x512 .f32) (v : FVec F S384x384 .f32) :
    k0_pay3 y v = absf (subf v (normK (pdK y))) := rfl

/-- The stored block: the smooth-L1 summands of the absolute differences, summed and divided by the number of pairs. -/
theorem k0_pay1_eq (a : FVec F S384x384 .f32) (c : IVec S384x384 1) (hf : FVec F S384x384 .f32) :
    k0_pay1 a c hf
      = divf (totalK (select c (mulf (mulf hf a) a) (subf a (broadcast S384x384 (Scalar.ofBits .f32 0x3F000000#32)))))
          (broadcast S1x1 (Scalar.ofBits .f32 0x48100000#32)) := rfl

end AnyInstance

/-! ## At the extended reals -/

section AtIdeal

theorem sqrt_apply {s : Shape} {φ : FTy} (a : FVec Ideal s φ) (i : s.Idx) : sqrt a i = Ideal.sqrt (a i) := rfl

/-- A row's squared norm. -/
theorem sqcol_apply (x : Vec Ideal S384x512 .f32) (p : Fin 384) (u : Fin 1) :
    sqcol (F := Ideal) x (ix2 p u) = ∑ c : Fin 512, x (ix2 p c) * x (ix2 p c) :=
  rowsum_col_512 (mulf x x) reduces_S384x512_S384 shapeCasts_S384_S384x1 p u

/-- The column of squared norms laid out as a row: its entry q is row q's squared norm. -/
theorem sqrow_apply (x : Vec Ideal S384x512 .f32) (u : Fin 1) (q : Fin 384) :
    sqrowK (F := Ideal) x (ix2 u q) = ∑ c : Fin 512, x (ix2 q c) * x (ix2 q c) :=
  (transpose_ix2_apply (sqcol (F := Ideal) x) transposes_S384x1_p1_0_S1x384 u q).trans (sqcol_apply x q u)

/-! The product's operand indices at output entry `i` and contraction index `k`: (row of `i`, `k`) and (`k`, column of `i`). -/
theorem gram_lhs_0 (i : S384x384.Idx) (k : dot_S384x512_S512x384_S384x384_1_0_0_1_n_n.contr.Idx) :
    (dot_S384x512_S512x384_S384x384_1_0_0_1_n_n.lhsIdx i k 0).val = (i 0).val := by
  unfold DotDims.lhsIdx
  rw [dif_neg (show ¬(0 : Fin S384x512.rank) ∈ dot_S384x512_S512x384_S384x384_1_0_0_1_n_n.lhsBatch by decide), dif_pos (show (0 : Fin S384x512.rank) ∈ dot_S384x512_S512x384_S384x384_1_0_0_1_n_n.lhsNonContracting by decide)]
  rfl
theorem gram_lhs_1 (i : S384x384.Idx) (k : dot_S384x512_S512x384_S384x384_1_0_0_1_n_n.contr.Idx) :
    (dot_S384x512_S512x384_S384x384_1_0_0_1_n_n.lhsIdx i k 1).val = (k ⟨0, by decide⟩).val :=
  dot_S384x512_S512x384_S384x384_1_0_0_1_n_n.lhsIdx_val_of_single rfl i k
theorem gram_rhs_0 (i : S384x384.Idx) (k : dot_S384x512_S512x384_S384x384_1_0_0_1_n_n.contr.Idx) :
    (dot_S384x512_S512x384_S384x384_1_0_0_1_n_n.rhsIdx i k 0).val = (k ⟨0, by decide⟩).val :=
  dot_S384x512_S512x384_S384x384_1_0_0_1_n_n.rhsIdx_val_of_single rfl i k
theorem gram_rhs_1 (i : S384x384.Idx) (k : dot_S384x512_S512x384_S384x384_1_0_0_1_n_n.contr.Idx) :
    (dot_S384x512_S512x384_S384x384_1_0_0_1_n_n.rhsIdx i k 1).val = (i 1).val := by
  unfold DotDims.rhsIdx
  rw [dif_neg (show ¬(1 : Fin S512x384.rank) ∈ dot_S384x512_S512x384_S384x384_1_0_0_1_n_n.rhsBatch by decide), dif_pos (show (1 : Fin S512x384.rank) ∈ dot_S384x512_S512x384_S384x384_1_0_0_1_n_n.rhsNonContracting by decide)]
  rfl

/-- The Gram matrix's entry (p, q) is the inner product of rows p and q (the change of format is the identity here). -/
theorem gramK_apply (x : Vec Ideal S384x512 .f32) (p q : Fin 384) :
    gramK (F := Ideal) x (ix2 p q) = ∑ c : Fin 512, x (ix2 p c) * x (ix2 q c) := by
  unfold gramK
  refine (Ideal.matmul_constant_zero_apply dot_S384x512_S512x384_S384x384_1_0_0_1_n_n none _ _ (ix2 p q)).trans ?_
  rw [← Equiv.sum_comp (contrEquiv1 dot_S384x512_S512x384_S384x384_1_0_0_1_n_n 512 rfl rfl).symm]
  refine Finset.sum_congr rfl fun c _ => ?_
  have hk := contrEquiv1_symm_val dot_S384x512_S512x384_S384x384_1_0_0_1_n_n 512 rfl rfl c
  have el : dot_S384x512_S512x384_S384x384_1_0_0_1_n_n.lhsIdx (ix2 p q) ((contrEquiv1 dot_S384x512_S512x384_S384x384_1_0_0_1_n_n 512 rfl rfl).symm c) = ix2 p c := funext fun a => Fin.ext (by
    match a with
    | ⟨0, _⟩ => exact gram_lhs_0 _ _
    | ⟨1, _⟩ => exact (gram_lhs_1 _ _).trans hk)
  have er : dot_S384x512_S512x384_S384x384_1_0_0_1_n_n.rhsIdx (ix2 p q) ((contrEquiv1 dot_S384x512_S512x384_S384x384_1_0_0_1_n_n 512 rfl rfl).symm c) = ix2 c q := funext fun a => Fin.ext (by
    match a with
    | ⟨0, _⟩ => exact (gram_rhs_0 _ _).trans hk
    | ⟨1, _⟩ => exact gram_rhs_1 _ _)
  rw [el, er]
  have ht := transpose_ix2_apply (truncf (F := Ideal) .bf16 x bitsLt_bf16_f32)
    transposes_S384x512_p1_0_S512x384 c q
  exact congrArg (x (ix2 p c) * ·) ht

/-- The diagonal's indicator at (p, q): the bit "p's word equals q's word", read as 0 or 1. -/
theorem eyeK_apply (p q : Fin 384) :
    eyeK (F := Ideal) (ix2 p q)
      = FloatOps.uitofp (F := Ideal) .f32 (IntOp.cmpi .eq (BitVec.ofNat 32 p.val) (BitVec.ofNat 32 q.val)) := by
  show FloatOps.sitofp (F := Ideal) .f32 ((IntOp.cmpi .eq (iota .tc S384x384 32 [0] iota_S384x384_d0_w32 (ix2 p q))
      (iota .tc S384x384 32 [1] iota_S384x384_d1_w32 (ix2 p q))).setWidth 32) = _
  rw [iota_single_apply, iota_single_apply, sitofp_widen_eq_uitofp]

/-- The pairwise-distance matrix entry by entry. -/
theorem pdK_apply (x : Vec Ideal S384x512 .f32) (p q : Fin 384) : pdK (F := Ideal) x (ix2 p q) = pdE x p q := by
  unfold pdK pdE
  simp only [mulf_apply, sqrt_apply, maximumf_apply, subf_apply, addf_apply, broadcast_apply, bcast_col,
    broadcastTo_1b_ab_apply, sqrow_apply, sqcol_apply, gramK_apply, eyeK_apply]
  rfl

/-- The positive entries' indicator. -/
theorem posK_apply (d : FVec Ideal S384x384 .f32) (i : S384x384.Idx) :
    posK d i = if 0 < d i then (1 : EReal) else 0 := by
  show FloatOps.sitofp (F := Ideal) .f32 ((Ideal.cmp .ogt (d i) (Ideal.ofBits .f32 0x00000000#32)).setWidth 32) = _
  rw [sitofp_widen_gt, Ideal.ofBits_zero_f32]

/-- Columns first, then rows: the one entry is the double sum. -/
theorem totalK_apply (m : FVec Ideal S384x384 .f32) (j : S1x1.Idx) :
    totalK m j = ∑ a : Fin 384, ∑ b : Fin 384, m (ix2 a b) := by
  unfold totalK
  rw [colsum_11]
  exact Finset.sum_congr rfl fun a _ => rowsum_col_384 m _ _ a 0

/-- The kernel's normalisation is the division by the mean of the positive entries: its float count of them,
    clamped below by 1, is their number (or 1), and an entry times its indicator is the entry kept where positive. -/
theorem normK_eq (d : FVec Ideal S384x384 .f32) : normK d = npd d := by
  funext i
  obtain ⟨p, q, rfl⟩ : ∃ (p q : Fin 384), i = ix2 p q := ⟨i 0, i 1, eq_ix2 i⟩
  have hnum : ∑ a : Fin 384, ∑ b : Fin 384, (mulf d (posK d)) (ix2 a b) = ∑ i, if 0 < d i then d i else 0 := by
    rw [sum_idx2 (fun i => if 0 < d i then d i else 0)]
    exact Finset.sum_congr rfl fun a _ => Finset.sum_congr rfl fun b _ => by
      rw [mulf_apply, posK_apply, mul_indicator]
  have hden : max (∑ a : Fin 384, ∑ b : Fin 384, posK d (ix2 a b)) (Ideal.ofBits .f32 0x3F800000#32)
      = (((max (cnt d) 1 : ℕ) : ℝ) : EReal) := by
    rw [show (∑ a : Fin 384, ∑ b : Fin 384, posK d (ix2 a b))
        = ∑ a : Fin 384, ∑ b : Fin 384, (if 0 < d (ix2 a b) then (1 : EReal) else 0) from
      Finset.sum_congr rfl fun a _ => Finset.sum_congr rfl fun b _ => posK_apply d _, sum_indicator, max_count_one]
  unfold normK npd meanPos
  rw [divf_apply, bcast_11, divf_apply, maximumf_apply, totalK_apply, totalK_apply, broadcast_apply]
  show Ideal.div (d (ix2 p q)) (Ideal.div (∑ a : Fin 384, ∑ b : Fin 384, (mulf d (posK d)) (ix2 a b))
      (max (∑ a : Fin 384, ∑ b : Fin 384, posK d (ix2 a b)) (Ideal.ofBits .f32 0x3F800000#32))) = _
  rw [hnum, hden]

/-- The stored block from the absolute differences `a`: the mean of their smooth-L1 summands. -/
theorem k0_pay1_apply (a : FVec Ideal S384x384 .f32) (j : S1x1.Idx) :
    k0_pay1 a (cmpf .olt a (broadcast S384x384 (Scalar.ofBits .f32 0x3F800000#32)))
        (broadcast S384x384 (Scalar.ofBits .f32 0x3F000000#32)) j
      = Ideal.div (∑ i, sl1 (a i)) (Ideal.ofBits .f32 0x48100000#32) := by
  rw [k0_pay1_eq, divf_apply, totalK_apply, broadcast_apply, sum_idx2 (fun i => sl1 (a i))]
  rfl

/-- Region 0's stored entry: the distance term of the two normalised pairwise-distance matrices. -/
theorem distOut_apply (x y : Vec Ideal S384x512 .f32) (j : S1x1.Idx) :
    distOut (F := Ideal) x y j = distTerm (npd (pdK (F := Ideal) x)) (npd (pdK (F := Ideal) y)) := by
  unfold distOut
  rw [k0_pay2_eq, k0_pay3_eq]
  show k0_pay1 (absf (subf (normK (pdK x)) (normK (pdK y))))
      (cmpf .olt (absf (subf (normK (pdK x)) (normK (pdK y)))) (broadcast S384x384 (Scalar.ofBits .f32 0x3F800000#32)))
      (broadcast S384x384 (Scalar.ofBits .f32 0x3F000000#32)) j = _
  rw [k0_pay1_apply, normK_eq, normK_eq]
  rfl

end AtIdeal

end Cert.KernelIdeal.Val.Dist

end
-- ==== Proof.KI.Dist.lean ====
/-
  The pairwise-distance term, at the extended reals: what region 0's body stores — the mean over all pairs (i, j) of the
  smooth-L1 distance between the normalised pairwise distances of the two feature arrays' rows — is the reference's
  `mean (smooth_l1 (norm_pdist feat_s) (norm_pdist feat_t))`. Both sides are the same arithmetic entry by entry; they differ in how
  the sums are nested (rows then columns against both axes at once), in `d · [d > 0]` against `where (d > 0) d 0`, and in
  the count of positive entries (a float sum of 0/1 entries against an integer count converted to a float).
-/
import proofs.«426651_j22041772163495_1_alg».proof.Proof.KI.DistKernel
import proofs.«426651_j22041772163495_1_alg».proof.Proof.RefRead

set_option maxRecDepth 16384

noncomputable section

namespace Cert.KernelIdeal.Val

open Cert.KernelIdeal Cert.KernelIdeal.Gen Cert.KernelIdeal.Hand
open Idealize.ShloMosaic Idealize.ShloMosaic.ValueIdx

namespace Dist

/-- The reference's pairwise-distance matrix entry by entry: the two squared norms are added in the other order, the
    clamp takes its operands in the other order, the row's word carries an added zero, and the diagonal's bit is read
    unsigned; each sum starts from the zero word. -/
theorem ref_pd (x : Vec Ideal S384x512 .f32) (p q : Fin 384) :
    Cert.ReferenceIdeal.ReadP.val_main_v41 (F := Ideal) x (ix2 p q) = pdE x p q := by
  rw [Cert.ReferenceIdeal.ReadP.val_main_v41_apply,
    Cert.ReferenceIdeal.ReadP.val_main_v32_apply,
    Cert.ReferenceIdeal.ReadP.val_main_v31_apply,
    Cert.ReferenceIdeal.ReadP.val_main_call1_v1_apply,
    Cert.ReferenceIdeal.ReadP.val_main_call1_v0_apply,
    Cert.ReferenceIdeal.ReadP.val_main_cst_6_apply,
    Cert.ReferenceIdeal.ReadP.val_main_v30_apply,
    Cert.ReferenceIdeal.ReadP.val_main_v27_apply,
    Cert.ReferenceIdeal.ReadP.val_main_v25_apply,
    Cert.ReferenceIdeal.ReadP.val_main_v23_apply,
    Cert.ReferenceIdeal.ReadP.val_main_v26_apply,
    Cert.ReferenceIdeal.ReadP.val_main_v24_apply,
    Cert.ReferenceIdeal.ReadP.val_main_v20_apply,
    Cert.ReferenceIdeal.ReadP.val_main_v20_apply,
    Cert.ReferenceIdeal.ReadP.val_main_cst_4_apply,
    Cert.ReferenceIdeal.ReadP.val_main_v29_apply,
    Cert.ReferenceIdeal.ReadP.val_main_v28_apply,
    Cert.ReferenceIdeal.ReadP.val_main_cst_5_apply,
    Cert.ReferenceIdeal.ReadP.val_main_v22_apply,
    Cert.ReferenceIdeal.ReadP.val_main_v40_apply,
    Cert.ReferenceIdeal.ReadP.val_main_v39_apply,
    Cert.ReferenceIdeal.ReadP.val_main_cst_8_apply,
    Cert.ReferenceIdeal.ReadP.val_main_v38_apply,
    Cert.ReferenceIdeal.ReadP.val_main_v37_apply,
    Cert.ReferenceIdeal.ReadP.val_main_v36_apply,
    Cert.ReferenceIdeal.ReadP.val_main_v33_apply,
    Cert.ReferenceIdeal.ReadP.val_main_v35_apply,
    Cert.ReferenceIdeal.ReadP.val_main_c_7_apply,
    Cert.ReferenceIdeal.ReadP.val_main_v34_apply]
  have e1 : ∀ k : Fin 512, Cert.ReferenceIdeal.ReadP.idx_main_v20 (Cert.ReferenceIdeal.ReadP.idx_main_v23 (Cert.ReferenceIdeal.ReadP.idx_main_v25 (ix2 p q))) k = ix2 q k :=
    fun k => funext fun a => Fin.ext (by match a with | ⟨0, _⟩ => rfl | ⟨1, _⟩ => rfl)
  have e2 : ∀ k : Fin 512, Cert.ReferenceIdeal.ReadP.idx_main_v20 (Cert.ReferenceIdeal.ReadP.idx_main_v24 (Cert.ReferenceIdeal.ReadP.idx_main_v26 (ix2 p q))) k = ix2 p k :=
    fun k => funext fun a => Fin.ext (by match a with | ⟨0, _⟩ => rfl | ⟨1, _⟩ => rfl)
  have e3 : ∀ k : Fin 512, Cert.ReferenceIdeal.ReadP.lidx_main_v22 (ix2 p q) k = ix2 p k :=
    fun k => funext fun a => Fin.ext (by match a with | ⟨0, _⟩ => rfl | ⟨1, _⟩ => rfl)
  have e4 : ∀ k : Fin 512, Cert.ReferenceIdeal.ReadP.idx_main_v21 (Cert.ReferenceIdeal.ReadP.ridx_main_v22 (ix2 p q) k) = ix2 q k :=
    fun k => funext fun a => Fin.ext (by match a with | ⟨0, _⟩ => rfl | ⟨1, _⟩ => rfl)
  simp only [Cert.ReferenceIdeal.ReadP.val_main_v19_apply, Cert.ReferenceIdeal.ReadP.val_main_v21_apply, e1, e2, e3, e4]
  show Ideal.sqrt (max (Ideal.ofBits .f32 0x2B8CBCCC#32)
        (((Ideal.ofBits .f32 0x00000000#32 + ∑ k : Fin 512, x (ix2 q k) * x (ix2 q k))
            + (Ideal.ofBits .f32 0x00000000#32 + ∑ k : Fin 512, x (ix2 p k) * x (ix2 p k)))
          - Ideal.ofBits .f32 0x40000000#32 * ∑ k : Fin 512, x (ix2 p k) * x (ix2 q k)))
      * (Ideal.ofBits .f32 0x3F800000#32
          - FloatOps.uitofp (F := Ideal) .f32 (IntOp.cmpi .eq (BitVec.ofNat 32 p.val + 0#32) (BitVec.ofNat 32 q.val)))
    = pdE x p q
  rw [Ideal.ofBits_zero_f32, zero_add, zero_add, max_comm, add_comm (∑ k : Fin 512, x (ix2 q k) * x (ix2 q k)), BitVec.add_zero]
  rfl

/-- The reference's normalisation is the division by the mean of the positive entries: its integer count of them,
    clamped below by 1 and converted, is their number (or 1), and its select keeps the positive entries. -/
theorem ref_npd (x : Vec Ideal S384x512 .f32) :
    Cert.ReferenceIdeal.ReadP.val_main_v52 (F := Ideal) x = npd (Cert.ReferenceIdeal.ReadP.val_main_v41 (F := Ideal) x) := by
  funext i
  have hmask : ∀ i, Cert.ReferenceIdeal.ReadP.val_main_v43 (F := Ideal) x i = 1#1 ↔ 0 < Cert.ReferenceIdeal.ReadP.val_main_v41 (F := Ideal) x i := by
    intro i
    rw [Cert.ReferenceIdeal.ReadP.val_main_v43_apply, Cert.ReferenceIdeal.ReadP.val_main_v42_apply, Cert.ReferenceIdeal.ReadP.val_main_cst_9_apply]
    show Ideal.cmp .ogt (Cert.ReferenceIdeal.ReadP.val_main_v41 (F := Ideal) x i) (Ideal.ofBits .f32 0x00000000#32) = 1#1 ↔ _
    rw [Ideal.ofBits_zero_f32]
    unfold Ideal.cmp
    exact (StableHlo.Predicate.ofBool_eq_one_iff _).trans decide_eq_true_iff
  have hcnt : ∀ j, (Cert.ReferenceIdeal.ReadP.val_main_v47 (F := Ideal) x j).toNat = cnt (Cert.ReferenceIdeal.ReadP.val_main_v41 (F := Ideal) x) := by
    intro j
    unfold Cert.ReferenceIdeal.ReadP.val_main_v47 Cert.ReferenceIdeal.ReadP.val_main_v46 Cert.ReferenceIdeal.ReadP.val_main_c_12
    refine (toNat_count_all (Cert.ReferenceIdeal.ReadP.val_main_v43 (F := Ideal) x) _ _ _ j).trans ?_
    unfold cnt
    exact congrArg Finset.card (Finset.filter_congr fun i _ => hmask i)
  have hsel : ∀ i, Cert.ReferenceIdeal.ReadP.val_main_v44 (F := Ideal) x i
      = if 0 < Cert.ReferenceIdeal.ReadP.val_main_v41 (F := Ideal) x i then Cert.ReferenceIdeal.ReadP.val_main_v41 (F := Ideal) x i else 0 := by
    intro i
    rw [Cert.ReferenceIdeal.ReadP.val_main_v44_apply, Cert.ReferenceIdeal.ReadP.val_main_v43_apply, Cert.ReferenceIdeal.ReadP.val_main_v42_apply, Cert.ReferenceIdeal.ReadP.val_main_cst_9_apply,
      Cert.ReferenceIdeal.ReadP.val_main_call2_v1_apply, Cert.ReferenceIdeal.ReadP.val_main_call2_v0_apply, Cert.ReferenceIdeal.ReadP.val_main_cst_10_apply]
    show Scalar.select (Ideal.cmp .ogt (Cert.ReferenceIdeal.ReadP.val_main_v41 (F := Ideal) x i) (Ideal.ofBits .f32 0x00000000#32))
        (Cert.ReferenceIdeal.ReadP.val_main_v41 (F := Ideal) x i) (Ideal.ofBits .f32 0x00000000#32) = _
    rw [Ideal.ofBits_zero_f32, select_gt_zero]
  rw [Cert.ReferenceIdeal.ReadP.val_main_v52_apply, Cert.ReferenceIdeal.ReadP.val_main_v51_apply, Cert.ReferenceIdeal.ReadP.val_main_v50_apply, Cert.ReferenceIdeal.ReadP.val_main_v45_apply,
    Cert.ReferenceIdeal.ReadP.val_main_cst_11_apply, Cert.ReferenceIdeal.ReadP.val_main_v49_apply, Cert.ReferenceIdeal.ReadP.val_main_v48_apply, Cert.ReferenceIdeal.ReadP.val_main_c_13_apply,
    sitofp_maxsi_one _ _ (hcnt _) (lt_of_le_of_lt (cnt_le _) (by norm_num))]
  unfold npd meanPos
  show Ideal.div (Cert.ReferenceIdeal.ReadP.val_main_v41 (F := Ideal) x i)
      (Ideal.div (Ideal.ofBits .f32 0x00000000#32 + ∑ j, Cert.ReferenceIdeal.ReadP.val_main_v44 (F := Ideal) x j) _) = _
  rw [Ideal.ofBits_zero_f32, zero_add, Finset.sum_congr rfl fun j _ => hsel j]

/-- The reference's closing mean: one sum over all pairs, from the zero word, of the smooth-L1 summands of the absolute
    differences, divided by the number of pairs. -/
theorem ref_dist (x y : Vec Ideal S384x512 .f32) :
    Cert.ReferenceIdeal.ReadP.val_main_v98 (F := Ideal) x y ix0
      = distTerm (Cert.ReferenceIdeal.ReadP.val_main_v52 (F := Ideal) x) (Cert.ReferenceIdeal.ReadP.val_main_v86 (F := Ideal) y) := by
  have hs : ∀ i, Cert.ReferenceIdeal.ReadP.val_main_v96 (F := Ideal) x y i
      = sl1 (max (Cert.ReferenceIdeal.ReadP.val_main_v52 (F := Ideal) x i - Cert.ReferenceIdeal.ReadP.val_main_v86 (F := Ideal) y i)
          (-(Cert.ReferenceIdeal.ReadP.val_main_v52 (F := Ideal) x i - Cert.ReferenceIdeal.ReadP.val_main_v86 (F := Ideal) y i))) := by
    intro i
    rw [Cert.ReferenceIdeal.ReadP.val_main_v96_apply,
      Cert.ReferenceIdeal.ReadP.val_main_v90_apply,
      Cert.ReferenceIdeal.ReadP.val_main_v89_apply,
      Cert.ReferenceIdeal.ReadP.val_main_cst_24_apply,
      Cert.ReferenceIdeal.ReadP.val_main_v93_apply,
      Cert.ReferenceIdeal.ReadP.val_main_v92_apply,
      Cert.ReferenceIdeal.ReadP.val_main_v91_apply,
      Cert.ReferenceIdeal.ReadP.val_main_cst_25_apply,
      Cert.ReferenceIdeal.ReadP.val_main_v95_apply,
      Cert.ReferenceIdeal.ReadP.val_main_v94_apply,
      Cert.ReferenceIdeal.ReadP.val_main_cst_26_apply,
      Cert.ReferenceIdeal.ReadP.val_main_v88_apply,
      Cert.ReferenceIdeal.ReadP.val_main_v87_apply]
    rfl
  rw [Cert.ReferenceIdeal.ReadP.val_main_v98_apply, Cert.ReferenceIdeal.ReadP.val_main_v97_apply, Cert.ReferenceIdeal.ReadP.val_main_cst_27_apply, Cert.ReferenceIdeal.ReadP.val_main_cst_28_apply]
  unfold distTerm
  show Ideal.div (Ideal.ofBits .f32 0x00000000#32 + ∑ i, Cert.ReferenceIdeal.ReadP.val_main_v96 (F := Ideal) x y i)
      (Ideal.ofBits .f32 0x48100000#32) = _
  rw [Ideal.ofBits_zero_f32, zero_add, Finset.sum_congr rfl fun i _ => hs i]

/-- The kernel's and the reference's pairwise-distance matrices are one matrix. -/
theorem pdK_eq_ref (x : Vec Ideal S384x512 .f32) : pdK (F := Ideal) x = Cert.ReferenceIdeal.ReadP.val_main_v41 (F := Ideal) x := by
  funext i
  obtain ⟨p, q, rfl⟩ : ∃ (p q : Fin 384), i = ix2 p q := ⟨i 0, i 1, eq_ix2 i⟩
  rw [pdK_apply, ref_pd]

end Dist

open Dist in
/-- Region 0's stored entry is the reference's distance term. -/
theorem dist_eq (x y : Vec Ideal S384x512 .f32) (j : S1x1.Idx) :
    distOut (F := Ideal) x y j = Cert.ReferenceIdeal.ReadP.val_main_v98 (F := Ideal) x y ix0 := by
  rw [distOut_apply, ref_dist,
    show Cert.ReferenceIdeal.ReadP.val_main_v86 (F := Ideal) y = Cert.ReferenceIdeal.ReadP.val_main_v52 (F := Ideal) y from rfl,
    ref_npd, ref_npd, pdK_eq_ref, pdK_eq_ref]

end Cert.KernelIdeal.Val

end
-- ==== Proof.KI.AnglePt.lean ====
/-
  The angle term, entry by entry, at the extended reals: for the tile of 8 anchor rows 8 t … 8 t + 7, the kernel's
  |G_s − G_t| at (b, i, j) — G the Gram matrix of the directions (f_i − a_b) / max (‖f_i − a_b‖, ε) — is the
  reference's |angle_gram feat_s − angle_gram feat_t| at (8 t + b, i, j).

  Both sides are read at the index down to one common expression: the inner product over the 512 lanes of two
  directions dirE p q, p the anchor row and q a row of the array. The kernel takes the anchor row from the tile a, the
  reference from row 8 t + b of the array itself; the hypothesis that the tile is those rows of the array identifies them.
-/
import proofs.«426651_j22041772163495_1_alg».proof.Proof.KI.Data
import proofs.«426651_j22041772163495_1_alg».proof.Proof.RefRead
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.ValueIdx

/-! ## The direction between two rows -/

/-- The direction from the anchor row p to the row q, entry c: the difference divided by its Euclidean
    length, the length taken no smaller than the floor 1e-12 (kept as its word). -/
def dirE (p q : Fin 512 → EReal) (c : Fin 512) : EReal :=
  Ideal.div (q c - p c)
    (max (Ideal.sqrt (∑ k : Fin 512, (q k - p k) * (q k - p k))) (Ideal.ofBits .f32 0x2B8CBCCC#32))

/-! ## The kernel's stages for one pair (anchor tile, array) -/

/-- The differences x(i, c) − a(b, c), both operands spread over the tile's [8, 384, 512] block. -/
def diffK (a : Vec Ideal S8x512 .f32) (x : Vec Ideal S384x512 .f32) : FVec Ideal S8x384x512 .f32 :=
  subf (broadcastTo S8x384x512 (shapeCast S1x384x512 x shapeCasts_S384x512_S1x384x512) broadcasts_S1x384x512_S8x384x512)
    (broadcastTo S8x384x512 (shapeCast S8x1x512 a shapeCasts_S8x512_S8x1x512) broadcasts_S8x1x512_S8x384x512)

/-- The floored lengths max (sqrt (∑_c diff²), ε), as a column [8, 384, 1]. -/
def lenK (a : Vec Ideal S8x512 .f32) (x : Vec Ideal S384x512 .f32) : FVec Ideal S8x384x1 .f32 :=
  maximumf
    (sqrt (shapeCast S8x384x1
      (multiReduction (F := Ideal) .add [2] S8x384 (mulf (diffK a x) (diffK a x)) 0x00000000#32 reduces_S8x384x512_S8x384 (.inl rfl) rfl)
      shapeCasts_S8x384_S8x384x1))
    (broadcast S8x384x1 (Scalar.ofBits .f32 0x2B8CBCCC#32))

/-- The directions diff / length. -/
def unitK (a : Vec Ideal S8x512 .f32) (x : Vec Ideal S384x512 .f32) : FVec Ideal S8x384x512 .f32 :=
  divf (diffK a x) (broadcastTo S8x384x512 (lenK a x) broadcasts_S8x384x1_S8x384x512)

/-- The Gram matrices of the directions, one per anchor row: the batched product into a zero accumulator. -/
def gramK (a : Vec Ideal S8x512 .f32) (x : Vec Ideal S384x512 .f32) : FVec Ideal S8x384x384 .f32 :=
  matmul dot_S8x384x512_S8x384x512_S8x384x384_2_2_1_1_0_0 none (truncf .bf16 (unitK a x) bitsLt_bf16_f32)
    (truncf .bf16 (unitK a x) bitsLt_bf16_f32) (constant (F := Ideal) S8x384x384 .f32 0x00000000#32)

/-- The payload is the absolute difference of the two Gram stacks. -/
theorem k1_pay3_eq (a : Vec Ideal S8x512 .f32) (x : Vec Ideal S384x512 .f32) (a' : Vec Ideal S8x512 .f32)
    (y : Vec Ideal S384x512 .f32) :
    k1_pay3 (F := Ideal) a x a' y = absf (subf (gramK a x) (gramK a' y)) := rfl

/-! ## The stages at an index -/

/-- An [8, 512] tile viewed [8, 1, 512] reads, at (b, u, c), the tile at (b, c). -/
theorem shapeCast_tile_apply (a : Vec Ideal S8x512 .f32) (b : Fin 8) (u : Fin 1) (c : Fin 512) :
    shapeCast S8x1x512 a shapeCasts_S8x512_S8x1x512 (ix3 b u c) = a (ix2 b c) :=
  shapeCast_apply a shapeCasts_S8x512_S8x1x512 (ix3 b u c) (ix2 b c) (by
    have hu : u.val = 0 := by omega
    rw [Shape.rowMajor_val_two, Shape.rowMajor_val_three]
    show b.val * 512 + c.val = (b.val * 1 + u.val) * 512 + c.val
    rw [hu]; omega)

/-- An [8, 384] matrix viewed as a column stack [8, 384, 1] reads, at (b, i, u), the matrix at (b, i). -/
theorem shapeCast_col_apply (v : FVec Ideal S8x384 .f32) (b : Fin 8) (i : Fin 384) (u : Fin 1) :
    shapeCast S8x384x1 v shapeCasts_S8x384_S8x384x1 (ix3 b i u) = v (ix2 b i) :=
  shapeCast_apply v shapeCasts_S8x384_S8x384x1 (ix3 b i u) (ix2 b i) (by
    have hu : u.val = 0 := by omega
    rw [Shape.rowMajor_val_two, Shape.rowMajor_val_three]
    show b.val * 384 + i.val = (b.val * 384 + i.val) * 1 + u.val
    rw [hu]; omega)

/-- The difference at (b, i, c) is x(i, c) − a(b, c). -/
theorem diffK_apply (a : Vec Ideal S8x512 .f32) (x : Vec Ideal S384x512 .f32) (b : Fin 8) (i : Fin 384) (c : Fin 512) :
    diffK a x (ix3 b i c) = x (ix2 i c) - a (ix2 b c) := by
  unfold diffK
  rw [subf_apply]
  have e1 : broadcastTo S8x384x512 (shapeCast S1x384x512 x shapeCasts_S384x512_S1x384x512) broadcasts_S1x384x512_S8x384x512
      (ix3 b i c) = x (ix2 i c) :=
    (broadcastTo_apply _ broadcasts_S1x384x512_S8x384x512 (ix3 b i c) (ix3 (0 : Fin 1) i c) (fun d => by
      match d with
      | ⟨0, _⟩ => rfl
      | ⟨1, _⟩ => rfl
      | ⟨2, _⟩ => rfl)).trans (shapeCast_ab_1ab_apply x shapeCasts_S384x512_S1x384x512 0 i c)
  have e2 : broadcastTo S8x384x512 (shapeCast S8x1x512 a shapeCasts_S8x512_S8x1x512) broadcasts_S8x1x512_S8x384x512
      (ix3 b i c) = a (ix2 b c) :=
    (broadcastTo_apply _ broadcasts_S8x1x512_S8x384x512 (ix3 b i c) (ix3 b (0 : Fin 1) c) (fun d => by
      match d with
      | ⟨0, _⟩ => rfl
      | ⟨1, _⟩ => rfl
      | ⟨2, _⟩ => rfl)).trans (shapeCast_tile_apply a b 0 c)
  rw [e1, e2]

/-- A sum over the lanes of an [8, 384, 512] block, at (b, i), is the sum over c of the block at (b, i, c). -/
theorem laneSum_apply (v : FVec Ideal S8x384x512 .f32) (b : Fin 8) (i : Fin 384) :
    multiReduction (F := Ideal) .add [2] S8x384 v 0x00000000#32 reduces_S8x384x512_S8x384 (.inl rfl) rfl (ix2 b i)
      = ∑ k : Fin 512, v (ix3 b i k) := by
  refine (Ideal.multiReduction_add_single v 0x00000000#32 reduces_S8x384x512_S8x384 (.inl rfl) rfl (ix2 b i)).trans ?_
  refine Finset.sum_congr rfl fun k _ => congrArg v (funext fun d => Fin.ext ?_)
  match d with
  | ⟨0, _⟩ => rfl
  | ⟨1, _⟩ => rfl
  | ⟨2, _⟩ => rfl

/-- The floored length at (b, i): max (sqrt (∑_c (x(i, c) − a(b, c))²), ε). -/
theorem lenK_apply (a : Vec Ideal S8x512 .f32) (x : Vec Ideal S384x512 .f32) (b : Fin 8) (i : Fin 384) (u : Fin 1) :
    lenK a x (ix3 b i u)
      = max (Ideal.sqrt (∑ k : Fin 512, (x (ix2 i k) - a (ix2 b k)) * (x (ix2 i k) - a (ix2 b k))))
          (Ideal.ofBits .f32 0x2B8CBCCC#32) := by
  unfold lenK
  rw [maximumf_apply, broadcast_apply]
  show max (Ideal.sqrt (shapeCast S8x384x1 _ shapeCasts_S8x384_S8x384x1 (ix3 b i u))) (Ideal.ofBits .f32 0x2B8CBCCC#32) = _
  rw [shapeCast_col_apply, laneSum_apply]
  refine congrArg (fun s => max (Ideal.sqrt s) _) (Finset.sum_congr rfl fun k _ => ?_)
  rw [mulf_apply, diffK_apply]

/-- The direction at (b, i, c) is the direction from the anchor row a(b, ·) to the row x(i, ·), entry c. -/
theorem unitK_apply (a : Vec Ideal S8x512 .f32) (x : Vec Ideal S384x512 .f32) (b : Fin 8) (i : Fin 384) (c : Fin 512) :
    unitK a x (ix3 b i c) = dirE (fun k => a (ix2 b k)) (fun k => x (ix2 i k)) c := by
  unfold unitK dirE
  rw [divf_apply, diffK_apply]
  have e : broadcastTo S8x384x512 (lenK a x) broadcasts_S8x384x1_S8x384x512 (ix3 b i c) = lenK a x (ix3 b i (0 : Fin 1)) :=
    broadcastTo_apply _ broadcasts_S8x384x1_S8x384x512 (ix3 b i c) (ix3 b i (0 : Fin 1)) (fun d => by
      match d with
      | ⟨0, _⟩ => rfl
      | ⟨1, _⟩ => rfl
      | ⟨2, _⟩ => rfl)
  rw [e, lenK_apply]

/-! ## The batched product at an index

The record contracts the lanes (axis 2 of both operands), keeps the rows (axis 1 of each) and carries the anchor axis 0 as
a batch axis: at (b, i, j) the left operand is read at (b, i, k), the right one at (b, j, k). -/

theorem lhs_gram_0 (i : S8x384x384.Idx) (q : dot_S8x384x512_S8x384x512_S8x384x384_2_2_1_1_0_0.contr.Idx) : (dot_S8x384x512_S8x384x512_S8x384x384_2_2_1_1_0_0.lhsIdx i q 0).val = (i 0).val := by
  unfold DotDims.lhsIdx
  rw [dif_pos (show (0 : Fin S8x384x512.rank) ∈ dot_S8x384x512_S8x384x512_S8x384x384_2_2_1_1_0_0.lhsBatch by decide)]
  rfl
theorem lhs_gram_1 (i : S8x384x384.Idx) (q : dot_S8x384x512_S8x384x512_S8x384x384_2_2_1_1_0_0.contr.Idx) : (dot_S8x384x512_S8x384x512_S8x384x384_2_2_1_1_0_0.lhsIdx i q 1).val = (i 1).val := by
  unfold DotDims.lhsIdx
  rw [dif_neg (show ¬(1 : Fin S8x384x512.rank) ∈ dot_S8x384x512_S8x384x512_S8x384x384_2_2_1_1_0_0.lhsBatch by decide),
    dif_pos (show (1 : Fin S8x384x512.rank) ∈ dot_S8x384x512_S8x384x512_S8x384x384_2_2_1_1_0_0.lhsNonContracting by decide)]
  rfl
theorem lhs_gram_2 (i : S8x384x384.Idx) (q : dot_S8x384x512_S8x384x512_S8x384x384_2_2_1_1_0_0.contr.Idx) : (dot_S8x384x512_S8x384x512_S8x384x384_2_2_1_1_0_0.lhsIdx i q 2).val = (q ⟨0, by decide⟩).val :=
  dot_S8x384x512_S8x384x512_S8x384x384_2_2_1_1_0_0.lhsIdx_val_of_single rfl i q
theorem rhs_gram_0 (i : S8x384x384.Idx) (q : dot_S8x384x512_S8x384x512_S8x384x384_2_2_1_1_0_0.contr.Idx) : (dot_S8x384x512_S8x384x512_S8x384x384_2_2_1_1_0_0.rhsIdx i q 0).val = (i 0).val := by
  unfold DotDims.rhsIdx
  rw [dif_pos (show (0 : Fin S8x384x512.rank) ∈ dot_S8x384x512_S8x384x512_S8x384x384_2_2_1_1_0_0.rhsBatch by decide)]
  rfl
theorem rhs_gram_1 (i : S8x384x384.Idx) (q : dot_S8x384x512_S8x384x512_S8x384x384_2_2_1_1_0_0.contr.Idx) : (dot_S8x384x512_S8x384x512_S8x384x384_2_2_1_1_0_0.rhsIdx i q 1).val = (i 2).val := by
  unfold DotDims.rhsIdx
  rw [dif_neg (show ¬(1 : Fin S8x384x512.rank) ∈ dot_S8x384x512_S8x384x512_S8x384x384_2_2_1_1_0_0.rhsBatch by decide),
    dif_pos (show (1 : Fin S8x384x512.rank) ∈ dot_S8x384x512_S8x384x512_S8x384x384_2_2_1_1_0_0.rhsNonContracting by decide)]
  rfl
theorem rhs_gram_2 (i : S8x384x384.Idx) (q : dot_S8x384x512_S8x384x512_S8x384x384_2_2_1_1_0_0.contr.Idx) : (dot_S8x384x512_S8x384x512_S8x384x384_2_2_1_1_0_0.rhsIdx i q 2).val = (q ⟨0, by decide⟩).val :=
  dot_S8x384x512_S8x384x512_S8x384x384_2_2_1_1_0_0.rhsIdx_val_of_single rfl i q

/-- The product of a stack with itself into the zero accumulator, at (b, i, j): the sum over the lanes of row i times
    row j of member b. -/
theorem gram_matmul_apply (u : FVec Ideal S8x384x512 .bf16) (b : Fin 8) (i j : Fin 384) :
    matmul dot_S8x384x512_S8x384x512_S8x384x384_2_2_1_1_0_0 none u u (constant (F := Ideal) S8x384x384 .f32 0x00000000#32) (ix3 b i j)
      = ∑ k : Fin 512, u (ix3 b i k) * u (ix3 b j k) := by
  simp only [matmul]
  rw [Ideal.matmul_constant_zero_apply, ← Equiv.sum_comp (contrEquiv1 dot_S8x384x512_S8x384x512_S8x384x384_2_2_1_1_0_0 512 rfl rfl).symm]
  refine Finset.sum_congr rfl fun k _ => ?_
  have hk := contrEquiv1_symm_val dot_S8x384x512_S8x384x512_S8x384x384_2_2_1_1_0_0 512 rfl rfl k
  have el : dot_S8x384x512_S8x384x512_S8x384x384_2_2_1_1_0_0.lhsIdx (ix3 b i j) ((contrEquiv1 dot_S8x384x512_S8x384x512_S8x384x384_2_2_1_1_0_0 512 rfl rfl).symm k) = ix3 b i k := funext fun a => Fin.ext (by
    match a with
    | ⟨0, _⟩ => exact lhs_gram_0 _ _
    | ⟨1, _⟩ => exact lhs_gram_1 _ _
    | ⟨2, _⟩ => exact (lhs_gram_2 _ _).trans hk)
  have er : dot_S8x384x512_S8x384x512_S8x384x384_2_2_1_1_0_0.rhsIdx (ix3 b i j) ((contrEquiv1 dot_S8x384x512_S8x384x512_S8x384x384_2_2_1_1_0_0 512 rfl rfl).symm k) = ix3 b j k := funext fun a => Fin.ext (by
    match a with
    | ⟨0, _⟩ => exact rhs_gram_0 _ _
    | ⟨1, _⟩ => exact rhs_gram_1 _ _
    | ⟨2, _⟩ => exact (rhs_gram_2 _ _).trans hk)
  rw [el, er]

/-- The kernel's Gram entry at (b, i, j): the inner product of the directions from a(b, ·) to x(i, ·) and to x(j, ·). -/
theorem gramK_apply (a : Vec Ideal S8x512 .f32) (x : Vec Ideal S384x512 .f32) (b : Fin 8) (i j : Fin 384) :
    gramK a x (ix3 b i j)
      = ∑ k : Fin 512, dirE (fun c => a (ix2 b c)) (fun c => x (ix2 i c)) k * dirE (fun c => a (ix2 b c)) (fun c => x (ix2 j c)) k := by
  unfold gramK
  rw [gram_matmul_apply]
  refine Finset.sum_congr rfl fun k _ => ?_
  rw [truncf_apply, truncf_apply, unitK_apply, unitK_apply]

/-! ## The reference's stages at an index, first argument -/

/-- The reference's difference at (r, i, c): x(i, c) − x(r, c), the anchor on the leading axis. -/
theorem refDiff_s (x : Vec Ideal S384x512 .f32) (r i : Fin 384) (c : Fin 512) :
    Cert.ReferenceIdeal.ReadP.val_main_v103 (F := Ideal) x (ix3 r i c) = x (ix2 i c) - x (ix2 r c) := by
  have e1 : Cert.ReferenceIdeal.ReadP.idx_main_v99 (Cert.ReferenceIdeal.ReadP.idx_main_v101 (ix3 r i c)) = ix2 i c :=
    funext fun a => Fin.ext (by match a with | ⟨0, _⟩ => rfl | ⟨1, _⟩ => rfl)
  have e2 : Cert.ReferenceIdeal.ReadP.idx_main_v100 (Cert.ReferenceIdeal.ReadP.idx_main_v102 (ix3 r i c)) = ix2 r c :=
    funext fun a => Fin.ext (by match a with | ⟨0, _⟩ => rfl | ⟨1, _⟩ => rfl)
  rw [Cert.ReferenceIdeal.ReadP.val_main_v103_apply, Cert.ReferenceIdeal.ReadP.val_main_v101_apply, Cert.ReferenceIdeal.ReadP.val_main_v99_apply,
    Cert.ReferenceIdeal.ReadP.val_main_v102_apply, Cert.ReferenceIdeal.ReadP.val_main_v100_apply, e1, e2]
  rfl

/-- The reference's floored length at (r, i): max (sqrt (0 + ∑_c (x(i, c) − x(r, c))²), ε). -/
theorem refLen_s (x : Vec Ideal S384x512 .f32) (r i : Fin 384) (u : Fin 1) :
    Cert.ReferenceIdeal.ReadP.val_main_v109 (F := Ideal) x (ix3 r i u)
      = max (Ideal.sqrt (∑ k : Fin 512, (x (ix2 i k) - x (ix2 r k)) * (x (ix2 i k) - x (ix2 r k))))
          (Ideal.ofBits .f32 0x2B8CBCCC#32) := by
  have e1 : Cert.ReferenceIdeal.ReadP.idx_main_v106 (ix3 r i u) = ix2 r i :=
    funext fun a => Fin.ext (by match a with | ⟨0, _⟩ => rfl | ⟨1, _⟩ => rfl)
  have e2 : ∀ k : Fin 512, Cert.ReferenceIdeal.ReadP.idx_main_v105 (ix2 r i) k = ix3 r i k := fun k =>
    funext fun a => Fin.ext (by match a with | ⟨0, _⟩ => rfl | ⟨1, _⟩ => rfl | ⟨2, _⟩ => rfl)
  rw [Cert.ReferenceIdeal.ReadP.val_main_v109_apply, Cert.ReferenceIdeal.ReadP.val_main_v107_apply, Cert.ReferenceIdeal.ReadP.val_main_v106_apply, e1,
    Cert.ReferenceIdeal.ReadP.val_main_v105_apply, Cert.ReferenceIdeal.ReadP.val_main_v108_apply, Cert.ReferenceIdeal.ReadP.val_main_cst_30_apply,
    Cert.ReferenceIdeal.ReadP.val_main_cst_29_apply]
  show max (Ideal.sqrt (Ideal.ofBits .f32 0x00000000#32 + _)) (Ideal.ofBits .f32 0x2B8CBCCC#32) = _
  rw [Ideal.ofBits_zero_f32, zero_add]
  refine congrArg (fun s => max (Ideal.sqrt s) _) (Finset.sum_congr rfl fun k _ => ?_)
  rw [e2 k, Cert.ReferenceIdeal.ReadP.val_main_v104_apply, refDiff_s]
  rfl

/-- The reference's direction at (r, i, c): from the anchor row x(r, ·) to the row x(i, ·), entry c. -/
theorem refUnit_s (x : Vec Ideal S384x512 .f32) (r i : Fin 384) (c : Fin 512) :
    Cert.ReferenceIdeal.ReadP.val_main_v111 (F := Ideal) x (ix3 r i c) = dirE (fun k => x (ix2 r k)) (fun k => x (ix2 i k)) c := by
  have e1 : Cert.ReferenceIdeal.ReadP.idx_main_v110 (ix3 r i c) = ix3 r i (0 : Fin 1) :=
    funext fun a => Fin.ext (by match a with | ⟨0, _⟩ => rfl | ⟨1, _⟩ => rfl | ⟨2, _⟩ => rfl)
  rw [Cert.ReferenceIdeal.ReadP.val_main_v111_apply, Cert.ReferenceIdeal.ReadP.val_main_v110_apply, e1, refLen_s, refDiff_s]
  rfl

/-- The reference's Gram entry at (r, i, j): the inner product of the directions from x(r, ·) to x(i, ·) and to x(j, ·). -/
theorem refGram_s (x : Vec Ideal S384x512 .f32) (r i j : Fin 384) :
    Cert.ReferenceIdeal.ReadP.val_main_v112 (F := Ideal) x (ix3 r i j)
      = ∑ k : Fin 512, dirE (fun c => x (ix2 r c)) (fun c => x (ix2 i c)) k * dirE (fun c => x (ix2 r c)) (fun c => x (ix2 j c)) k := by
  have el : ∀ k : Fin 512, Cert.ReferenceIdeal.ReadP.lidx_main_v112 (ix3 r i j) k = ix3 r i k := fun k =>
    funext fun a => Fin.ext (by match a with | ⟨0, _⟩ => rfl | ⟨1, _⟩ => rfl | ⟨2, _⟩ => rfl)
  have er : ∀ k : Fin 512, Cert.ReferenceIdeal.ReadP.ridx_main_v112 (ix3 r i j) k = ix3 r j k := fun k =>
    funext fun a => Fin.ext (by match a with | ⟨0, _⟩ => rfl | ⟨1, _⟩ => rfl | ⟨2, _⟩ => rfl)
  rw [Cert.ReferenceIdeal.ReadP.val_main_v112_apply]
  refine Finset.sum_congr rfl fun k _ => ?_
  rw [el k, er k, refUnit_s, refUnit_s]

/-! ## The same for the second argument (the reference repeats the chain on it) -/

/-- The reference's difference at (r, i, c): y(i, c) − y(r, c), the anchor on the leading axis. -/
theorem refDiff_t (y : Vec Ideal S384x512 .f32) (r i : Fin 384) (c : Fin 512) :
    Cert.ReferenceIdeal.ReadP.val_main_v117 (F := Ideal) y (ix3 r i c) = y (ix2 i c) - y (ix2 r c) := by
  have e1 : Cert.ReferenceIdeal.ReadP.idx_main_v113 (Cert.ReferenceIdeal.ReadP.idx_main_v115 (ix3 r i c)) = ix2 i c :=
    funext fun a => Fin.ext (by match a with | ⟨0, _⟩ => rfl | ⟨1, _⟩ => rfl)
  have e2 : Cert.ReferenceIdeal.ReadP.idx_main_v114 (Cert.ReferenceIdeal.ReadP.idx_main_v116 (ix3 r i c)) = ix2 r c :=
    funext fun a => Fin.ext (by match a with | ⟨0, _⟩ => rfl | ⟨1, _⟩ => rfl)
  rw [Cert.ReferenceIdeal.ReadP.val_main_v117_apply, Cert.ReferenceIdeal.ReadP.val_main_v115_apply, Cert.ReferenceIdeal.ReadP.val_main_v113_apply,
    Cert.ReferenceIdeal.ReadP.val_main_v116_apply, Cert.ReferenceIdeal.ReadP.val_main_v114_apply, e1, e2]
  rfl

/-- The reference's floored length at (r, i): max (sqrt (0 + ∑_c (y(i, c) − y(r, c))²), ε). -/
theorem refLen_t (y : Vec Ideal S384x512 .f32) (r i : Fin 384) (u : Fin 1) :
    Cert.ReferenceIdeal.ReadP.val_main_v123 (F := Ideal) y (ix3 r i u)
      = max (Ideal.sqrt (∑ k : Fin 512, (y (ix2 i k) - y (ix2 r k)) * (y (ix2 i k) - y (ix2 r k))))
          (Ideal.ofBits .f32 0x2B8CBCCC#32) := by
  have e1 : Cert.ReferenceIdeal.ReadP.idx_main_v120 (ix3 r i u) = ix2 r i :=
    funext fun a => Fin.ext (by match a with | ⟨0, _⟩ => rfl | ⟨1, _⟩ => rfl)
  have e2 : ∀ k : Fin 512, Cert.ReferenceIdeal.ReadP.idx_main_v119 (ix2 r i) k = ix3 r i k := fun k =>
    funext fun a => Fin.ext (by match a with | ⟨0, _⟩ => rfl | ⟨1, _⟩ => rfl | ⟨2, _⟩ => rfl)
  rw [Cert.ReferenceIdeal.ReadP.val_main_v123_apply, Cert.ReferenceIdeal.ReadP.val_main_v121_apply, Cert.ReferenceIdeal.ReadP.val_main_v120_apply, e1,
    Cert.ReferenceIdeal.ReadP.val_main_v119_apply, Cert.ReferenceIdeal.ReadP.val_main_v122_apply, Cert.ReferenceIdeal.ReadP.val_main_cst_32_apply,
    Cert.ReferenceIdeal.ReadP.val_main_cst_31_apply]
  show max (Ideal.sqrt (Ideal.ofBits .f32 0x00000000#32 + _)) (Ideal.ofBits .f32 0x2B8CBCCC#32) = _
  rw [Ideal.ofBits_zero_f32, zero_add]
  refine congrArg (fun s => max (Ideal.sqrt s) _) (Finset.sum_congr rfl fun k _ => ?_)
  rw [e2 k, Cert.ReferenceIdeal.ReadP.val_main_v118_apply, refDiff_t]
  rfl

/-- The reference's direction at (r, i, c): from the anchor row y(r, ·) to the row y(i, ·), entry c. -/
theorem refUnit_t (y : Vec Ideal S384x512 .f32) (r i : Fin 384) (c : Fin 512) :
    Cert.ReferenceIdeal.ReadP.val_main_v125 (F := Ideal) y (ix3 r i c) = dirE (fun k => y (ix2 r k)) (fun k => y (ix2 i k)) c := by
  have e1 : Cert.ReferenceIdeal.ReadP.idx_main_v124 (ix3 r i c) = ix3 r i (0 : Fin 1) :=
    funext fun a => Fin.ext (by match a with | ⟨0, _⟩ => rfl | ⟨1, _⟩ => rfl | ⟨2, _⟩ => rfl)
  rw [Cert.ReferenceIdeal.ReadP.val_main_v125_apply, Cert.ReferenceIdeal.ReadP.val_main_v124_apply, e1, refLen_t, refDiff_t]
  rfl

/-- The reference's Gram entry at (r, i, j): the inner product of the directions from y(r, ·) to y(i, ·) and to y(j, ·). -/
theorem refGram_t (y : Vec Ideal S384x512 .f32) (r i j : Fin 384) :
    Cert.ReferenceIdeal.ReadP.val_main_v126 (F := Ideal) y (ix3 r i j)
      = ∑ k : Fin 512, dirE (fun c => y (ix2 r c)) (fun c => y (ix2 i c)) k * dirE (fun c => y (ix2 r c)) (fun c => y (ix2 j c)) k := by
  have el : ∀ k : Fin 512, Cert.ReferenceIdeal.ReadP.lidx_main_v126 (ix3 r i j) k = ix3 r i k := fun k =>
    funext fun a => Fin.ext (by match a with | ⟨0, _⟩ => rfl | ⟨1, _⟩ => rfl | ⟨2, _⟩ => rfl)
  have er : ∀ k : Fin 512, Cert.ReferenceIdeal.ReadP.ridx_main_v126 (ix3 r i j) k = ix3 r j k := fun k =>
    funext fun a => Fin.ext (by match a with | ⟨0, _⟩ => rfl | ⟨1, _⟩ => rfl | ⟨2, _⟩ => rfl)
  rw [Cert.ReferenceIdeal.ReadP.val_main_v126_apply]
  refine Finset.sum_congr rfl fun k _ => ?_
  rw [el k, er k, refUnit_t, refUnit_t]

/-! ## The two sides meet -/

/-- One tile's absolute Gram difference is the reference's at the tile's rows. -/
theorem angle_pt (x y : Vec Ideal S384x512 .f32) (t : Fin 48) (a a' : Vec Ideal S8x512 .f32)
    (ha : ∀ (b : Fin 8) (k : Fin 512), a (ix2 b k) = x (ix2 ⟨8 * t.val + b.val, by omega⟩ k))
    (ha' : ∀ (b : Fin 8) (k : Fin 512), a' (ix2 b k) = y (ix2 ⟨8 * t.val + b.val, by omega⟩ k))
    (b : Fin 8) (i j : Fin 384) :
    k1_pay3 (F := Ideal) a x a' y (ix3 b i j)
      = Cert.ReferenceIdeal.ReadP.val_main_v128 (F := Ideal) x y (ix3 ⟨8 * t.val + b.val, by omega⟩ i j) := by
  have hs : (fun c => a (ix2 b c)) = fun c => x (ix2 ⟨8 * t.val + b.val, by omega⟩ c) := funext fun c => ha b c
  have ht : (fun c => a' (ix2 b c)) = fun c => y (ix2 ⟨8 * t.val + b.val, by omega⟩ c) := funext fun c => ha' b c
  rw [k1_pay3_eq]
  show FloatOps.absf (FloatOps.subf (gramK a x (ix3 b i j)) (gramK a' y (ix3 b i j))) = _
  rw [Cert.ReferenceIdeal.ReadP.val_main_v128_apply, Cert.ReferenceIdeal.ReadP.val_main_v127_apply, gramK_apply, gramK_apply,
    refGram_s, refGram_t, hs, ht]
  rfl

end Cert.KernelIdeal.Val

end
-- ==== Proof.KI.AngleSum.lean ====
/-
  The angle term, summed, at the extended reals: region 1's block after its last point — the 48 tiles' sums of the
  smooth-L1 distances, added up point by point from zero — is the reference's sum of `smooth_l1` over all 384³ entries.
  A sum over all anchors is the sum over the tiles of the sums over each tile's 8 anchors; addition on the extended reals
  is commutative and associative, which is all the regrouping needs.
-/
import proofs.«426651_j22041772163495_1_alg».proof.Proof.KI.Blocks
import proofs.«426651_j22041772163495_1_alg».proof.Proof.KI.AnglePt
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx

/-! ## The smooth-L1 distance of one absolute difference, in the operations' own terms -/

/-- `v ↦ if v < 1 then 0.5 · v · v else v − 0.5`. -/
def sl1 (v : Ideal .f32) : Ideal .f32 :=
  Scalar.select (FloatOps.cmpf .olt v (FloatOps.ofBits .f32 0x3F800000#32))
    (FloatOps.mulf (FloatOps.mulf (FloatOps.ofBits .f32 0x3F000000#32) v) v)
    (FloatOps.subf v (FloatOps.ofBits .f32 0x3F000000#32))

/-- The reference's summand at an entry is `sl1` of its absolute Gram difference there. -/
theorem ref_entry (x y : Vec Ideal S384x512 .f32) (i : Cert.ReferenceIdeal.S384x384x384.Idx) :
    Cert.ReferenceIdeal.ReadP.val_main_v136 (F := Ideal) x y i
      = sl1 (Cert.ReferenceIdeal.ReadP.val_main_v128 (F := Ideal) x y i) := by
  rw [Cert.ReferenceIdeal.ReadP.val_main_v136_apply, Cert.ReferenceIdeal.ReadP.val_main_v130_apply,
    Cert.ReferenceIdeal.ReadP.val_main_v133_apply, Cert.ReferenceIdeal.ReadP.val_main_v132_apply,
    Cert.ReferenceIdeal.ReadP.val_main_v135_apply, Cert.ReferenceIdeal.ReadP.val_main_v129_apply,
    Cert.ReferenceIdeal.ReadP.val_main_v131_apply, Cert.ReferenceIdeal.ReadP.val_main_v134_apply]
  rfl

/-! ## Sums over index sets, regrouped -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv p := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The 384 rows are the 48 tiles of 8 rows: row `8 t + b` is row `b` of tile `t`. -/
def rowEquiv : Fin 48 × Fin 8 ≃ Fin 384 where
  toFun p := ⟨8 * p.1.val + p.2.val, by have := p.1.isLt; have := p.2.isLt; omega⟩
  invFun r := (⟨r.val / 8, by have := r.isLt; omega⟩, ⟨r.val % 8, by omega⟩)
  left_inv p := by
    obtain ⟨⟨t, ht⟩, ⟨b, hb⟩⟩ := p
    refine Prod.ext (Fin.ext ?_) (Fin.ext ?_)
    · show (8 * t + b) / 8 = t; omega
    · show (8 * t + b) % 8 = b; omega
  right_inv r := Fin.ext (by show 8 * (r.val / 8) + r.val % 8 = r.val; omega)

/-- A sum over the rows is the sum over the tiles of the sums over each tile's rows. -/
theorem sum_rows {M : Type*} [AddCommMonoid M] (f : Fin 384 → M) :
    ∑ r, f r = ∑ t : Fin 48, ∑ b : Fin 8, f ⟨8 * t.val + b.val, by have := t.isLt; have := b.isLt; omega⟩ := by
  rw [← Equiv.sum_comp rowEquiv f, Fintype.sum_prod_type]
  rfl

/-! ## The step's stored block at its one entry -/

/-- The inserted index of the sum over the last axis. -/
theorem lift_last (h : S8x384x384.Reduces [2] S8x384) (b : Fin 8) (i jj : Fin 384) :
    h.lift (ix2 b i) jj = ix3 b i jj :=
  funext fun a => Fin.ext (match a with | ⟨0, _⟩ => rfl | ⟨1, _⟩ => rfl | ⟨2, _⟩ => rfl)

/-- What a step stores, at its one entry: what the block held before plus the sum, over the tile's 8 anchors and all
    pairs of rows, of `sl1` of the absolute Gram difference. -/
theorem pay1_apply (v38 : FVec Ideal S8x384x384 .f32) (prev : Vec Ideal S1x1 .f32) (j : S1x1.Idx) :
    k1_pay1 (F := Ideal) v38 (cmpf .olt v38 (broadcast S8x384x384 (Scalar.ofBits .f32 0x3F800000#32))) prev j
      = prev j + ∑ b : Fin 8, ∑ i : Fin 384, ∑ jj : Fin 384, sl1 (v38 (ix3 b i jj)) := by
  have hj0 : (j 0).val = 0 := by have h : (j 0).val < 1 := (j 0).isLt; omega
  have hj1 : (j 1).val = 0 := by have h : (j 1).val < 1 := (j 1).isLt; omega
  unfold k1_pay1
  simp only [shapeCast_self, shapeCast_shapeCast]
  show prev j + _ = prev j + _
  refine congrArg (prev j + ·) ?_
  -- the sum over the 8 anchors
  refine (Ideal.multiReduction_add_single _ _ reduces_S8x1x1_S1x1 _ _ j).trans ?_
  refine Finset.sum_congr rfl fun (b : Fin 8) _ => ?_
  refine (shapeCast_apply _ shapeCasts_S8x1_S8x1x1 _ (ix2 b (0 : Fin 1)) ?_).trans ?_
  · rw [Shape.rowMajor_val_two, Shape.rowMajor_val_three]
    show b.val * 1 + 0 = (b.val * 1 + (j 0).val) * 1 + (j 1).val
    omega
  -- the sum over the first row of a pair
  refine (Ideal.multiReduction_add_single _ _ reduces_S8x384x1_S8x1 _ _ (ix2 b (0 : Fin 1))).trans ?_
  refine Finset.sum_congr rfl fun (i : Fin 384) _ => ?_
  refine (shapeCast_apply _ shapeCasts_S8x384_S8x384x1 _ (ix2 b i) ?_).trans ?_
  · rw [Shape.rowMajor_val_two, Shape.rowMajor_val_three]
    show b.val * 384 + i.val = (b.val * 384 + i.val) * 1 + 0
    omega
  -- the sum over the second row of a pair
  refine (Ideal.multiReduction_add_single _ _ reduces_S8x384x384_S8x384 _ _ (ix2 b i)).trans ?_
  refine Finset.sum_congr rfl fun (jj : Fin 384) _ => ?_
  rw [lift_last]
  rfl

/-! ## One point's step, the recursion over the points, and the total -/

/-- The sum over one tile — its 8 anchors and all pairs of rows — of `sl1` of the reference's absolute Gram difference;
    zero past the 48 tiles. -/
def tileSum (x y : Vec Ideal S384x512 .f32) (n : ℕ) : Ideal .f32 :=
  if h : n < 48 then ∑ b : Fin 8, ∑ i : Fin 384, ∑ jj : Fin 384,
      sl1 (Cert.ReferenceIdeal.ReadP.val_main_v128 (F := Ideal) x y (ix3 ⟨8 * n + b.val, by have := b.isLt; omega⟩ i jj))
  else 0

/-- One point's step adds its tile's sum to what the block held. -/
theorem step1_apply (V : (c : Dev nD) → (b : Ref sig .tc) → Buf (Elt Ideal) ((c : Thread nD τ).loc b)) (c : Dev nD)
    (x y : Vec Ideal S384x512 .f32) (hx : V c main_arg0 = x) (hy : V c main_arg1 = y)
    (n : ℕ) (hn : n < cfg1.N) (prev : Vec Ideal S1x1 .f32) (j : S1x1.Idx) :
    step1 (F := Ideal) V c ⟨n, hn⟩ prev j = prev j + tileSum x y n := by
  have hN : cfg1.N = 48 := N_1
  have h48 : n < 48 := by omega
  have hf : iblk1 V c 2 ⟨n, hn⟩ = x := funext fun i => (iblk1_2_eq V c ⟨n, hn⟩ i).trans (congrFun hx i)
  have hf' : iblk1 V c 3 ⟨n, hn⟩ = y := funext fun i => (iblk1_3_eq V c ⟨n, hn⟩ i).trans (congrFun hy i)
  show k1_pay1 (k1_pay3 (iblk1 V c 0 ⟨n, hn⟩) (iblk1 V c 2 ⟨n, hn⟩) (iblk1 V c 1 ⟨n, hn⟩) (iblk1 V c 3 ⟨n, hn⟩))
      (k1_pay4 (iblk1 V c 0 ⟨n, hn⟩) (iblk1 V c 2 ⟨n, hn⟩) (iblk1 V c 1 ⟨n, hn⟩) (iblk1 V c 3 ⟨n, hn⟩)) prev j = _
  rw [hf, hf']
  unfold tileSum
  rw [dif_pos h48]
  refine (pay1_apply _ prev j).trans ?_
  refine congrArg (prev j + ·) ?_
  refine Finset.sum_congr rfl fun b _ => Finset.sum_congr rfl fun i _ => Finset.sum_congr rfl fun jj _ => congrArg sl1 ?_
  exact angle_pt x y ⟨n, h48⟩ _ _
    (fun b k => (iblk1_0_eq V c ⟨n, hn⟩ b k (by have := b.isLt; show 8 * n + b.val < 384; omega)).trans (congrFun hx _))
    (fun b k => (iblk1_1_eq V c ⟨n, hn⟩ b k (by have := b.isLt; show 8 * n + b.val < 384; omega)).trans (congrFun hy _))
    b i jj

/-- What the block holds after the body at position `n`: the cleared value plus the tiles' sums up to `n`. -/
theorem acc1_apply (V : (c : Dev nD) → (b : Ref sig .tc) → Buf (Elt Ideal) ((c : Thread nD τ).loc b)) (c : Dev nD)
    (x y : Vec Ideal S384x512 .f32) (hx : V c main_arg0 = x) (hy : V c main_arg1 = y) (j : S1x1.Idx) :
    ∀ (n : ℕ) (hn : n < cfg1.N),
      acc1 (F := Ideal) V c n hn j = (k1_pay2 (F := Ideal)) j + ∑ t ∈ Finset.range (n + 1), tileSum x y t
  | 0, hn => by
    rw [acc1_zero, step1_apply V c x y hx hy 0 hn, Finset.sum_range_one]
    rfl
  | n + 1, hn => by
    rw [acc1_succ, step1_apply V c x y hx hy (n + 1) hn, acc1_apply V c x y hx hy j n (Nat.lt_of_succ_lt hn),
      Finset.sum_range_succ _ (n + 1), add_assoc]

/-- Region 1's block after the last point is the reference's total, for region-entry contents whose two feature
    arrays are `x` and `y`. -/
theorem angle_total (V : (c : Dev nD) → (b : Ref sig .tc) → Buf (Elt Ideal) ((c : Thread nD τ).loc b)) (c : Dev nD)
    (x y : Vec Ideal S384x512 .f32) (hx : V c main_arg0 = x) (hy : V c main_arg1 = y) (h47 : 47 < cfg1.N) (j : S1x1.Idx) :
    acc1 (F := Ideal) V c 47 h47 j = Cert.ReferenceIdeal.ReadP.val_main_v137 (F := Ideal) x y ix0 := by
  rw [acc1_apply V c x y hx hy j 47 h47, Cert.ReferenceIdeal.ReadP.val_main_v137_apply]
  refine congr (congrArg _ rfl) ?_
  rw [Finset.sum_range, sum_idx3, sum_rows]
  refine Finset.sum_congr rfl fun t _ => ?_
  unfold tileSum
  rw [dif_pos t.isLt]
  refine Finset.sum_congr rfl fun b _ => Finset.sum_congr rfl fun i _ => Finset.sum_congr rfl fun jj _ => ?_
  exact (ref_entry x y _).symm

end Cert.KernelIdeal.Val

end
-- ==== Proof.KI.Final.lean ====
/-
  The closing sum, at the extended reals: the kernel program adds the hard term and the distance term and then the angle
  total divided by 384³; the reference adds to the hard term the sum of one times the distance term and one times the
  angle total divided by 384³. Addition on the extended reals is associative and one is neutral for the product, so
  the two results are one number once the three terms agree.
-/
import proofs.«426651_j22041772163495_1_alg».proof.Proof.KI.HostVal
import proofs.«426651_j22041772163495_1_alg».proof.Proof.RefRead
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.ValueIdx

/-- The word 0x3F800000 denotes one: sign 0, exponent field 127 (the bias), fraction 0, so 2^23 · 2^(127 − 127 − 23). -/
theorem ofBits_one_word : Ideal.ofBits .f32 0x3F800000#32 = 1 := by
  simp [Ideal.ofBits, Ideal.ieee, -EReal.coe_mul]
  norm_num

/-- A one-entry block viewed as a scalar reads the block's entry: both row-major positions are below one. -/
theorem shapeCast_entry_apply (o : Vec Ideal S1x1 .f32) (i : S_.Idx) :
    shapeCast S_ o shapeCasts_S1x1_S_ i = o (ix2 (0 : Fin 1) (0 : Fin 1)) :=
  shapeCast_apply o shapeCasts_S1x1_S_ i (ix2 (0 : Fin 1) (0 : Fin 1))
    ((Fin.val_eq_zero _).trans (Fin.val_eq_zero _).symm)

/-- The kernel program's result term is the reference's, given the three terms' agreement: the hard term, region 0's one
    entry `o5` against the reference's distance term, region 1's one entry `o7` against the reference's angle total. -/
theorem kres_eq (x y : Vec Ideal S384x512 .f32) (lab : IVec S384 32) (o5 o7 : Vec Ideal S1x1 .f32)
    (hh : hardK (F := Ideal) x lab = Cert.ReferenceIdeal.ReadP.val_main_v18 (F := Ideal) x lab)
    (hd : ∀ j : S1x1.Idx, o5 j = Cert.ReferenceIdeal.ReadP.val_main_v98 (F := Ideal) x y ix0)
    (ha : ∀ j : S1x1.Idx, o7 j = Cert.ReferenceIdeal.ReadP.val_main_v137 (F := Ideal) x y ix0) :
    kres (F := Ideal) x lab o5 o7 = Cert.ReferenceIdeal.ReadP.val_main_v142 (F := Ideal) x y lab := by
  funext i
  obtain rfl : i = ix0 := eq_ix0 i
  rw [Cert.ReferenceIdeal.ReadP.val_main_v142_apply, Cert.ReferenceIdeal.ReadP.val_main_v141_apply,
    Cert.ReferenceIdeal.ReadP.val_main_v139_apply, Cert.ReferenceIdeal.ReadP.val_main_v140_apply,
    Cert.ReferenceIdeal.ReadP.val_main_v138_apply, Cert.ReferenceIdeal.ReadP.val_main_cst_38_apply,
    Cert.ReferenceIdeal.ReadP.val_main_cst_39_apply, Cert.ReferenceIdeal.ReadP.val_main_cst_37_apply, ← hh]
  unfold kres
  show FloatOps.addf (F := Ideal) (FloatOps.addf (F := Ideal) (hardK (F := Ideal) x lab ix0) (shapeCast S_ o5 shapeCasts_S1x1_S_ ix0))
      (FloatOps.hostDivf (F := Ideal) (shapeCast S_ o7 shapeCasts_S1x1_S_ ix0) (FloatOps.ofBits (F := Ideal) .f32 0x4C580000#32)) = _
  rw [shapeCast_entry_apply, shapeCast_entry_apply, hd, ha]
  simp only [Ideal.addf_def, Ideal.mulf_def, Ideal.ofBits_def, ofBits_one_word, one_mul, add_assoc]

end Cert.KernelIdeal.Val

end
-- ==== Proof.KI.Algebraic.lean ====
/-
  The kernel program's result, at the extended reals and under the label range, is the reference's result as a function of
  the three argument arrays. The feature arrays reach both kernel regions as launched (no item writes them); region 0
  leaves the reference's distance term in its result array, region 1 the reference's angle total; the host stretches
  compute the reference's hard term; the closing sums agree.
-/
import proofs.«426651_j22041772163495_1_alg».proof.Proof.KI.Frame
import proofs.«426651_j22041772163495_1_alg».proof.Proof.KI.Blocks
import proofs.«426651_j22041772163495_1_alg».proof.Proof.KI.HostVal
import proofs.«426651_j22041772163495_1_alg».proof.Proof.KI.CE
import proofs.«426651_j22041772163495_1_alg».proof.Proof.KI.Dist
import proofs.«426651_j22041772163495_1_alg».proof.Proof.KI.AngleSum
import proofs.«426651_j22041772163495_1_alg».proof.Proof.KI.Final

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx

variable (m : (ℓ : Loc nD τ sig) → Buf (Elt Ideal) ℓ)

/-- The two feature arrays and the labels as launched on core `c`. -/
abbrev xs (c : Dev nD) : Vec Ideal S384x512 .f32 := m ((c : Thread nD τ).loc main_arg0)
abbrev ys (c : Dev nD) : Vec Ideal S384x512 .f32 := m ((c : Thread nD τ).loc main_arg1)
abbrev labs (c : Dev nD) : IVec S384 32 := m ((c : Thread nD τ).loc main_arg2)

/-- Region 0 finds the feature arrays as launched: none of the four host stretches before it writes them. -/
theorem V4_main_arg0 (c : Dev nD) : V4 m c main_arg0 = xs m c :=
  (V4_of m c main_arg0 (by decide)).trans <| (V3_of m c main_arg0 (by decide)).trans <| (V2_of m c main_arg0 (by decide)).trans <| (V1_of m c main_arg0 (by decide)).trans rfl
theorem V4_main_arg1 (c : Dev nD) : V4 m c main_arg1 = ys m c :=
  (V4_of m c main_arg1 (by decide)).trans <| (V3_of m c main_arg1 (by decide)).trans <| (V2_of m c main_arg1 (by decide)).trans <| (V1_of m c main_arg1 (by decide)).trans rfl

/-- So does region 1: region 0 writes only its result array, the reshape after it only its own result. -/
theorem V6_main_arg0 (c : Dev nD) : V6 m (outs5 m) c main_arg0 = xs m c :=
  (V6_of m (outs5 m) c main_arg0 (by decide)).trans <| (V5_of m (outs5 m) c main_arg0 (by decide)).trans (V4_main_arg0 m c)
theorem V6_main_arg1 (c : Dev nD) : V6 m (outs5 m) c main_arg1 = ys m c :=
  (V6_of m (outs5 m) c main_arg1 (by decide)).trans <| (V5_of m (outs5 m) c main_arg1 (by decide)).trans (V4_main_arg1 m c)

/-- Region 0's result array holds the reference's distance term. -/
theorem o5_eq (c : Dev nD) (j : S1x1.Idx) :
    o5 m c j = Cert.ReferenceIdeal.ReadP.val_main_v98 (F := Ideal) (xs m c) (ys m c) ix0 := by
  have h0 : (iblk0 (refV (V4 m)) c 0 t0_0 : Vec Ideal S384x512 .f32) = xs m c :=
    funext fun i => (iblk0_0_eq (refV (V4 m)) c t0_0 i).trans (congrFun (V4_main_arg0 m c) i)
  have h1 : (iblk0 (refV (V4 m)) c 1 t0_0 : Vec Ideal S384x512 .f32) = ys m c :=
    funext fun i => (iblk0_1_eq (refV (V4 m)) c t0_0 i).trans (congrFun (V4_main_arg1 m c) i)
  unfold o5
  rw [arrAt0_out (refV (V4 m)) c j, h0, h1]
  exact dist_eq (xs m c) (ys m c) j

/-- Region 1's result array holds the reference's angle total. -/
theorem o7_eq (c : Dev nD) (j : S1x1.Idx) :
    o7 m c j = Cert.ReferenceIdeal.ReadP.val_main_v137 (F := Ideal) (xs m c) (ys m c) ix0 := by
  have h47 : 47 < cfg1.N := lt_of_lt_of_eq (by decide : 47 < 48) (show cfg1.N = 48 from N_1).symm
  unfold o7
  rw [arrAt1_out (refV (V6 m (outs5 m))) c j h47]
  exact angle_total (refV (V6 m (outs5 m))) c (xs m c) (ys m c) (V6_main_arg0 m c) (V6_main_arg1 m c) h47 j

/-- THE KERNEL PROGRAM'S RESULT is the reference's term of the three argument arrays, when every label is a class index. -/
theorem kernel_result (c : Dev nD)
    (hlab : ∀ i : S384.Idx, (0 : Int) ≤ (labs m c i).toInt ∧ (labs m c i).toInt < 512) :
    V8 m (outs m) c main_v13 = Cert.ReferenceIdeal.ReadP.val_main_v142 (F := Ideal) (xs m c) (ys m c) (labs m c) := by
  rw [V8_main_v13, outs_v7, outs_v9]
  exact kres_eq (xs m c) (ys m c) (labs m c) (o5 m c) (o7 m c) (hard_eq (xs m c) (labs m c) hlab) (o5_eq m c) (o7_eq m c)

end Cert.KernelIdeal.Val

end
-- ==== Proof.lean ====
/-
  An RKD loss — the hard cross-entropy of the student's features against the labels, plus the smooth-L1 distance between the
  two feature arrays' normalised pairwise distances, plus the smooth-L1 distance between their angle Gram tensors — as a
  two-kernel program against its array-at-once reference, over the extended reals, for finite features and labels that are
  class indices (`0 ≤ label < 512`).

  The three frames. The kernel program is eight items, two of them kernel regions (one grid point; 48 grid points with
  the running total kept in the result block and written back at the end, each feature array read through two windows at
  the two halves of its share): every item runs to its end from the buffer contents the item before left, and no item
  writes an argument. The same proof text serves the word-level program and its idealization. The reference is host
  operations only: its run read back.

  The idealization rewrote nothing, so there is nothing to preserve.

  The value. Under the label range both programs read entry (row, label) of the same log-softmax (the kernel program's
  gather is masked and would otherwise read a fill word; the reference's clamps), so the hard terms agree. The distance
  term's two sides differ in the order of two summands, in how the sums over pairs are nested, in `d · [d > 0]` against
  `where (d > 0) d 0`, and in the count of positive distances as a float sum against an integer count converted; the
  angle term's in the anchors being summed tile by tile (48 tiles of 8) against all at once. Sums on the extended reals
  regroup freely, and the closing sum `(h + d) + a` is `h + (1·d + 1·a)`.
-/
import proofs.«426651_j22041772163495_1_alg».proof.Defs
import proofs.«426651_j22041772163495_1_alg».proof.Proof.Gen.Kernel
import proofs.«426651_j22041772163495_1_alg».proof.Proof.Gen.KernelIdeal
import proofs.«426651_j22041772163495_1_alg».proof.Proof.Gen.ReferenceIdeal
import proofs.«426651_j22041772163495_1_alg».proof.Proof.Gen.Pre_finite_inputs
import proofs.«426651_j22041772163495_1_alg».proof.Proof.RefRun
import proofs.«426651_j22041772163495_1_alg».proof.Proof.RefRead
import proofs.«426651_j22041772163495_1_alg».proof.Proof.K.Frame
import proofs.«426651_j22041772163495_1_alg».proof.Proof.KI.Frame
import proofs.«426651_j22041772163495_1_alg».proof.Proof.KI.PreLabels
import proofs.«426651_j22041772163495_1_alg».proof.Proof.KI.Algebraic
import Idealize.ShloMosaic.Adequacy
import Idealize.ShloMosaic.Init

noncomputable section

namespace Cert.Proof

open Idealize.ShloMosaic Idealize.ShloMosaic.TcCoe Idealize.SL.Sem

/-- The word-level program runs to its end, faults nowhere, and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- So does the reference: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both idealized programs end with one result: the kernel program's result
    buffer holds the last valuation's sum over what the two regions left, which is the reference's term of the arguments
    (the labels being class indices by the precondition); the reference's run ends at that term. -/
theorem algebraic : Cert.algebraic_KernelIdeal_ReferenceIdeal := by
  intro m ρ m' ρ' hpre hagree
  refine ⟨fun c => Cert.KernelIdeal.Gen.V8 m (Cert.KernelIdeal.Hand.outs m) c Cert.KernelIdeal.main_v13,
    Cert.KernelIdeal.Hand.run_value m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v142_eq, (hagree c).1, (hagree c).2.1, (hagree c).2.2]
  exact (Cert.KernelIdeal.Val.kernel_result m c
    (Cert.Pre_finite_inputs.Decode.labels_in_range _ _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
